-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x100000x3 : Shape := ⟨3, ![64, 100000, 3]⟩
abbrev S40x512 : Shape := ⟨2, ![40, 512]⟩
abbrev S40 : Shape := ⟨1, ![40]⟩
abbrev S_ : Shape := ⟨0, ![]⟩

class Facts : Prop where
  bcast_S_S64x100000x3 : S_.BroadcastsInDim S64x100000x3 (![] : Fin 0 → Fin S64x100000x3.rank)
  reducesTo_S64x100000x3_S_d0_1_2 : S64x100000x3.ReducesTo [0, 1, 2] S_
  h_S_ : 0 < S_.numel
  bcast_S_S40x512 : S_.BroadcastsInDim S40x512 (![] : Fin 0 → Fin S40x512.rank)
  reducesTo_S40x512_S_d0_1 : S40x512.ReducesTo [0, 1] S_
  bcast_S_S40 : S_.BroadcastsInDim S40 (![] : Fin 0 → Fin S40.rank)
  reducesTo_S40_S_d0 : S40.ReducesTo [0] S_

variable [Facts]

def fn {F : FTy → Type} [FloatOps F] (main_arg0 : FVec F S64x100000x3 .f32) (main_arg1 : FVec F S40x512 .f32) (main_arg2 : FVec F S40 .f32) : IVec S_ 1 :=
  let main_v0 : FVec F S64x100000x3 .f32 := Host.absf main_arg0
  let main_cst : FVec F S_ .f32 := constant S_ .f32 0x7F800000#32
  let main_v1 : FVec F S64x100000x3 .f32 := broadcastInDim S64x100000x3 ![] bcast_S_S64x100000x3 main_cst
  let main_v2 : IVec S64x100000x3 1 := cmpf .olt main_v0 main_v1
  let main_c : IVec S_ 1 := constantI S_ 1 1#1
  let main_v3 : IVec S_ 1 := (fun x v => Host.reduce IntOp.andi x v reducesTo_S64x100000x3_S_d0_1_2 h_S_) main_v2 main_c
  let main_v4 : FVec F S40x512 .f32 := Host.absf main_arg1
  let main_cst_0 : FVec F S_ .f32 := constant S_ .f32 0x7F800000#32
  let main_v5 : FVec F S40x512 .f32 := broadcastInDim S40x512 ![] bcast_S_S40x512 main_cst_0
  let main_v6 : IVec S40x512 1 := cmpf .olt main_v4 main_v5
  let main_c_1 : IVec S_ 1 := constantI S_ 1 1#1
  let main_v7 : IVec S_ 1 := (fun x v => Host.reduce IntOp.andi x v reducesTo_S40x512_S_d0_1 h_S_) main_v6 main_c_1
  let main_v8 : IVec S_ 1 := andi main_v3 main_v7
  let main_v9 : FVec F S40 .f32 := Host.absf main_arg2
  let main_cst_2 : FVec F S_ .f32 := constant S_ .f32 0x7F800000#32
  let main_v10 : FVec F S40 .f32 := broadcastInDim S40 ![] bcast_S_S40 main_cst_2
  let main_v11 : IVec S40 1 := cmpf .olt main_v9 main_v10
  let main_c_3 : IVec S_ 1 := constantI S_ 1 1#1
  let main_v12 : IVec S_ 1 := (fun x v => Host.reduce IntOp.andi x v reducesTo_S40_S_d0 h_S_) main_v11 main_c_3
  let main_v13 : IVec S_ 1 := andi main_v8 main_v12
  main_v13
-- ==== Kernel.lean ====
abbrev S64x100000x3 : Shape := ⟨3, ![64, 100000, 3]⟩
abbrev S40x512 : Shape := ⟨2, ![40, 512]⟩
abbrev S40 : Shape := ⟨1, ![40]⟩
abbrev S64x1x3 : Shape := ⟨3, ![64, 1, 3]⟩
abbrev S1x100000x3 : Shape := ⟨3, ![1, 100000, 3]⟩
abbrev S1x1x3 : Shape := ⟨3, ![1, 1, 3]⟩
abbrev S1x3 : Shape := ⟨2, ![1, 3]⟩
abbrev S512x40 : Shape := ⟨2, ![512, 40]⟩
abbrev S1x40 : Shape := ⟨2, ![1, 40]⟩
abbrev S64x1x40 : Shape := ⟨3, ![64, 1, 40]⟩
abbrev S1x25000x3 : Shape := ⟨3, ![1, 25000, 3]⟩
abbrev S1x1x40 : Shape := ⟨3, ![1, 1, 40]⟩
abbrev S64x8 : Shape := ⟨2, ![64, 8]⟩
abbrev S1x25000x1 : Shape := ⟨3, ![1, 25000, 1]⟩
abbrev S1x25000 : Shape := ⟨2, ![1, 25000]⟩
abbrev S1x1x1 : Shape := ⟨3, ![1, 1, 1]⟩
abbrev S1x1 : Shape := ⟨2, ![1, 1]⟩
abbrev S1x1x64 : Shape := ⟨3, ![1, 1, 64]⟩
abbrev S1x25000x64 : Shape := ⟨3, ![1, 25000, 64]⟩
abbrev S1x1x8 : Shape := ⟨3, ![1, 1, 8]⟩
abbrev S1x25000x8 : Shape := ⟨3, ![1, 25000, 8]⟩
abbrev S25000x64 : Shape := ⟨2, ![25000, 64]⟩
abbrev S25000x8 : Shape := ⟨2, ![25000, 8]⟩
abbrev S1x512 : Shape := ⟨2, ![1, 512]⟩
abbrev S64x40 : Shape := ⟨2, ![64, 40]⟩

abbrev nBuf : Space → Nat
  | .hbm => 9
  | .vmem => 17
  | .smem => 0
  | _ => 0

abbrev bufTy : (tb : Table) → Fin (tcTables nBuf tb) → BufTy
  | .hbm, ⟨0, _⟩ => ⟨S64x100000x3, .f32⟩
  | .hbm, ⟨1, _⟩ => ⟨S40x512, .f32⟩
  | .hbm, ⟨2, _⟩ => ⟨S40, .f32⟩
  | .hbm, ⟨3, _⟩ => ⟨S64x1x3, .f32⟩
  | .hbm, ⟨4, _⟩ => ⟨S64x1x3, .f32⟩
  | .hbm, ⟨5, _⟩ => ⟨S512x40, .f32⟩
  | .hbm, ⟨6, _⟩ => ⟨S1x40, .f32⟩
  | .hbm, ⟨7, _⟩ => ⟨S64x1x40, .f32⟩
  | .hbm, ⟨8, _⟩ => ⟨S64x40, .f32⟩
  | .local _ .vmem, ⟨0, _⟩ => ⟨S1x100000x3, .f32⟩
  | .local _ .vmem, ⟨1, _⟩ => ⟨S1x100000x3, .f32⟩
  | .local _ .vmem, ⟨2, _⟩ => ⟨S1x1x3, .f32⟩
  | .local _ .vmem, ⟨3, _⟩ => ⟨S1x1x3, .f32⟩
  | .local _ .vmem, ⟨4, _⟩ => ⟨S1x1x3, .f32⟩
  | .local _ .vmem, ⟨5, _⟩ => ⟨S1x1x3, .f32⟩
  | .local _ .vmem, ⟨6, _⟩ => ⟨S1x25000x3, .f32⟩
  | .local _ .vmem, ⟨7, _⟩ => ⟨S1x25000x3, .f32⟩
  | .local _ .vmem, ⟨8, _⟩ => ⟨S1x1x3, .f32⟩
  | .local _ .vmem, ⟨9, _⟩ => ⟨S1x1x3, .f32⟩
  | .local _ .vmem, ⟨10, _⟩ => ⟨S1x1x3, .f32⟩
  | .local _ .vmem, ⟨11, _⟩ => ⟨S1x1x3, .f32⟩
  | .local _ .vmem, ⟨12, _⟩ => ⟨S512x40, .f32⟩
  | .local _ .vmem, ⟨13, _⟩ => ⟨S1x40, .f32⟩
  | .local _ .vmem, ⟨14, _⟩ => ⟨S1x1x40, .f32⟩
  | .local _ .vmem, ⟨15, _⟩ => ⟨S1x1x40, .f32⟩
  | .local _ .vmem, ⟨16, _⟩ => ⟨S64x8, .f32⟩
  | _, _ => ⟨S64x100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x100000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![64, 4], ![false, false]⟩

def k1_cond2 (i : grid1.Coords) : BitVec 1 :=
  let arg1 : BitVec 32 := BitVec.ofNat 32 (i 1).val
  let c3_i32 : BitVec 32 := 3#32
  let v90 : BitVec 1 := Scalar.cmpi .eq arg1 c3_i32
  let v91 : BitVec 32 := Scalar.extui v90
  let c0_i32_21 : BitVec 32 := 0#32
  let v92 : BitVec 1 := Scalar.cmpi .ne v91 c0_i32_21
  v92

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x25000x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1x3 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S512x40 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x40 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x1x40 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  inb_S1x100000x3_S1x100000x3_0_0_0 : ∀ a, (![0, 0, 0] : Fin 3 → Nat) a + S1x100000x3.size a ≤ S1x100000x3.size a
  h_S1x100000x3 : 0 < S1x100000x3.numel
  reduces_S1x100000x3_S1x3 : S1x100000x3.Reduces [1] S1x3
  shapeCasts_S1x3_S1x1x3 : S1x3.ShapeCasts S1x1x3
  inb_S1x1x3_S1x1x3_0_0_0 : ∀ a, (![0, 0, 0] : Fin 3 → Nat) a + S1x1x3.size a ≤ S1x1x3.size a
  h_S1x1x3 : 0 < S1x1x3.numel
  transposes_S40x512_S512x40_1_0 : S40x512.Transposes [1, 0] S512x40
  shapeCasts_S40_S1x40 : S40.ShapeCasts S1x40
  inb_S64x8_S64x8_0_0 : ∀ a, (![0, 0] : Fin 2 → Nat) a + S64x8.size a ≤ S64x8.size a
  h_S64x8 : 0 < S64x8.numel
  shapeCasts_S64x8_S64x8 : S64x8.ShapeCasts S64x8
  shapeCasts_S1x1x3_S1x1x3 : S1x1x3.ShapeCasts S1x1x3
  inb_S1x25000x3_S1x25000x3_0_0_0 : ∀ a, (![0, 0, 0] : Fin 3 → Nat) a + S1x25000x3.size a ≤ S1x25000x3.size a
  h_S1x25000x3 : 0 < S1x25000x3.numel
  slices_S1x25000x3_o0_0_0_S1x25000x1 : S1x25000x3.Slices ![0, 0, 0] S1x25000x1
  shapeCasts_S1x25000x1_S1x25000 : S1x25000x1.ShapeCasts S1x25000
  slices_S1x25000x3_o0_0_1_S1x25000x1 : S1x25000x3.Slices ![0, 0, 1] S1x25000x1
  slices_S1x25000x3_o0_0_2_S1x25000x1 : S1x25000x3.Slices ![0, 0, 2] S1x25000x1
  slices_S1x1x3_o0_0_0_S1x1x1 : S1x1x3.Slices ![0, 0, 0] S1x1x1
  shapeCasts_S1x1x1_S1x1 : S1x1x1.ShapeCasts S1x1
  slices_S1x1x3_o0_0_1_S1x1x1 : S1x1x3.Slices ![0, 0, 1] S1x1x1
  slices_S1x1x3_o0_0_2_S1x1x1 : S1x1x3.Slices ![0, 0, 2] S1x1x1
  broadcasts_S1x1_S1x25000 : S1x1.Broadcasts S1x25000
  iota_S1x1x64_d2_w32 : S1x1x64.Iotas .tc 32 [2]
  shapeCasts_S1x25000_S1x25000x1 : S1x25000.ShapeCasts S1x25000x1
  broadcasts_S1x25000x1_S1x25000x64 : S1x25000x1.Broadcasts S1x25000x64
  broadcasts_S1x1x64_S1x25000x64 : S1x1x64.Broadcasts S1x25000x64
  natLt_1_32 : 1 < 32
  iota_S1x1x8_d2_w32 : S1x1x8.Iotas .tc 32 [2]
  broadcasts_S1x25000x1_S1x25000x8 : S1x25000x1.Broadcasts S1x25000x8
  broadcasts_S1x1x8_S1x25000x8 : S1x1x8.Broadcasts S1x25000x8
  shapeCasts_S1x25000x64_S25000x64 : S1x25000x64.ShapeCasts S25000x64
  bitsLt_bf16_f32 : FTy.bits .bf16 < FTy.bits .f32
  shapeCasts_S1x25000x8_S25000x8 : S1x25000x8.ShapeCasts S25000x8
  shapeCasts_S64x8_S1x512 : S64x8.ShapeCasts S1x512
  inb_S512x40_S512x40_0_0 : ∀ a, (![0, 0] : Fin 2 → Nat) a + S512x40.size a ≤ S512x40.size a
  h_S512x40 : 0 < S512x40.numel
  shapeCasts_S512x40_S512x40 : S512x40.ShapeCasts S512x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  shapeCasts_S1x40_S1x1x40 : S1x40.ShapeCasts S1x1x40
  inb_S1x1x40_S1x1x40_0_0_0 : ∀ a, (![0, 0, 0] : Fin 3 → Nat) a + S1x1x40.size a ≤ S1x1x40.size a
  h_S1x1x40 : 0 < S1x1x40.numel
  shapeCasts_S64x1x40_S64x40 : S64x1x40.ShapeCasts S64x40
  dot_S25000x64_S25000x8_S64x8_0_0_1_1_n_n_wf : DotDims.WF S25000x64 S25000x8 S64x8 [0] [0] [1] [1] [] []
  dot_S1x512_S512x40_S1x40_1_0_0_1_n_n_wf : DotDims.WF S1x512 S512x40 S1x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x100000x3.size a ≤ S64x100000x3.size a
  hwx0_0 : ∀ i : grid0.Coords, EltTy.bits .f32 = 32 ∨ (Rect.block (s := S64x100000x3) S1x100000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x3.size a ≤ S64x1x3.size a
  hwx0_1 : ∀ i : grid0.Coords, EltTy.bits .f32 = 32 ∨ (Rect.block (s := S64x1x3) S1x1x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x3.size a ≤ S64x1x3.size a
  hwx0_2 : ∀ i : grid0.Coords, EltTy.bits .f32 = 32 ∨ (Rect.block (s := S64x1x3) S1x1x3.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x25000x3.size a ≤ S64x100000x3.size a
  hwx1_0 : ∀ i : grid1.Coords, EltTy.bits .f32 = 32 ∨ (Rect.block (s := S64x100000x3) S1x25000x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x3.size a ≤ S64x1x3.size a
  hwx1_1 : ∀ i : grid1.Coords, EltTy.bits .f32 = 32 ∨ (Rect.block (s := S64x1x3) S1x1x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x3.size a ≤ S64x1x3.size a
  hwx1_2 : ∀ i : grid1.Coords, EltTy.bits .f32 = 32 ∨ (Rect.block (s := S64x1x3) S1x1x3.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x40.size a ≤ S512x40.size a
  hwx1_3 : ∀ i : grid1.Coords, EltTy.bits .f32 = 32 ∨ (Rect.block (s := S512x40) S512x40.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x40.size a ≤ S1x40.size a
  hwx1_4 : ∀ i : grid1.Coords, EltTy.bits .f32 = 32 ∨ (Rect.block (s := S1x40) S1x40.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1x40.size a ≤ S64x1x40.size a
  hwx1_5 : ∀ i : grid1.Coords, EltTy.bits .f32 = 32 ∨ (Rect.block (s := S64x1x40) S1x1x40.size (cc1_transform_5 i) (hinb1_5 i)).WholeWords (EltTy.packing .f32)

variable [Facts₀]

def dot_S25000x64_S25000x8_S64x8_0_0_1_1_n_n : DotDims S25000x64 S25000x8 S64x8 where
  lhsContracting := [0]
  rhsContracting := [0]
  lhsNonContracting := [1]
  rhsNonContracting := [1]
  lhsBatch := []
  rhsBatch := []
  wf := dot_S25000x64_S25000x8_S64x8_0_0_1_1_n_n_wf
def dot_S1x512_S512x40_S1x40_1_0_0_1_n_n : DotDims S1x512 S512x40 S1x40 where
  lhsContracting := [1]
  rhsContracting := [0]
  lhsNonContracting := [0]
  rhsNonContracting := [1]
  lhsBatch := []
  rhsBatch := []
  wf := dot_S1x512_S512x40_S1x40_1_0_0_1_n_n_wf

abbrev win0_0 : Pipeline.Window sig grid0 :=
  Pipeline.Window.ofSpec (Memref.whole main_arg0) S1x100000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x1x3.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x1x3.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1x25000x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S1x1x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_1) S1x1x3.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S512x40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1x40.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v3) S1x1x40.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S64x100000x3 : Shape := ⟨3, ![64, 100000, 3]⟩
abbrev S40x512 : Shape := ⟨2, ![40, 512]⟩
abbrev S40 : Shape := ⟨1, ![40]⟩
abbrev S_ : Shape := ⟨0, ![]⟩
abbrev S64x3 : Shape := ⟨2, ![64, 3]⟩
abbrev S64x1x3 : Shape := ⟨3, ![64, 1, 3]⟩
abbrev S64x100000x1 : Shape := ⟨3, ![64, 100000, 1]⟩
abbrev S64x100000 : Shape := ⟨2, ![64, 100000]⟩
abbrev S64 : Shape := ⟨1, ![64]⟩
abbrev S64x1 : Shape := ⟨2, ![64, 1]⟩
abbrev S6400000 : Shape := ⟨1, ![6400000]⟩
abbrev S32768 : Shape := ⟨1, ![32768]⟩
abbrev S6400000x1 : Shape := ⟨2, ![6400000, 1]⟩
abbrev S64x512 : Shape := ⟨2, ![64, 512]⟩
abbrev S512x40 : Shape := ⟨2, ![512, 40]⟩
abbrev S64x40 : Shape := ⟨2, ![64, 40]⟩
abbrev S1x40 : Shape := ⟨2, ![1, 40]⟩

abbrev nBuf : Space → Nat
  | .hbm => 71
  | .vmem => 0
  | .smem => 0
  | _ => 0

abbrev bufTy : (tb : Table) → Fin (tcTables nBuf tb) → BufTy
  | .hbm, ⟨0, _⟩ => ⟨S64x100000x3, .f32⟩
  | .hbm, ⟨1, _⟩ => ⟨S40x512, .f32⟩
  | .hbm, ⟨2, _⟩ => ⟨S40, .f32⟩
  | .hbm, ⟨3, _⟩ => ⟨S_, .f32⟩
  | .hbm, ⟨4, _⟩ => ⟨S64x3, .f32⟩
  | .hbm, ⟨5, _⟩ => ⟨S64x1x3, .f32⟩
  | .hbm, ⟨6, _⟩ => ⟨S_, .f32⟩
  | .hbm, ⟨7, _⟩ => ⟨S64x3, .f32⟩
  | .hbm, ⟨8, _⟩ => ⟨S64x1x3, .f32⟩
  | .hbm, ⟨9, _⟩ => ⟨S64x1x3, .f32⟩
  | .hbm, ⟨10, _⟩ => ⟨S_, .f32⟩
  | .hbm, ⟨11, _⟩ => ⟨S64x1x3, .f32⟩
  | .hbm, ⟨12, _⟩ => ⟨S64x1x3, .i1⟩
  | .hbm, ⟨13, _⟩ => ⟨S_, .f32⟩
  | .hbm, ⟨14, _⟩ => ⟨S_, .f32⟩
  | .hbm, ⟨15, _⟩ => ⟨S64x1x3, .f32⟩
  | .hbm, ⟨16, _⟩ => ⟨S64x1x3, .f32⟩
  | .hbm, ⟨17, _⟩ => ⟨S_, .f32⟩
  | .hbm, ⟨18, _⟩ => ⟨S64x1x3, .f32⟩
  | .hbm, ⟨19, _⟩ => ⟨S64x1x3, .f32⟩
  | .hbm, ⟨20, _⟩ => ⟨S64x100000x3, .f32⟩
  | .hbm, ⟨21, _⟩ => ⟨S64x100000x3, .f32⟩
  | .hbm, ⟨22, _⟩ => ⟨S64x100000x3, .f32⟩
  | .hbm, ⟨23, _⟩ => ⟨S64x100000x3, .f32⟩
  | .hbm, ⟨24, _⟩ => ⟨S64x100000x3, .f32⟩
  | .hbm, ⟨25, _⟩ => ⟨S64x100000x3, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S64x100000x3, .i32⟩
  | .hbm, ⟨30, _⟩ => ⟨S64x100000x3, .i32⟩
  | .hbm, ⟨31, _⟩ => ⟨S_, .i32⟩
  | .hbm, ⟨32, _⟩ => ⟨S64x100000x3, .i32⟩
  | .hbm, ⟨33, _⟩ => ⟨S64x100000x3, .i32⟩
  | .hbm, ⟨34, _⟩ => ⟨S64x100000x1, .i32⟩
  | .hbm, ⟨35, _⟩ => ⟨S64x100000, .i32⟩
  | .hbm, ⟨36, _⟩ => ⟨S_, .i32⟩
  | .hbm, ⟨37, _⟩ => ⟨S64x100000, .i32⟩
  | .hbm, ⟨38, _⟩ => ⟨S64x100000, .i32⟩
  | .hbm, ⟨39, _⟩ => ⟨S64x100000x1, .i32⟩
  | .hbm, ⟨40, _⟩ => ⟨S64x100000, .i32⟩
  | .hbm, ⟨41, _⟩ => ⟨S64x100000, .i32⟩
  | .hbm, ⟨42, _⟩ => ⟨S_, .i32⟩
  | .hbm, ⟨43, _⟩ => ⟨S64x100000, .i32⟩
  | .hbm, ⟨44, _⟩ => ⟨S64x100000, .i32⟩
  | .hbm, ⟨45, _⟩ => ⟨S64x100000x1, .i32⟩
  | .hbm, ⟨46, _⟩ => ⟨S64x100000, .i32⟩
  | .hbm, ⟨47, _⟩ => ⟨S64x100000, .i32⟩
  | .hbm, ⟨48, _⟩ => ⟨S64, .i32⟩
  | .hbm, ⟨49, _⟩ => ⟨S_, .i32⟩
  | .hbm, ⟨50, _⟩ => ⟨S64, .i32⟩
  | .hbm, ⟨51, _⟩ => ⟨S64, .i32⟩
  | .hbm, ⟨52, _⟩ => ⟨S64x1, .i32⟩
  | .hbm, ⟨53, _⟩ => ⟨S64x100000, .i32⟩
  | .hbm, ⟨54, _⟩ => ⟨S64x100000, .i32⟩
  | .hbm, ⟨55, _⟩ => ⟨S_, .f32⟩
  | .hbm, ⟨56, _⟩ => ⟨S6400000, .f32⟩
  | .hbm, ⟨57, _⟩ => ⟨S6400000, .i32⟩
  | .hbm, ⟨58, _⟩ => ⟨S_, .f32⟩
  | .hbm, ⟨59, _⟩ => ⟨S32768, .f32⟩
  | .hbm, ⟨60, _⟩ => ⟨S6400000x1, .i32⟩
  | .hbm, ⟨61, _⟩ => ⟨S32768, .f32⟩
  | .hbm, ⟨62, _⟩ => ⟨S64x512, .f32⟩
  | .hbm, ⟨63, _⟩ => ⟨S_, .f32⟩
  | .hbm, ⟨64, _⟩ => ⟨S64x512, .f32⟩
  | .hbm, ⟨65, _⟩ => ⟨S64x512, .f32⟩
  | .hbm, ⟨66, _⟩ => ⟨S512x40, .f32⟩
  | .hbm, ⟨67, _⟩ => ⟨S64x40, .f32⟩
  | .hbm, ⟨68, _⟩ => ⟨S1x40, .f32⟩
  | .hbm, ⟨69, _⟩ => ⟨S64x40, .f32⟩
  | .hbm, ⟨70, _⟩ => ⟨S64x40, .f32⟩
  | _, _ => ⟨S64x100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_call0_v0 : Ref sig .tc := ⟨.hbm, 14, rfl⟩
abbrev main_call0_v1 : Ref sig .tc := ⟨.hbm, 15, rfl⟩
abbrev main_v7 : Ref sig .tc := ⟨.hbm, 16, rfl⟩
abbrev main_cst_3 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_c_4 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_5 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_6 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_7 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_8 : Ref sig .tc := ⟨.hbm, 55, rfl⟩
abbrev main_v35 : Ref sig .tc := ⟨.hbm, 56, rfl⟩
abbrev main_v36 : Ref sig .tc := ⟨.hbm, 57, rfl⟩
abbrev main_cst_9 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_10 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩

abbrev nD : Nat := 1
abbrev τ : Topo := Topo.v7x

variable {F : FTy → Type} [FloatOps F]

class Facts₀ : Prop where
  reducesTo_S64x100000x3_S64x3_d1 : S64x100000x3.ReducesTo [1] S64x3
  h_S_ : 0 < S_.numel
  bcast_S64x3_S64x1x3_0_2 : S64x3.BroadcastsInDim S64x1x3 (![0, 2] : Fin 2 → Fin S64x1x3.rank)
  bcast_S_S64x1x3 : S_.BroadcastsInDim S64x1x3 (![] : Fin 0 → Fin S64x1x3.rank)
  bcast_S64x1x3_S64x100000x3_0_1_2 : S64x1x3.BroadcastsInDim S64x100000x3 (![0, 1, 2] : Fin 3 → Fin S64x100000x3.rank)
  bcast_S_S64x100000x3 : S_.BroadcastsInDim S64x100000x3 (![] : Fin 0 → Fin S64x100000x3.rank)
  slices_S64x100000x3_S64x100000x1_0_0_0 : S64x100000x3.Slices ![0, 0, 0] S64x100000x1
  shapeCasts_S64x100000x1_S64x100000 : S64x100000x1.ShapeCasts S64x100000
  bcast_S_S64x100000 : S_.BroadcastsInDim S64x100000 (![] : Fin 0 → Fin S64x100000.rank)
  slices_S64x100000x3_S64x100000x1_0_0_1 : S64x100000x3.Slices ![0, 0, 1] S64x100000x1
  slices_S64x100000x3_S64x100000x1_0_0_2 : S64x100000x3.Slices ![0, 0, 2] S64x100000x1
  bcast_S_S64 : S_.BroadcastsInDim S64 (![] : Fin 0 → Fin S64.rank)
  bcast_S64_S64x1_0 : S64.BroadcastsInDim S64x1 (![0] : Fin 1 → Fin S64x1.rank)
  bcast_S64x1_S64x100000_0_1 : S64x1.BroadcastsInDim S64x100000 (![0, 1] : Fin 2 → Fin S64x100000.rank)
  bcast_S_S6400000 : S_.BroadcastsInDim S6400000 (![] : Fin 0 → Fin S6400000.rank)
  shapeCasts_S64x100000_S6400000 : S64x100000.ShapeCasts S6400000
  bcast_S_S32768 : S_.BroadcastsInDim S32768 (![] : Fin 0 → Fin S32768.rank)
  bcast_S6400000_S6400000x1_0 : S6400000.BroadcastsInDim S6400000x1 (![0] : Fin 1 → Fin S6400000x1.rank)
  shapeCasts_S32768_S64x512 : S32768.ShapeCasts S64x512
  bcast_S_S64x512 : S_.BroadcastsInDim S64x512 (![] : Fin 0 → Fin S64x512.rank)
  transposes_S40x512_S512x40_1_0 : S40x512.Transposes [1, 0] S512x40
  bcast_S40_S1x40_1 : S40.BroadcastsInDim S1x40 (![1] : Fin 1 → Fin S1x40.rank)
  bcast_S1x40_S64x40_0_1 : S1x40.BroadcastsInDim S64x40 (![0, 1] : Fin 2 → Fin S64x40.rank)
  scatter_S32768_S6400000x1_S6400000_n_0_0_1_wf : ScatterDims.WF S32768 S6400000x1 S6400000 [] [0] [0] 1
  dot_S64x512_S512x40_S64x40_1_0_0_1_n_n_wf : DotDims.WF S64x512 S512x40 S64x40 [1] [0] [0] [1] [] []

variable [Facts₀]

def scatter_S32768_S6400000x1_S6400000_n_0_0_1 : ScatterDims S32768 S6400000x1 S6400000 where
  updateWindowDims := []
  insertedWindowDims := [0]
  scatterDimsToOperandDims := [0]
  indexVectorDim := 1
  wf := scatter_S32768_S6400000x1_S6400000_n_0_0_1_wf
def dot_S64x512_S512x40_S64x40_1_0_0_1_n_n : DotDims S64x512 S512x40 S64x40 where
  lhsContracting := [1]
  rhsContracting := [0]
  lhsNonContracting := [0]
  rhsNonContracting := [1]
  lhsBatch := []
  rhsBatch := []
  wf := dot_S64x512_S512x40_S64x40_1_0_0_1_n_n_wf

class Facts : Prop extends Facts₀ where

variable [Facts]
-- ==== Proof.K.Region0.lean ====
/-
  The first kernel region: per batch row, the minimum and the maximum of the 100000 points' coordinates, each of the
  three coordinates apart. One grid point per batch row; the row's block is read whole, the two results are each
  stored whole into their one-row blocks. What the two output blocks hold after the body is stated over the
  body's two named values of the loaded block.
-/
import proofs.«106393_j65807488909790_1_alg».proof.Proof.Gen.Kernel.Launch
import proofs.«106393_j65807488909790_1_alg».proof.Proof.Gen.Kernel.Skeleton
import proofs.«106393_j65807488909790_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds the batch row's block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

abbrev rIn0 : Rect S1x100000x3 := Rect.unit (s := S1x100000x3) ![0, 0, 0] S1x100000x3.size inb_S1x100000x3_S1x100000x3_0_0_0
abbrev rOut0 : Rect S1x1x3 := Rect.unit (s := S1x1x3) ![0, 0, 0] S1x1x3.size inb_S1x1x3_S1x1x3_0_0_0

/-- The row minimum's block after the body: one whole store of the minimum over the points. -/
def out0_1 (x0 : Vec F S1x100000x3 .f32) : Vec F S1x1x3 .f32 :=
  View.canon [⟨rOut0, k0_pay1 (View.ld x0 rIn0)⟩]
/-- The row maximum's block after the body: one whole store of the maximum over the points. -/
def out0_2 (x0 : Vec F S1x100000x3 .f32) : Vec F S1x1x3 .f32 :=
  View.canon [⟨rOut0, k0_pay2 (View.ld x0 rIn0)⟩]

theorem cover0_out (p0 : Vec F S1x1x3 .f32) (y : S1x1x3.Idx) :
    ∃ pc ∈ ([⟨rOut0, p0⟩] : List (View.Piece (Elt F) S1x1x3 .f32)), y ∈ pc.1.set :=
  View.cover_of_tiled [⟨rOut0, p0⟩] S1x1x3.size (by rfl) y

set_option maxHeartbeats 1000000 in
/-- The body on whole staging buffers: the input's contents stay, each output's buffer ends at its one store. -/
theorem sound_kernel0 (c : Dev nD) (E : Set ℕ) (i : grid0.Coords) (arg1 : Memref sig .tc .vmem S1x100000x3 .f32) (harg1 : arg1.IsWhole)
    (arg2 : Memref sig .tc .vmem S1x1x3 .f32) (harg2 : arg2.IsWhole) (arg3 : Memref sig .tc .vmem S1x1x3 .f32) (harg3 : arg3.IsWhole)
    (x0 : Vec F S1x100000x3 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 x0) ∗ owns (c : Thread nD τ) arg3 fullShare (out0_2 x0)) -∗ K ⟨⟩))
      ⊢ wp frame (wpE (defs₀ (F := F)) Variants.none c none) E (cc0__minmax_kernel i arg1 harg1 arg2 harg2 arg3 harg3) K := by
  simp only [cc0__minmax_kernel_eq_skeleton]; unfold cc0__minmax_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover0_out _)
  iexists _; isplitr
  swap; · iexact H2
  ipureintro
  exact View.read_writes_eq_canon _ _ _ (cover0_out _)

end Region0

section Region0Data

variable (V : (c : Dev nD) → (b : Ref sig .tc) → Buf (Elt F) ((c : Thread nD τ).loc b))

/-- The proof data of the first region on core `c`: the arrays as the region finds them; after the body at a point the
    input's buffer at the row's block and the two outputs' at the row's minimum and maximum. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Region0Data

end Cert.Kernel.Hand

end
-- ==== Proof.K.Region1.lean ====
/-
  The second kernel region, one grid point per (batch row, tile of 25000 points): what the kernel body does on its
  staging buffers, case by case of its two conditionals. At a row's first tile the 64 x 8 table of counts kept in
  scratch is reset; at every tile the tile's counts are added to it; at the row's last tile the table, divided by the
  number of points, is multiplied with the transposed weights, the bias added, and the row of 40 results stored.
-/
import proofs.«106393_j65807488909790_1_alg».proof.Proof.Gen.Kernel.Launch
import proofs.«106393_j65807488909790_1_alg».proof.Proof.Gen.Kernel.Skeleton
import proofs.«106393_j65807488909790_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The first conditional of the body: the tile is the row's first. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- The second: the tile is the row's last. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel

/-- One staging buffer of the output window, through which its contents are stated. -/
abbrev VO1_5 : View sig .tc .vmem S1x1x40 .f32 := (Memref.whole cc1_stg5_0 : Memref sig .tc .vmem S1x1x40 .f32).view
abbrev ms1_0 (t : Fin cfg1.N) : Memref sig .tc .vmem S1x25000x3 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1x3 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x3 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x40 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x40 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1x40 .f32 := win1_5.stage (cfg1.slots t 5)
abbrev hs1_5 (t : Fin cfg1.N) : (ms1_5 t).IsWhole := hstage1_5 ((cfg1.slots t 5).cast nbuf1_5)
/-- The table of counts: a whole scoped buffer of the kernel's own, passed beside the windows. -/
abbrev scM1_0 : Memref sig .tc .vmem S64x8 .f32 := Memref.whole cc1_scratch0
abbrev VS1_0 : View sig .tc .vmem S64x8 .f32 := scM1_0.view

/-- The region's invariant before anything ran: the first region's staging buffers and the table of counts each
    at some contents, the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d)) ∗ (∃ r, prngReg c r)) := by
  unfold Pipeline.ΦA; rw [scopedRest1_eq]; simp only [scM1_0, owns_whole]; try rfl

set_option maxHeartbeats 4000000 in
/-- The body at a row's FIRST tile, as the pieces its stores leave in the table of counts (last first), with the proof
    that it runs on whole staging buffers — the inputs' at their contents and handed back so, the output's untouched,
    the table at anything. -/
noncomputable def kernelRun1_A (c : Dev nD) (i : grid1.Coords) (arg2 : Memref sig .tc .vmem S1x25000x3 .f32) (harg2 : arg2.IsWhole) (arg3 : Memref sig .tc .vmem S1x1x3 .f32) (harg3 : arg3.IsWhole) (arg4 : Memref sig .tc .vmem S1x1x3 .f32) (harg4 : arg4.IsWhole) (arg5 : Memref sig .tc .vmem S512x40 .f32) (harg5 : arg5.IsWhole) (arg6 : Memref sig .tc .vmem S1x40 .f32) (harg6 : arg6.IsWhole) (arg7 : Memref sig .tc .vmem S1x1x40 .f32) (harg7 : arg7.IsWhole) (arg8 : Memref sig .tc .vmem S64x8 .f32) (harg8 : arg8.IsWhole) (hc0 : cond1_0 i) (hc1 : ¬cond1_1 i)
    (x0 : Vec F S1x25000x3 .f32) (x1 : Vec F S1x1x3 .f32) (x2 : Vec F S1x1x3 .f32) (x3 : Vec F S512x40 .f32) (x4 : Vec F S1x40 .f32) :
    { LS0 : List (View.Piece (Elt F) S64x8 .f32) //
      ∀ (xi5 : Vec F S1x1x40 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__hist_logits_kernel i arg2 harg2 arg3 harg3 arg4 harg4 arg5 harg5 arg6 harg6 arg7 harg7 arg8 harg8) K } := by
  refine ⟨?_, fun xi5 E K => ?run⟩
  case run =>
    simp only [cc1__hist_logits_kernel_eq_skeleton]; unfold cc1__hist_logits_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

set_option maxHeartbeats 4000000 in
/-- The body at a tile neither first nor last of its row: the table found at `xs0`. -/
noncomputable def kernelRun1_B (c : Dev nD) (i : grid1.Coords) (arg2 : Memref sig .tc .vmem S1x25000x3 .f32) (harg2 : arg2.IsWhole) (arg3 : Memref sig .tc .vmem S1x1x3 .f32) (harg3 : arg3.IsWhole) (arg4 : Memref sig .tc .vmem S1x1x3 .f32) (harg4 : arg4.IsWhole) (arg5 : Memref sig .tc .vmem S512x40 .f32) (harg5 : arg5.IsWhole) (arg6 : Memref sig .tc .vmem S1x40 .f32) (harg6 : arg6.IsWhole) (arg7 : Memref sig .tc .vmem S1x1x40 .f32) (harg7 : arg7.IsWhole) (arg8 : Memref sig .tc .vmem S64x8 .f32) (harg8 : arg8.IsWhole) (hc0 : ¬cond1_0 i) (hc1 : ¬cond1_1 i)
    (x0 : Vec F S1x25000x3 .f32) (x1 : Vec F S1x1x3 .f32) (x2 : Vec F S1x1x3 .f32) (x3 : Vec F S512x40 .f32) (x4 : Vec F S1x40 .f32) (xs0 : Vec F S64x8 .f32) :
    { LS0 : List (View.Piece (Elt F) S64x8 .f32) //
      ∀ (xi5 : Vec F S1x1x40 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__hist_logits_kernel i arg2 harg2 arg3 harg3 arg4 harg4 arg5 harg5 arg6 harg6 arg7 harg7 arg8 harg8) K } := by
  refine ⟨?_, fun xi5 E K => ?run⟩
  case run =>
    simp only [cc1__hist_logits_kernel_eq_skeleton]; unfold cc1__hist_logits_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

set_option maxHeartbeats 4000000 in
/-- The body at a row's LAST tile: the table found at `xs0`; the pieces left in the output's buffer and in the table. -/
noncomputable def kernelRun1_C (c : Dev nD) (i : grid1.Coords) (arg2 : Memref sig .tc .vmem S1x25000x3 .f32) (harg2 : arg2.IsWhole) (arg3 : Memref sig .tc .vmem S1x1x3 .f32) (harg3 : arg3.IsWhole) (arg4 : Memref sig .tc .vmem S1x1x3 .f32) (harg4 : arg4.IsWhole) (arg5 : Memref sig .tc .vmem S512x40 .f32) (harg5 : arg5.IsWhole) (arg6 : Memref sig .tc .vmem S1x40 .f32) (harg6 : arg6.IsWhole) (arg7 : Memref sig .tc .vmem S1x1x40 .f32) (harg7 : arg7.IsWhole) (arg8 : Memref sig .tc .vmem S64x8 .f32) (harg8 : arg8.IsWhole) (hc0 : ¬cond1_0 i) (hc1 : cond1_1 i)
    (x0 : Vec F S1x25000x3 .f32) (x1 : Vec F S1x1x3 .f32) (x2 : Vec F S1x1x3 .f32) (x3 : Vec F S512x40 .f32) (x4 : Vec F S1x40 .f32) (xs0 : Vec F S64x8 .f32) :
    Σ' (L5 : List (View.Piece (Elt F) S1x1x40 .f32)), { LS0 : List (View.Piece (Elt F) S64x8 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc1__hist_logits_kernel i arg2 harg2 arg3 harg3 arg4 harg4 arg5 harg5 arg6 harg6 arg7 harg7 arg8 harg8) K } := by
  refine ⟨?_, ?_, fun E K => ?run⟩
  case run =>
    simp only [cc1__hist_logits_kernel_eq_skeleton]; unfold cc1__hist_logits_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Region1

end Cert.Kernel.Hand

end
-- ==== Proof.K.Data1.lean ====
/-
  The second kernel region over its 256 grid points: what the table of counts and the output's block hold after each
  point, by recursion on the point (the table reset at a row's first tile, added to at every tile, read out at the
  row's last), the proof data built on it, and the body's obligation at every point.
-/
import proofs.«106393_j65807488909790_1_alg».proof.Proof.K.Region1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1Data

variable (V : (c : Dev nD) → (b : Ref sig .tc) → Buf (Elt F) ((c : Thread nD τ).loc b))

/-- The output's block where the body stores nothing: a placeholder nothing consults. -/
def out1_idle : Vec F S1x1x40 .f32 := VO1_5.read (Elt F) (VO1_5.writes (Elt F) VO1_5.junk [])

theorem scover1_A_0 (c : Dev nD) (i : grid1.Coords) (arg2 : Memref sig .tc .vmem S1x25000x3 .f32) (harg2 : arg2.IsWhole) (arg3 : Memref sig .tc .vmem S1x1x3 .f32) (harg3 : arg3.IsWhole) (arg4 : Memref sig .tc .vmem S1x1x3 .f32) (harg4 : arg4.IsWhole) (arg5 : Memref sig .tc .vmem S512x40 .f32) (harg5 : arg5.IsWhole) (arg6 : Memref sig .tc .vmem S1x40 .f32) (harg6 : arg6.IsWhole) (arg7 : Memref sig .tc .vmem S1x1x40 .f32) (harg7 : arg7.IsWhole) (arg8 : Memref sig .tc .vmem S64x8 .f32) (harg8 : arg8.IsWhole) (hc0 : cond1_0 i) (hc1 : ¬cond1_1 i)
    (x0 : Vec F S1x25000x3 .f32) (x1 : Vec F S1x1x3 .f32) (x2 : Vec F S1x1x3 .f32) (x3 : Vec F S512x40 .f32) (x4 : Vec F S1x40 .f32) (y : S64x8.Idx) :
    ∃ pc ∈ (kernelRun1_A c i arg2 harg2 arg3 harg3 arg4 harg4 arg5 harg5 arg6 harg6 arg7 harg7 arg8 harg8 hc0 hc1 x0 x1 x2 x3 x4).1, y ∈ pc.1.set :=
  View.cover_of_tiledL (kernelRun1_A c i arg2 harg2 arg3 harg3 arg4 harg4 arg5 harg5 arg6 harg6 arg7 harg7 arg8 harg8 hc0 hc1 x0 x1 x2 x3 x4).1 S64x8.size (by sl_kernel_rfl) y
/-- What a row's first tile leaves in the table of counts. -/
def sout1_A_0 (c : Dev nD) (i : grid1.Coords) (arg2 : Memref sig .tc .vmem S1x25000x3 .f32) (harg2 : arg2.IsWhole) (arg3 : Memref sig .tc .vmem S1x1x3 .f32) (harg3 : arg3.IsWhole) (arg4 : Memref sig .tc .vmem S1x1x3 .f32) (harg4 : arg4.IsWhole) (arg5 : Memref sig .tc .vmem S512x40 .f32) (harg5 : arg5.IsWhole) (arg6 : Memref sig .tc .vmem S1x40 .f32) (harg6 : arg6.IsWhole) (arg7 : Memref sig .tc .vmem S1x1x40 .f32) (harg7 : arg7.IsWhole) (arg8 : Memref sig .tc .vmem S64x8 .f32) (harg8 : arg8.IsWhole) (hc0 : cond1_0 i) (hc1 : ¬cond1_1 i)
    (x0 : Vec F S1x25000x3 .f32) (x1 : Vec F S1x1x3 .f32) (x2 : Vec F S1x1x3 .f32) (x3 : Vec F S512x40 .f32) (x4 : Vec F S1x40 .f32) : Vec F S64x8 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2 x3 x4).1)

theorem scover1_B_0 (c : Dev nD) (i : grid1.Coords) (arg2 : Memref sig .tc .vmem S1x25000x3 .f32) (harg2 : arg2.IsWhole) (arg3 : Memref sig .tc .vmem S1x1x3 .f32) (harg3 : arg3.IsWhole) (arg4 : Memref sig .tc .vmem S1x1x3 .f32) (harg4 : arg4.IsWhole) (arg5 : Memref sig .tc .vmem S512x40 .f32) (harg5 : arg5.IsWhole) (arg6 : Memref sig .tc .vmem S1x40 .f32) (harg6 : arg6.IsWhole) (arg7 : Memref sig .tc .vmem S1x1x40 .f32) (harg7 : arg7.IsWhole) (arg8 : Memref sig .tc .vmem S64x8 .f32) (harg8 : arg8.IsWhole) (hc0 : ¬cond1_0 i) (hc1 : ¬cond1_1 i)
    (x0 : Vec F S1x25000x3 .f32) (x1 : Vec F S1x1x3 .f32) (x2 : Vec F S1x1x3 .f32) (x3 : Vec F S512x40 .f32) (x4 : Vec F S1x40 .f32) (xs0 : Vec F S64x8 .f32) (y : S64x8.Idx) :
    ∃ pc ∈ (kernelRun1_B c i arg2 harg2 arg3 harg3 arg4 harg4 arg5 harg5 arg6 harg6 arg7 harg7 arg8 harg8 hc0 hc1 x0 x1 x2 x3 x4 xs0).1, y ∈ pc.1.set :=
  View.cover_of_tiledL (kernelRun1_B c i arg2 harg2 arg3 harg3 arg4 harg4 arg5 harg5 arg6 harg6 arg7 harg7 arg8 harg8 hc0 hc1 x0 x1 x2 x3 x4 xs0).1 S64x8.size (by sl_kernel_rfl) y
/-- What a middle tile leaves in the table of counts, found at `xs0`. -/
def sout1_B_0 (c : Dev nD) (i : grid1.Coords) (arg2 : Memref sig .tc .vmem S1x25000x3 .f32) (harg2 : arg2.IsWhole) (arg3 : Memref sig .tc .vmem S1x1x3 .f32) (harg3 : arg3.IsWhole) (arg4 : Memref sig .tc .vmem S1x1x3 .f32) (harg4 : arg4.IsWhole) (arg5 : Memref sig .tc .vmem S512x40 .f32) (harg5 : arg5.IsWhole) (arg6 : Memref sig .tc .vmem S1x40 .f32) (harg6 : arg6.IsWhole) (arg7 : Memref sig .tc .vmem S1x1x40 .f32) (harg7 : arg7.IsWhole) (arg8 : Memref sig .tc .vmem S64x8 .f32) (harg8 : arg8.IsWhole) (hc0 : ¬cond1_0 i) (hc1 : ¬cond1_1 i)
    (x0 : Vec F S1x25000x3 .f32) (x1 : Vec F S1x1x3 .f32) (x2 : Vec F S1x1x3 .f32) (x3 : Vec F S512x40 .f32) (x4 : Vec F S1x40 .f32) (xs0 : Vec F S64x8 .f32) : Vec F S64x8 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 x3 x4 xs0).1)

theorem cover1_C_5 (c : Dev nD) (i : grid1.Coords) (arg2 : Memref sig .tc .vmem S1x25000x3 .f32) (harg2 : arg2.IsWhole) (arg3 : Memref sig .tc .vmem S1x1x3 .f32) (harg3 : arg3.IsWhole) (arg4 : Memref sig .tc .vmem S1x1x3 .f32) (harg4 : arg4.IsWhole) (arg5 : Memref sig .tc .vmem S512x40 .f32) (harg5 : arg5.IsWhole) (arg6 : Memref sig .tc .vmem S1x40 .f32) (harg6 : arg6.IsWhole) (arg7 : Memref sig .tc .vmem S1x1x40 .f32) (harg7 : arg7.IsWhole) (arg8 : Memref sig .tc .vmem S64x8 .f32) (harg8 : arg8.IsWhole) (hc0 : ¬cond1_0 i) (hc1 : cond1_1 i)
    (x0 : Vec F S1x25000x3 .f32) (x1 : Vec F S1x1x3 .f32) (x2 : Vec F S1x1x3 .f32) (x3 : Vec F S512x40 .f32) (x4 : Vec F S1x40 .f32) (xs0 : Vec F S64x8 .f32) (y : S1x1x40.Idx) :
    ∃ pc ∈ (kernelRun1_C c i arg2 harg2 arg3 harg3 arg4 harg4 arg5 harg5 arg6 harg6 arg7 harg7 arg8 harg8 hc0 hc1 x0 x1 x2 x3 x4 xs0).1, y ∈ pc.1.set :=
  View.cover_of_tiledL (kernelRun1_C c i arg2 harg2 arg3 harg3 arg4 harg4 arg5 harg5 arg6 harg6 arg7 harg7 arg8 harg8 hc0 hc1 x0 x1 x2 x3 x4 xs0).1 S1x1x40.size (by sl_kernel_rfl) y
/-- What a row's last tile leaves in the output's block. -/
def out1_C_5 (c : Dev nD) (i : grid1.Coords) (arg2 : Memref sig .tc .vmem S1x25000x3 .f32) (harg2 : arg2.IsWhole) (arg3 : Memref sig .tc .vmem S1x1x3 .f32) (harg3 : arg3.IsWhole) (arg4 : Memref sig .tc .vmem S1x1x3 .f32) (harg4 : arg4.IsWhole) (arg5 : Memref sig .tc .vmem S512x40 .f32) (harg5 : arg5.IsWhole) (arg6 : Memref sig .tc .vmem S1x40 .f32) (harg6 : arg6.IsWhole) (arg7 : Memref sig .tc .vmem S1x1x40 .f32) (harg7 : arg7.IsWhole) (arg8 : Memref sig .tc .vmem S64x8 .f32) (harg8 : arg8.IsWhole) (hc0 : ¬cond1_0 i) (hc1 : cond1_1 i)
    (x0 : Vec F S1x25000x3 .f32) (x1 : Vec F S1x1x3 .f32) (x2 : Vec F S1x1x3 .f32) (x3 : Vec F S512x40 .f32) (x4 : Vec F S1x40 .f32) (xs0 : Vec F S64x8 .f32) : Vec F S1x1x40 .f32 :=
  VO1_5.read (Elt F) (VO1_5.writes (Elt F) VO1_5.junk (kernelRun1_C c i arg2 harg2 arg3 harg3 arg4 harg4 arg5 harg5 arg6 harg6 arg7 harg7 arg8 harg8 hc0 hc1 x0 x1 x2 x3 x4 xs0).1)
theorem scover1_C_0 (c : Dev nD) (i : grid1.Coords) (arg2 : Memref sig .tc .vmem S1x25000x3 .f32) (harg2 : arg2.IsWhole) (arg3 : Memref sig .tc .vmem S1x1x3 .f32) (harg3 : arg3.IsWhole) (arg4 : Memref sig .tc .vmem S1x1x3 .f32) (harg4 : arg4.IsWhole) (arg5 : Memref sig .tc .vmem S512x40 .f32) (harg5 : arg5.IsWhole) (arg6 : Memref sig .tc .vmem S1x40 .f32) (harg6 : arg6.IsWhole) (arg7 : Memref sig .tc .vmem S1x1x40 .f32) (harg7 : arg7.IsWhole) (arg8 : Memref sig .tc .vmem S64x8 .f32) (harg8 : arg8.IsWhole) (hc0 : ¬cond1_0 i) (hc1 : cond1_1 i)
    (x0 : Vec F S1x25000x3 .f32) (x1 : Vec F S1x1x3 .f32) (x2 : Vec F S1x1x3 .f32) (x3 : Vec F S512x40 .f32) (x4 : Vec F S1x40 .f32) (xs0 : Vec F S64x8 .f32) (y : S64x8.Idx) :
    ∃ pc ∈ (kernelRun1_C c i arg2 harg2 arg3 harg3 arg4 harg4 arg5 harg5 arg6 harg6 arg7 harg7 arg8 harg8 hc0 hc1 x0 x1 x2 x3 x4 xs0).2.1, y ∈ pc.1.set :=
  View.cover_of_tiledL (kernelRun1_C c i arg2 harg2 arg3 harg3 arg4 harg4 arg5 harg5 arg6 harg6 arg7 harg7 arg8 harg8 hc0 hc1 x0 x1 x2 x3 x4 xs0).2.1 S64x8.size (by sl_kernel_rfl) y
/-- What it leaves in the table of counts. -/
def sout1_C_0 (c : Dev nD) (i : grid1.Coords) (arg2 : Memref sig .tc .vmem S1x25000x3 .f32) (harg2 : arg2.IsWhole) (arg3 : Memref sig .tc .vmem S1x1x3 .f32) (harg3 : arg3.IsWhole) (arg4 : Memref sig .tc .vmem S1x1x3 .f32) (harg4 : arg4.IsWhole) (arg5 : Memref sig .tc .vmem S512x40 .f32) (harg5 : arg5.IsWhole) (arg6 : Memref sig .tc .vmem S1x40 .f32) (harg6 : arg6.IsWhole) (arg7 : Memref sig .tc .vmem S1x1x40 .f32) (harg7 : arg7.IsWhole) (arg8 : Memref sig .tc .vmem S64x8 .f32) (harg8 : arg8.IsWhole) (hc0 : ¬cond1_0 i) (hc1 : cond1_1 i)
    (x0 : Vec F S1x25000x3 .f32) (x1 : Vec F S1x1x3 .f32) (x2 : Vec F S1x1x3 .f32) (x3 : Vec F S512x40 .f32) (x4 : Vec F S1x40 .f32) (xs0 : Vec F S64x8 .f32) : Vec F S64x8 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 x3 x4 xs0).2.1)

/-- What the output's block and the table of counts hold after the body at position `n`: the case of `n mod 4`, the
    table read at what position `n - 1` left. -/
def outsAt1 (c : Dev nD) : (n : ℕ) → n < cfg1.N → Vec F S1x1x40 .f32 × Vec F S64x8 .f32
  | 0, hn => (out1_idle, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 4 = 0 then
      if h1 : (n + 1) % 4 = 3 then
        False.elim (by omega)
      else
        (out1_idle, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 4 = 3 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)
      else
        (out1_idle, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (out1_idle, sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_idle, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The first region's staging buffers, each at some contents, beside `S`: the scoped buffers the second region's
    pipeline does not stage, the table of counts in the place of `S`. -/
abbrev restWith (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ S)

/-- The region's invariant before position `n`: before the first point every scoped buffer at anything; afterwards
    the table of counts at what the point before left. -/
def PhiS (c : Dev nD) : (n : ℕ) → n ≤ cfg1.N → sProp 𝕄
  | 0, _ => Pipeline.ΦA spec1 c
  | n + 1, hn => iprop(restWith c (owns (c : Thread nD τ) scM1_0 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(restWith c (owns (c : Thread nD τ) scM1_0 fullShare ((outsAt1 V c n hn).2)) ∗ (∃ r, prngReg c r)) := rfl

theorem PhiS_pos (c : Dev nD) (n : ℕ) (h : n ≤ cfg1.N) (hz : n ≠ 0) :
    PhiS V c n h = iprop(restWith c (owns (c : Thread nD τ) scM1_0 fullShare ((outsAt1 V c (n - 1) (by omega)).2)) ∗ (∃ r, prngReg c r)) := by
  cases n with
  | zero => exact absurd rfl hz
  | succ n => rfl

/-- The proof data of the second region on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

end Region1Data

section Region1Body

variable (V : (c : Dev nD) → (b : Ref sig .tc) → Buf (Elt F) ((c : Thread nD τ).loc b))

set_option maxHeartbeats 8000000 in
/-- The body at any point: the inputs' buffers hold their blocks; the point's position modulo 4 says which case it is
    in; the invariant hands the body the table of counts at what the point before left (at anything at the first point)
    and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  have hN : t.val < 256 := lt_of_lt_of_eq t.isLt (show cfg1.N = 256 from N_1)
  by_cases h0 : t.val % 4 = 0
  · by_cases h1 : t.val % 4 = 3
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5 t (fun h => h1 ((hcond1_1 t).mp h))) (noFlush1_5 t (fun h => h1 ((hcond1_1 t).mp h)))]
      rw [outsAt1_A V c t h0 h1]
      unfold sout1_A_0; (try dsimp only)
      by_cases hz : t.val = 0
      · rw [PhiS_castSucc V c t, PhiS_zero V c _ _ hz, PhiA1_eq]
        iintro ⟨⟨⟨R0, R1, R2, R3, R4, R5, HS0⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [R0 R1 R2 R3 R4 R5 HS0 Hg]
        · isplitl [R0 R1 R2 R3 R4 R5 HS0]
          · isplitl [R0]; · iexact R0
            isplitl [R1]; · iexact R1
            isplitl [R2]; · iexact R2
            isplitl [R3]; · iexact R3
            isplitl [R4]; · iexact R4
            isplitl [R5]; · iexact R5
            unfold owns; iexists _; isplitr
            swap; · iexact HS0
            ipureintro; exact View.read_writes_of_cover _ _ _ _ _ (scover1_A_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS_castSucc V c t, PhiS_pos V c _ _ hz]
        iintro ⟨⟨⟨R0, R1, R2, R3, R4, R5, HS0⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [R0 R1 R2 R3 R4 R5 HS0 Hg]
        · isplitl [R0 R1 R2 R3 R4 R5 HS0]
          · isplitl [R0]; · iexact R0
            isplitl [R1]; · iexact R1
            isplitl [R2]; · iexact R2
            isplitl [R3]; · iexact R3
            isplitl [R4]; · iexact R4
            isplitl [R5]; · iexact R5
            unfold owns; iexists _; isplitr
            swap; · iexact HS0
            ipureintro; exact View.read_writes_of_cover _ _ _ _ _ (scover1_A_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 4 = 3
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t ((hcond1_1 t).mpr h1)], after1_5]
      rw [outsAt1_C V c t h0 h1]
      unfold out1_C_5 sout1_C_0; (try dsimp only)
      by_cases hz : t.val = 0
      · exfalso; omega
      · rw [PhiS_castSucc V c t, PhiS_pos V c _ _ hz]
        iintro ⟨⟨⟨R0, R1, R2, R3, R4, R5, HS0⟩, Hg⟩, Ho, ⟨%d0, H0⟩, ⟨%d1, H1⟩, ⟨%d2, H2⟩, ⟨%d3, H3⟩, ⟨%d4, H4⟩, ⟨%d5, H5⟩⟩
        iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [R0 R1 R2 R3 R4 R5 HS0 Hg]
        · isplitl [R0 R1 R2 R3 R4 R5 HS0]
          · isplitl [R0]; · iexact R0
            isplitl [R1]; · iexact R1
            isplitl [R2]; · iexact R2
            isplitl [R3]; · iexact R3
            isplitl [R4]; · iexact R4
            isplitl [R5]; · iexact R5
            unfold owns; iexists _; isplitr
            swap; · iexact HS0
            ipureintro; exact View.read_writes_of_cover _ _ _ _ _ (scover1_C_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover1_C_5 c _ _ _ _ _ _ _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5 t (fun h => h1 ((hcond1_1 t).mp h))) (noFlush1_5 t (fun h => h1 ((hcond1_1 t).mp h)))]
      rw [outsAt1_B V c t h0 h1]
      unfold sout1_B_0; (try dsimp only)
      by_cases hz : t.val = 0
      · exfalso; omega
      · rw [PhiS_castSucc V c t, PhiS_pos V c _ _ hz]
        iintro ⟨⟨⟨R0, R1, R2, R3, R4, R5, HS0⟩, Hg⟩, Ho, ⟨%d0, H0⟩, ⟨%d1, H1⟩, ⟨%d2, H2⟩, ⟨%d3, H3⟩, ⟨%d4, H4⟩, ⟨%d5, H5⟩⟩
        iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _).2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [R0 R1 R2 R3 R4 R5 HS0 Hg]
        · isplitl [R0 R1 R2 R3 R4 R5 HS0]
          · isplitl [R0]; · iexact R0
            isplitl [R1]; · iexact R1
            isplitl [R2]; · iexact R2
            isplitl [R3]; · iexact R3
            isplitl [R4]; · iexact R4
            isplitl [R5]; · iexact R5
            unfold owns; iexists _; isplitr
            swap; · iexact HS0
            ipureintro; exact View.read_writes_of_cover _ _ _ _ _ (scover1_B_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The body obligation at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point the invariant gives the launch's back: the table's named contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨R0, R1, R2, R3, R4, R5, HS0⟩, Hg⟩
  isplitl [R0 R1 R2 R3 R4 R5 HS0]
  · isplitl [R0]; · iexact R0
    isplitl [R1]; · iexact R1
    isplitl [R2]; · iexact R2
    isplitl [R3]; · iexact R3
    isplitl [R4]; · iexact R4
    isplitl [R5]; · iexact R5
    iexists _; iexact HS0
  iexact Hg

theorem hout1 (c : Dev nD) : (dat1 V c).Φ (Fin.last cfg1.N) ⊢ Pipeline.ΦA spec1 c :=
  Phi_out1 V c _ (by rw [Fin.val_last]; have : cfg1.N = 256 := N_1; omega)

end Region1Body

end Cert.Kernel.Hand

end
-- ==== Proof.K.Run.lean ====
/-
  The whole run: the first region, the two host operations that lay the weights and the bias out, the second region,
  the host reshape of the result. The buffers' contents at each boundary are a fold from the launch memory: a
  region's arrays at what its write-backs leave, a host stretch's results at the operations' values. Every weakly
  fair execution terminates, and at the end every unscoped buffer holds the fold's last contents; the argument
  arrays, written by nothing on the way, hold what they were launched with.
-/
import proofs.«106393_j65807488909790_1_alg».proof.Proof.K.Region0
import proofs.«106393_j65807488909790_1_alg».proof.Proof.K.Data1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the first region: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the transpose of the weights and the reshape of the bias (the second region's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- After the second region. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)
/-- After the reshape of the result: the end. -/
abbrev W4 : Dev nD → Valuation τ sig (Elt F) := fun c => StableHlo.after hostOps2 (W3 m ρ c)

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg0) := (W3_arr m ρ c 0).trans (((dat1 (V2 m ρ) c).arrAt_in 0 rfl _).trans (A_eq1 (V2 m ρ) c 0))
    _ = W1 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg1) := W3_of_ne m ρ c main_arg1 (by decide)
    _ = W1 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := W1_of_ne m ρ c main_arg1 (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg2) := W3_of_ne m ρ c main_arg2 (by decide)
    _ = W1 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := W1_of_ne m ρ c main_arg2 (by decide)
    _ = m ((c : Thread nD τ).loc main_arg2) := rfl

abbrev adm : (p : Fin 2) → (pcfgs (F := F) p).Adm := fun p => (cfgs p).toPCfg_adm
/-- Every region's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m ρ) c)
    unfold Pipeline.ΦA
    iintro ⟨Hp, -, Hr⟩
    isplitl [Hr]; · iexact Hr
    iexact Hp
  hout c := by
    rw [Pipeline.ownSems0_none]
    refine BIBase.Entails.trans (hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- THE RUN: every weakly fair execution of the program from memory `m` terminates without a fault, and in every final
    state each unscoped buffer holds the fold's last contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show (iprop(StableHlo.held (c : Thread nD τ) (Pipeline.ucRefs τ sig) (W4 m ρ c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c)⟩) (run_main m ρ)

end Cert.Kernel.Hand

end
-- ==== Proof.KI.Region0.lean ====
/-
  The first kernel region: per batch row, the minimum and the maximum of the 100000 points' coordinates, each of the
  three coordinates apart. One grid point per batch row; the row's block is read whole, the two results are each
  stored whole into their one-row blocks. What the two output blocks hold after the body is stated over the
  body's two named values of the loaded block.
-/
import proofs.«106393_j65807488909790_1_alg».proof.Proof.Gen.KernelIdeal.Launch
import proofs.«106393_j65807488909790_1_alg».proof.Proof.Gen.KernelIdeal.Skeleton
import proofs.«106393_j65807488909790_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds the batch row's block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

abbrev rIn0 : Rect S1x100000x3 := Rect.unit (s := S1x100000x3) ![0, 0, 0] S1x100000x3.size inb_S1x100000x3_S1x100000x3_0_0_0
abbrev rOut0 : Rect S1x1x3 := Rect.unit (s := S1x1x3) ![0, 0, 0] S1x1x3.size inb_S1x1x3_S1x1x3_0_0_0

/-- The row minimum's block after the body: one whole store of the minimum over the points. -/
def out0_1 (x0 : Vec F S1x100000x3 .f32) : Vec F S1x1x3 .f32 :=
  View.canon [⟨rOut0, k0_pay1 (View.ld x0 rIn0)⟩]
/-- The row maximum's block after the body: one whole store of the maximum over the points. -/
def out0_2 (x0 : Vec F S1x100000x3 .f32) : Vec F S1x1x3 .f32 :=
  View.canon [⟨rOut0, k0_pay2 (View.ld x0 rIn0)⟩]

theorem cover0_out (p0 : Vec F S1x1x3 .f32) (y : S1x1x3.Idx) :
    ∃ pc ∈ ([⟨rOut0, p0⟩] : List (View.Piece (Elt F) S1x1x3 .f32)), y ∈ pc.1.set :=
  View.cover_of_tiled [⟨rOut0, p0⟩] S1x1x3.size (by rfl) y

set_option maxHeartbeats 1000000 in
/-- The body on whole staging buffers: the input's contents stay, each output's buffer ends at its one store. -/
theorem sound_kernel0 (c : Dev nD) (E : Set ℕ) (i : grid0.Coords) (arg1 : Memref sig .tc .vmem S1x100000x3 .f32) (harg1 : arg1.IsWhole)
    (arg2 : Memref sig .tc .vmem S1x1x3 .f32) (harg2 : arg2.IsWhole) (arg3 : Memref sig .tc .vmem S1x1x3 .f32) (harg3 : arg3.IsWhole)
    (x0 : Vec F S1x100000x3 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 x0) ∗ owns (c : Thread nD τ) arg3 fullShare (out0_2 x0)) -∗ K ⟨⟩))
      ⊢ wp frame (wpE (defs₀ (F := F)) Variants.none c none) E (cc0__minmax_kernel i arg1 harg1 arg2 harg2 arg3 harg3) K := by
  simp only [cc0__minmax_kernel_eq_skeleton]; unfold cc0__minmax_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover0_out _)
  iexists _; isplitr
  swap; · iexact H2
  ipureintro
  exact View.read_writes_eq_canon _ _ _ (cover0_out _)

end Region0

section Region0Data

variable (V : (c : Dev nD) → (b : Ref sig .tc) → Buf (Elt F) ((c : Thread nD τ).loc b))

/-- The proof data of the first region on core `c`: the arrays as the region finds them; after the body at a point the
    input's buffer at the row's block and the two outputs' at the row's minimum and maximum. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Region0Data

end Cert.KernelIdeal.Hand

end
-- ==== Proof.KI.Region1.lean ====
/-
  The second kernel region, one grid point per (batch row, tile of 25000 points): what the kernel body does on its
  staging buffers, case by case of its two conditionals. At a row's first tile the 64 x 8 table of counts kept in
  scratch is reset; at every tile the tile's counts are added to it; at the row's last tile the table, divided by the
  number of points, is multiplied with the transposed weights, the bias added, and the row of 40 results stored.
-/
import proofs.«106393_j65807488909790_1_alg».proof.Proof.Gen.KernelIdeal.Launch
import proofs.«106393_j65807488909790_1_alg».proof.Proof.Gen.KernelIdeal.Skeleton
import proofs.«106393_j65807488909790_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The first conditional of the body: the tile is the row's first. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- The second: the tile is the row's last. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel

/-- One staging buffer of the output window, through which its contents are stated. -/
abbrev VO1_5 : View sig .tc .vmem S1x1x40 .f32 := (Memref.whole cc1_stg5_0 : Memref sig .tc .vmem S1x1x40 .f32).view
abbrev ms1_0 (t : Fin cfg1.N) : Memref sig .tc .vmem S1x25000x3 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1x3 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x3 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x40 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x40 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1x40 .f32 := win1_5.stage (cfg1.slots t 5)
abbrev hs1_5 (t : Fin cfg1.N) : (ms1_5 t).IsWhole := hstage1_5 ((cfg1.slots t 5).cast nbuf1_5)
/-- The table of counts: a whole scoped buffer of the kernel's own, passed beside the windows. -/
abbrev scM1_0 : Memref sig .tc .vmem S64x8 .f32 := Memref.whole cc1_scratch0
abbrev VS1_0 : View sig .tc .vmem S64x8 .f32 := scM1_0.view

/-- The region's invariant before anything ran: the first region's staging buffers and the table of counts each
    at some contents, the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d)) ∗ (∃ r, prngReg c r)) := by
  unfold Pipeline.ΦA; rw [scopedRest1_eq]; simp only [scM1_0, owns_whole]; try rfl

set_option maxHeartbeats 4000000 in
/-- The body at a row's FIRST tile, as the pieces its stores leave in the table of counts (last first), with the proof
    that it runs on whole staging buffers — the inputs' at their contents and handed back so, the output's untouched,
    the table at anything. -/
noncomputable def kernelRun1_A (c : Dev nD) (i : grid1.Coords) (arg2 : Memref sig .tc .vmem S1x25000x3 .f32) (harg2 : arg2.IsWhole) (arg3 : Memref sig .tc .vmem S1x1x3 .f32) (harg3 : arg3.IsWhole) (arg4 : Memref sig .tc .vmem S1x1x3 .f32) (harg4 : arg4.IsWhole) (arg5 : Memref sig .tc .vmem S512x40 .f32) (harg5 : arg5.IsWhole) (arg6 : Memref sig .tc .vmem S1x40 .f32) (harg6 : arg6.IsWhole) (arg7 : Memref sig .tc .vmem S1x1x40 .f32) (harg7 : arg7.IsWhole) (arg8 : Memref sig .tc .vmem S64x8 .f32) (harg8 : arg8.IsWhole) (hc0 : cond1_0 i) (hc1 : ¬cond1_1 i)
    (x0 : Vec F S1x25000x3 .f32) (x1 : Vec F S1x1x3 .f32) (x2 : Vec F S1x1x3 .f32) (x3 : Vec F S512x40 .f32) (x4 : Vec F S1x40 .f32) :
    { LS0 : List (View.Piece (Elt F) S64x8 .f32) //
      ∀ (xi5 : Vec F S1x1x40 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__hist_logits_kernel i arg2 harg2 arg3 harg3 arg4 harg4 arg5 harg5 arg6 harg6 arg7 harg7 arg8 harg8) K } := by
  refine ⟨?_, fun xi5 E K => ?run⟩
  case run =>
    simp only [cc1__hist_logits_kernel_eq_skeleton]; unfold cc1__hist_logits_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

set_option maxHeartbeats 4000000 in
/-- The body at a tile neither first nor last of its row: the table found at `xs0`. -/
noncomputable def kernelRun1_B (c : Dev nD) (i : grid1.Coords) (arg2 : Memref sig .tc .vmem S1x25000x3 .f32) (harg2 : arg2.IsWhole) (arg3 : Memref sig .tc .vmem S1x1x3 .f32) (harg3 : arg3.IsWhole) (arg4 : Memref sig .tc .vmem S1x1x3 .f32) (harg4 : arg4.IsWhole) (arg5 : Memref sig .tc .vmem S512x40 .f32) (harg5 : arg5.IsWhole) (arg6 : Memref sig .tc .vmem S1x40 .f32) (harg6 : arg6.IsWhole) (arg7 : Memref sig .tc .vmem S1x1x40 .f32) (harg7 : arg7.IsWhole) (arg8 : Memref sig .tc .vmem S64x8 .f32) (harg8 : arg8.IsWhole) (hc0 : ¬cond1_0 i) (hc1 : ¬cond1_1 i)
    (x0 : Vec F S1x25000x3 .f32) (x1 : Vec F S1x1x3 .f32) (x2 : Vec F S1x1x3 .f32) (x3 : Vec F S512x40 .f32) (x4 : Vec F S1x40 .f32) (xs0 : Vec F S64x8 .f32) :
    { LS0 : List (View.Piece (Elt F) S64x8 .f32) //
      ∀ (xi5 : Vec F S1x1x40 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__hist_logits_kernel i arg2 harg2 arg3 harg3 arg4 harg4 arg5 harg5 arg6 harg6 arg7 harg7 arg8 harg8) K } := by
  refine ⟨?_, fun xi5 E K => ?run⟩
  case run =>
    simp only [cc1__hist_logits_kernel_eq_skeleton]; unfold cc1__hist_logits_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

set_option maxHeartbeats 4000000 in
/-- The body at a row's LAST tile: the table found at `xs0`; the pieces left in the output's buffer and in the table. -/
noncomputable def kernelRun1_C (c : Dev nD) (i : grid1.Coords) (arg2 : Memref sig .tc .vmem S1x25000x3 .f32) (harg2 : arg2.IsWhole) (arg3 : Memref sig .tc .vmem S1x1x3 .f32) (harg3 : arg3.IsWhole) (arg4 : Memref sig .tc .vmem S1x1x3 .f32) (harg4 : arg4.IsWhole) (arg5 : Memref sig .tc .vmem S512x40 .f32) (harg5 : arg5.IsWhole) (arg6 : Memref sig .tc .vmem S1x40 .f32) (harg6 : arg6.IsWhole) (arg7 : Memref sig .tc .vmem S1x1x40 .f32) (harg7 : arg7.IsWhole) (arg8 : Memref sig .tc .vmem S64x8 .f32) (harg8 : arg8.IsWhole) (hc0 : ¬cond1_0 i) (hc1 : cond1_1 i)
    (x0 : Vec F S1x25000x3 .f32) (x1 : Vec F S1x1x3 .f32) (x2 : Vec F S1x1x3 .f32) (x3 : Vec F S512x40 .f32) (x4 : Vec F S1x40 .f32) (xs0 : Vec F S64x8 .f32) :
    Σ' (L5 : List (View.Piece (Elt F) S1x1x40 .f32)), { LS0 : List (View.Piece (Elt F) S64x8 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc1__hist_logits_kernel i arg2 harg2 arg3 harg3 arg4 harg4 arg5 harg5 arg6 harg6 arg7 harg7 arg8 harg8) K } := by
  refine ⟨?_, ?_, fun E K => ?run⟩
  case run =>
    simp only [cc1__hist_logits_kernel_eq_skeleton]; unfold cc1__hist_logits_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Region1

end Cert.KernelIdeal.Hand

end
-- ==== Proof.KI.Data1.lean ====
/-
  The second kernel region over its 256 grid points: what the table of counts and the output's block hold after each
  point, by recursion on the point (the table reset at a row's first tile, added to at every tile, read out at the
  row's last), the proof data built on it, and the body's obligation at every point.
-/
import proofs.«106393_j65807488909790_1_alg».proof.Proof.KI.Region1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1Data

variable (V : (c : Dev nD) → (b : Ref sig .tc) → Buf (Elt F) ((c : Thread nD τ).loc b))

/-- The output's block where the body stores nothing: a placeholder nothing consults. -/
def out1_idle : Vec F S1x1x40 .f32 := VO1_5.read (Elt F) (VO1_5.writes (Elt F) VO1_5.junk [])

theorem scover1_A_0 (c : Dev nD) (i : grid1.Coords) (arg2 : Memref sig .tc .vmem S1x25000x3 .f32) (harg2 : arg2.IsWhole) (arg3 : Memref sig .tc .vmem S1x1x3 .f32) (harg3 : arg3.IsWhole) (arg4 : Memref sig .tc .vmem S1x1x3 .f32) (harg4 : arg4.IsWhole) (arg5 : Memref sig .tc .vmem S512x40 .f32) (harg5 : arg5.IsWhole) (arg6 : Memref sig .tc .vmem S1x40 .f32) (harg6 : arg6.IsWhole) (arg7 : Memref sig .tc .vmem S1x1x40 .f32) (harg7 : arg7.IsWhole) (arg8 : Memref sig .tc .vmem S64x8 .f32) (harg8 : arg8.IsWhole) (hc0 : cond1_0 i) (hc1 : ¬cond1_1 i)
    (x0 : Vec F S1x25000x3 .f32) (x1 : Vec F S1x1x3 .f32) (x2 : Vec F S1x1x3 .f32) (x3 : Vec F S512x40 .f32) (x4 : Vec F S1x40 .f32) (y : S64x8.Idx) :
    ∃ pc ∈ (kernelRun1_A c i arg2 harg2 arg3 harg3 arg4 harg4 arg5 harg5 arg6 harg6 arg7 harg7 arg8 harg8 hc0 hc1 x0 x1 x2 x3 x4).1, y ∈ pc.1.set :=
  View.cover_of_tiledL (kernelRun1_A c i arg2 harg2 arg3 harg3 arg4 harg4 arg5 harg5 arg6 harg6 arg7 harg7 arg8 harg8 hc0 hc1 x0 x1 x2 x3 x4).1 S64x8.size (by sl_kernel_rfl) y
/-- What a row's first tile leaves in the table of counts. -/
def sout1_A_0 (c : Dev nD) (i : grid1.Coords) (arg2 : Memref sig .tc .vmem S1x25000x3 .f32) (harg2 : arg2.IsWhole) (arg3 : Memref sig .tc .vmem S1x1x3 .f32) (harg3 : arg3.IsWhole) (arg4 : Memref sig .tc .vmem S1x1x3 .f32) (harg4 : arg4.IsWhole) (arg5 : Memref sig .tc .vmem S512x40 .f32) (harg5 : arg5.IsWhole) (arg6 : Memref sig .tc .vmem S1x40 .f32) (harg6 : arg6.IsWhole) (arg7 : Memref sig .tc .vmem S1x1x40 .f32) (harg7 : arg7.IsWhole) (arg8 : Memref sig .tc .vmem S64x8 .f32) (harg8 : arg8.IsWhole) (hc0 : cond1_0 i) (hc1 : ¬cond1_1 i)
    (x0 : Vec F S1x25000x3 .f32) (x1 : Vec F S1x1x3 .f32) (x2 : Vec F S1x1x3 .f32) (x3 : Vec F S512x40 .f32) (x4 : Vec F S1x40 .f32) : Vec F S64x8 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2 x3 x4).1)

theorem scover1_B_0 (c : Dev nD) (i : grid1.Coords) (arg2 : Memref sig .tc .vmem S1x25000x3 .f32) (harg2 : arg2.IsWhole) (arg3 : Memref sig .tc .vmem S1x1x3 .f32) (harg3 : arg3.IsWhole) (arg4 : Memref sig .tc .vmem S1x1x3 .f32) (harg4 : arg4.IsWhole) (arg5 : Memref sig .tc .vmem S512x40 .f32) (harg5 : arg5.IsWhole) (arg6 : Memref sig .tc .vmem S1x40 .f32) (harg6 : arg6.IsWhole) (arg7 : Memref sig .tc .vmem S1x1x40 .f32) (harg7 : arg7.IsWhole) (arg8 : Memref sig .tc .vmem S64x8 .f32) (harg8 : arg8.IsWhole) (hc0 : ¬cond1_0 i) (hc1 : ¬cond1_1 i)
    (x0 : Vec F S1x25000x3 .f32) (x1 : Vec F S1x1x3 .f32) (x2 : Vec F S1x1x3 .f32) (x3 : Vec F S512x40 .f32) (x4 : Vec F S1x40 .f32) (xs0 : Vec F S64x8 .f32) (y : S64x8.Idx) :
    ∃ pc ∈ (kernelRun1_B c i arg2 harg2 arg3 harg3 arg4 harg4 arg5 harg5 arg6 harg6 arg7 harg7 arg8 harg8 hc0 hc1 x0 x1 x2 x3 x4 xs0).1, y ∈ pc.1.set :=
  View.cover_of_tiledL (kernelRun1_B c i arg2 harg2 arg3 harg3 arg4 harg4 arg5 harg5 arg6 harg6 arg7 harg7 arg8 harg8 hc0 hc1 x0 x1 x2 x3 x4 xs0).1 S64x8.size (by sl_kernel_rfl) y
/-- What a middle tile leaves in the table of counts, found at `xs0`. -/
def sout1_B_0 (c : Dev nD) (i : grid1.Coords) (arg2 : Memref sig .tc .vmem S1x25000x3 .f32) (harg2 : arg2.IsWhole) (arg3 : Memref sig .tc .vmem S1x1x3 .f32) (harg3 : arg3.IsWhole) (arg4 : Memref sig .tc .vmem S1x1x3 .f32) (harg4 : arg4.IsWhole) (arg5 : Memref sig .tc .vmem S512x40 .f32) (harg5 : arg5.IsWhole) (arg6 : Memref sig .tc .vmem S1x40 .f32) (harg6 : arg6.IsWhole) (arg7 : Memref sig .tc .vmem S1x1x40 .f32) (harg7 : arg7.IsWhole) (arg8 : Memref sig .tc .vmem S64x8 .f32) (harg8 : arg8.IsWhole) (hc0 : ¬cond1_0 i) (hc1 : ¬cond1_1 i)
    (x0 : Vec F S1x25000x3 .f32) (x1 : Vec F S1x1x3 .f32) (x2 : Vec F S1x1x3 .f32) (x3 : Vec F S512x40 .f32) (x4 : Vec F S1x40 .f32) (xs0 : Vec F S64x8 .f32) : Vec F S64x8 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 x3 x4 xs0).1)

theorem cover1_C_5 (c : Dev nD) (i : grid1.Coords) (arg2 : Memref sig .tc .vmem S1x25000x3 .f32) (harg2 : arg2.IsWhole) (arg3 : Memref sig .tc .vmem S1x1x3 .f32) (harg3 : arg3.IsWhole) (arg4 : Memref sig .tc .vmem S1x1x3 .f32) (harg4 : arg4.IsWhole) (arg5 : Memref sig .tc .vmem S512x40 .f32) (harg5 : arg5.IsWhole) (arg6 : Memref sig .tc .vmem S1x40 .f32) (harg6 : arg6.IsWhole) (arg7 : Memref sig .tc .vmem S1x1x40 .f32) (harg7 : arg7.IsWhole) (arg8 : Memref sig .tc .vmem S64x8 .f32) (harg8 : arg8.IsWhole) (hc0 : ¬cond1_0 i) (hc1 : cond1_1 i)
    (x0 : Vec F S1x25000x3 .f32) (x1 : Vec F S1x1x3 .f32) (x2 : Vec F S1x1x3 .f32) (x3 : Vec F S512x40 .f32) (x4 : Vec F S1x40 .f32) (xs0 : Vec F S64x8 .f32) (y : S1x1x40.Idx) :
    ∃ pc ∈ (kernelRun1_C c i arg2 harg2 arg3 harg3 arg4 harg4 arg5 harg5 arg6 harg6 arg7 harg7 arg8 harg8 hc0 hc1 x0 x1 x2 x3 x4 xs0).1, y ∈ pc.1.set :=
  View.cover_of_tiledL (kernelRun1_C c i arg2 harg2 arg3 harg3 arg4 harg4 arg5 harg5 arg6 harg6 arg7 harg7 arg8 harg8 hc0 hc1 x0 x1 x2 x3 x4 xs0).1 S1x1x40.size (by sl_kernel_rfl) y
/-- What a row's last tile leaves in the output's block. -/
def out1_C_5 (c : Dev nD) (i : grid1.Coords) (arg2 : Memref sig .tc .vmem S1x25000x3 .f32) (harg2 : arg2.IsWhole) (arg3 : Memref sig .tc .vmem S1x1x3 .f32) (harg3 : arg3.IsWhole) (arg4 : Memref sig .tc .vmem S1x1x3 .f32) (harg4 : arg4.IsWhole) (arg5 : Memref sig .tc .vmem S512x40 .f32) (harg5 : arg5.IsWhole) (arg6 : Memref sig .tc .vmem S1x40 .f32) (harg6 : arg6.IsWhole) (arg7 : Memref sig .tc .vmem S1x1x40 .f32) (harg7 : arg7.IsWhole) (arg8 : Memref sig .tc .vmem S64x8 .f32) (harg8 : arg8.IsWhole) (hc0 : ¬cond1_0 i) (hc1 : cond1_1 i)
    (x0 : Vec F S1x25000x3 .f32) (x1 : Vec F S1x1x3 .f32) (x2 : Vec F S1x1x3 .f32) (x3 : Vec F S512x40 .f32) (x4 : Vec F S1x40 .f32) (xs0 : Vec F S64x8 .f32) : Vec F S1x1x40 .f32 :=
  VO1_5.read (Elt F) (VO1_5.writes (Elt F) VO1_5.junk (kernelRun1_C c i arg2 harg2 arg3 harg3 arg4 harg4 arg5 harg5 arg6 harg6 arg7 harg7 arg8 harg8 hc0 hc1 x0 x1 x2 x3 x4 xs0).1)
theorem scover1_C_0 (c : Dev nD) (i : grid1.Coords) (arg2 : Memref sig .tc .vmem S1x25000x3 .f32) (harg2 : arg2.IsWhole) (arg3 : Memref sig .tc .vmem S1x1x3 .f32) (harg3 : arg3.IsWhole) (arg4 : Memref sig .tc .vmem S1x1x3 .f32) (harg4 : arg4.IsWhole) (arg5 : Memref sig .tc .vmem S512x40 .f32) (harg5 : arg5.IsWhole) (arg6 : Memref sig .tc .vmem S1x40 .f32) (harg6 : arg6.IsWhole) (arg7 : Memref sig .tc .vmem S1x1x40 .f32) (harg7 : arg7.IsWhole) (arg8 : Memref sig .tc .vmem S64x8 .f32) (harg8 : arg8.IsWhole) (hc0 : ¬cond1_0 i) (hc1 : cond1_1 i)
    (x0 : Vec F S1x25000x3 .f32) (x1 : Vec F S1x1x3 .f32) (x2 : Vec F S1x1x3 .f32) (x3 : Vec F S512x40 .f32) (x4 : Vec F S1x40 .f32) (xs0 : Vec F S64x8 .f32) (y : S64x8.Idx) :
    ∃ pc ∈ (kernelRun1_C c i arg2 harg2 arg3 harg3 arg4 harg4 arg5 harg5 arg6 harg6 arg7 harg7 arg8 harg8 hc0 hc1 x0 x1 x2 x3 x4 xs0).2.1, y ∈ pc.1.set :=
  View.cover_of_tiledL (kernelRun1_C c i arg2 harg2 arg3 harg3 arg4 harg4 arg5 harg5 arg6 harg6 arg7 harg7 arg8 harg8 hc0 hc1 x0 x1 x2 x3 x4 xs0).2.1 S64x8.size (by sl_kernel_rfl) y
/-- What it leaves in the table of counts. -/
def sout1_C_0 (c : Dev nD) (i : grid1.Coords) (arg2 : Memref sig .tc .vmem S1x25000x3 .f32) (harg2 : arg2.IsWhole) (arg3 : Memref sig .tc .vmem S1x1x3 .f32) (harg3 : arg3.IsWhole) (arg4 : Memref sig .tc .vmem S1x1x3 .f32) (harg4 : arg4.IsWhole) (arg5 : Memref sig .tc .vmem S512x40 .f32) (harg5 : arg5.IsWhole) (arg6 : Memref sig .tc .vmem S1x40 .f32) (harg6 : arg6.IsWhole) (arg7 : Memref sig .tc .vmem S1x1x40 .f32) (harg7 : arg7.IsWhole) (arg8 : Memref sig .tc .vmem S64x8 .f32) (harg8 : arg8.IsWhole) (hc0 : ¬cond1_0 i) (hc1 : cond1_1 i)
    (x0 : Vec F S1x25000x3 .f32) (x1 : Vec F S1x1x3 .f32) (x2 : Vec F S1x1x3 .f32) (x3 : Vec F S512x40 .f32) (x4 : Vec F S1x40 .f32) (xs0 : Vec F S64x8 .f32) : Vec F S64x8 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 x3 x4 xs0).2.1)

/-- What the output's block and the table of counts hold after the body at position `n`: the case of `n mod 4`, the
    table read at what position `n - 1` left. -/
def outsAt1 (c : Dev nD) : (n : ℕ) → n < cfg1.N → Vec F S1x1x40 .f32 × Vec F S64x8 .f32
  | 0, hn => (out1_idle, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 4 = 0 then
      if h1 : (n + 1) % 4 = 3 then
        False.elim (by omega)
      else
        (out1_idle, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 4 = 3 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)
      else
        (out1_idle, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (out1_idle, sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_idle, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The first region's staging buffers, each at some contents, beside `S`: the scoped buffers the second region's
    pipeline does not stage, the table of counts in the place of `S`. -/
abbrev restWith (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ S)

/-- The region's invariant before position `n`: before the first point every scoped buffer at anything; afterwards
    the table of counts at what the point before left. -/
def PhiS (c : Dev nD) : (n : ℕ) → n ≤ cfg1.N → sProp 𝕄
  | 0, _ => Pipeline.ΦA spec1 c
  | n + 1, hn => iprop(restWith c (owns (c : Thread nD τ) scM1_0 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(restWith c (owns (c : Thread nD τ) scM1_0 fullShare ((outsAt1 V c n hn).2)) ∗ (∃ r, prngReg c r)) := rfl

theorem PhiS_pos (c : Dev nD) (n : ℕ) (h : n ≤ cfg1.N) (hz : n ≠ 0) :
    PhiS V c n h = iprop(restWith c (owns (c : Thread nD τ) scM1_0 fullShare ((outsAt1 V c (n - 1) (by omega)).2)) ∗ (∃ r, prngReg c r)) := by
  cases n with
  | zero => exact absurd rfl hz
  | succ n => rfl

/-- The proof data of the second region on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

end Region1Data

section Region1Body

variable (V : (c : Dev nD) → (b : Ref sig .tc) → Buf (Elt F) ((c : Thread nD τ).loc b))

set_option maxHeartbeats 8000000 in
/-- The body at any point: the inputs' buffers hold their blocks; the point's position modulo 4 says which case it is
    in; the invariant hands the body the table of counts at what the point before left (at anything at the first point)
    and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  have hN : t.val < 256 := lt_of_lt_of_eq t.isLt (show cfg1.N = 256 from N_1)
  by_cases h0 : t.val % 4 = 0
  · by_cases h1 : t.val % 4 = 3
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5 t (fun h => h1 ((hcond1_1 t).mp h))) (noFlush1_5 t (fun h => h1 ((hcond1_1 t).mp h)))]
      rw [outsAt1_A V c t h0 h1]
      unfold sout1_A_0; (try dsimp only)
      by_cases hz : t.val = 0
      · rw [PhiS_castSucc V c t, PhiS_zero V c _ _ hz, PhiA1_eq]
        iintro ⟨⟨⟨R0, R1, R2, R3, R4, R5, HS0⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [R0 R1 R2 R3 R4 R5 HS0 Hg]
        · isplitl [R0 R1 R2 R3 R4 R5 HS0]
          · isplitl [R0]; · iexact R0
            isplitl [R1]; · iexact R1
            isplitl [R2]; · iexact R2
            isplitl [R3]; · iexact R3
            isplitl [R4]; · iexact R4
            isplitl [R5]; · iexact R5
            unfold owns; iexists _; isplitr
            swap; · iexact HS0
            ipureintro; exact View.read_writes_of_cover _ _ _ _ _ (scover1_A_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS_castSucc V c t, PhiS_pos V c _ _ hz]
        iintro ⟨⟨⟨R0, R1, R2, R3, R4, R5, HS0⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [R0 R1 R2 R3 R4 R5 HS0 Hg]
        · isplitl [R0 R1 R2 R3 R4 R5 HS0]
          · isplitl [R0]; · iexact R0
            isplitl [R1]; · iexact R1
            isplitl [R2]; · iexact R2
            isplitl [R3]; · iexact R3
            isplitl [R4]; · iexact R4
            isplitl [R5]; · iexact R5
            unfold owns; iexists _; isplitr
            swap; · iexact HS0
            ipureintro; exact View.read_writes_of_cover _ _ _ _ _ (scover1_A_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 4 = 3
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t ((hcond1_1 t).mpr h1)], after1_5]
      rw [outsAt1_C V c t h0 h1]
      unfold out1_C_5 sout1_C_0; (try dsimp only)
      by_cases hz : t.val = 0
      · exfalso; omega
      · rw [PhiS_castSucc V c t, PhiS_pos V c _ _ hz]
        iintro ⟨⟨⟨R0, R1, R2, R3, R4, R5, HS0⟩, Hg⟩, Ho, ⟨%d0, H0⟩, ⟨%d1, H1⟩, ⟨%d2, H2⟩, ⟨%d3, H3⟩, ⟨%d4, H4⟩, ⟨%d5, H5⟩⟩
        iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [R0 R1 R2 R3 R4 R5 HS0 Hg]
        · isplitl [R0 R1 R2 R3 R4 R5 HS0]
          · isplitl [R0]; · iexact R0
            isplitl [R1]; · iexact R1
            isplitl [R2]; · iexact R2
            isplitl [R3]; · iexact R3
            isplitl [R4]; · iexact R4
            isplitl [R5]; · iexact R5
            unfold owns; iexists _; isplitr
            swap; · iexact HS0
            ipureintro; exact View.read_writes_of_cover _ _ _ _ _ (scover1_C_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover1_C_5 c _ _ _ _ _ _ _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5 t (fun h => h1 ((hcond1_1 t).mp h))) (noFlush1_5 t (fun h => h1 ((hcond1_1 t).mp h)))]
      rw [outsAt1_B V c t h0 h1]
      unfold sout1_B_0; (try dsimp only)
      by_cases hz : t.val = 0
      · exfalso; omega
      · rw [PhiS_castSucc V c t, PhiS_pos V c _ _ hz]
        iintro ⟨⟨⟨R0, R1, R2, R3, R4, R5, HS0⟩, Hg⟩, Ho, ⟨%d0, H0⟩, ⟨%d1, H1⟩, ⟨%d2, H2⟩, ⟨%d3, H3⟩, ⟨%d4, H4⟩, ⟨%d5, H5⟩⟩
        iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _).2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [R0 R1 R2 R3 R4 R5 HS0 Hg]
        · isplitl [R0 R1 R2 R3 R4 R5 HS0]
          · isplitl [R0]; · iexact R0
            isplitl [R1]; · iexact R1
            isplitl [R2]; · iexact R2
            isplitl [R3]; · iexact R3
            isplitl [R4]; · iexact R4
            isplitl [R5]; · iexact R5
            unfold owns; iexists _; isplitr
            swap; · iexact HS0
            ipureintro; exact View.read_writes_of_cover _ _ _ _ _ (scover1_B_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The body obligation at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point the invariant gives the launch's back: the table's named contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨R0, R1, R2, R3, R4, R5, HS0⟩, Hg⟩
  isplitl [R0 R1 R2 R3 R4 R5 HS0]
  · isplitl [R0]; · iexact R0
    isplitl [R1]; · iexact R1
    isplitl [R2]; · iexact R2
    isplitl [R3]; · iexact R3
    isplitl [R4]; · iexact R4
    isplitl [R5]; · iexact R5
    iexists _; iexact HS0
  iexact Hg

theorem hout1 (c : Dev nD) : (dat1 V c).Φ (Fin.last cfg1.N) ⊢ Pipeline.ΦA spec1 c :=
  Phi_out1 V c _ (by rw [Fin.val_last]; have : cfg1.N = 256 := N_1; omega)

end Region1Body

end Cert.KernelIdeal.Hand

end
-- ==== Proof.KI.Run.lean ====
/-
  The whole run: the first region, the two host operations that lay the weights and the bias out, the second region,
  the host reshape of the result. The buffers' contents at each boundary are a fold from the launch memory: a
  region's arrays at what its write-backs leave, a host stretch's results at the operations' values. Every weakly
  fair execution terminates, and at the end every unscoped buffer holds the fold's last contents; the argument
  arrays, written by nothing on the way, hold what they were launched with.
-/
import proofs.«106393_j65807488909790_1_alg».proof.Proof.KI.Region0
import proofs.«106393_j65807488909790_1_alg».proof.Proof.KI.Data1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the first region: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the transpose of the weights and the reshape of the bias (the second region's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- After the second region. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)
/-- After the reshape of the result: the end. -/
abbrev W4 : Dev nD → Valuation τ sig (Elt F) := fun c => StableHlo.after hostOps2 (W3 m ρ c)

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg0) := (W3_arr m ρ c 0).trans (((dat1 (V2 m ρ) c).arrAt_in 0 rfl _).trans (A_eq1 (V2 m ρ) c 0))
    _ = W1 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg1) := W3_of_ne m ρ c main_arg1 (by decide)
    _ = W1 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := W1_of_ne m ρ c main_arg1 (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg2) := W3_of_ne m ρ c main_arg2 (by decide)
    _ = W1 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := W1_of_ne m ρ c main_arg2 (by decide)
    _ = m ((c : Thread nD τ).loc main_arg2) := rfl

abbrev adm : (p : Fin 2) → (pcfgs (F := F) p).Adm := fun p => (cfgs p).toPCfg_adm
/-- Every region's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m ρ) c)
    unfold Pipeline.ΦA
    iintro ⟨Hp, -, Hr⟩
    isplitl [Hr]; · iexact Hr
    iexact Hp
  hout c := by
    rw [Pipeline.ownSems0_none]
    refine BIBase.Entails.trans (hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- THE RUN: every weakly fair execution of the program from memory `m` terminates without a fault, and in every final
    state each unscoped buffer holds the fold's last contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show (iprop(StableHlo.held (c : Thread nD τ) (Pipeline.ucRefs τ sig) (W4 m ρ c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c)⟩) (run_main m ρ)

end Cert.KernelIdeal.Hand

end
-- ==== Proof.KI.Entry.lean ====
/-
  What the second region finds in its arrays, and what the program's result is, in terms of the launch memory: the
  points as launched; the least and greatest values as the first region's write-backs left them; the weights
  transposed; the bias as one row; the result the second region's output array without its unit axis.
-/
import proofs.«106393_j65807488909790_1_alg».proof.Proof.KI.Run
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

abbrev argX (c : Dev nD) : Vec F S64x100000x3 .f32 := m ((c : Thread nD τ).loc main_arg0)
abbrev argW (c : Dev nD) : Vec F S40x512 .f32 := m ((c : Thread nD τ).loc main_arg1)
abbrev argB (c : Dev nD) : Vec F S40 .f32 := m ((c : Thread nD τ).loc main_arg2)
abbrev minArr (c : Dev nD) : Vec F S64x1x3 .f32 := (dat0 (V0 m ρ) c).arrAt 1 cfg0.N
abbrev maxArr (c : Dev nD) : Vec F S64x1x3 .f32 := (dat0 (V0 m ρ) c).arrAt 2 cfg0.N
abbrev outArr (c : Dev nD) : Vec F S64x1x40 .f32 := (dat1 (V2 m ρ) c).arrAt 5 cfg1.N

/-- The first host stretch leaves a buffer it does not write as it was. -/
private theorem W2_of_not_written (c : Dev nD) (b : Ref sig .tc) (h1 : b ≠ main_v1) (h2 : b ≠ main_v2) :
    W2 m ρ c (Proc.devRef .tc b) = W1 m ρ c (Proc.devRef .tc b) :=
  StableHlo.after_of_forall_not_mem (b := Proc.devRef .tc b) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      exact ⟨StableHlo.devRef_ne_of_ne h1, StableHlo.devRef_ne_of_ne h2⟩))

theorem V0_arg0 (c : Dev nD) : (V0 m ρ c main_arg0 : Vec F S64x100000x3 .f32) = argX m c := rfl
theorem V2_arg0 (c : Dev nD) : (V2 m ρ c main_arg0 : Vec F S64x100000x3 .f32) = argX m c := by
  show W2 m ρ c (Proc.devRef .tc main_arg0) = m ((c : Thread nD τ).loc main_arg0)
  exact (W2_of_not_written m ρ c main_arg0 (by decide) (by decide)).trans
    ((W1_arr m ρ c 0).trans (((dat0 (V0 m ρ) c).arrAt_in 0 rfl _).trans (A_eq0 (V0 m ρ) c 0)))
theorem V2_min (c : Dev nD) : (V2 m ρ c main_v0_0 : Vec F S64x1x3 .f32) = minArr m ρ c := by
  show W2 m ρ c (Proc.devRef .tc main_v0_0) = (dat0 (V0 m ρ) c).arrAt 1 cfg0.N
  exact (W2_of_not_written m ρ c main_v0_0 (by decide) (by decide)).trans (W1_arr m ρ c 1)
theorem V2_max (c : Dev nD) : (V2 m ρ c main_v0_1 : Vec F S64x1x3 .f32) = maxArr m ρ c := by
  show W2 m ρ c (Proc.devRef .tc main_v0_1) = (dat0 (V0 m ρ) c).arrAt 2 cfg0.N
  exact (W2_of_not_written m ρ c main_v0_1 (by decide) (by decide)).trans (W1_arr m ρ c 2)
theorem V2_wt (c : Dev nD) : (V2 m ρ c main_v1 : Vec F S512x40 .f32) = transpose S512x40 [1, 0] (argW m c) transposes_S40x512_S512x40_1_0 := by
  show StableHlo.after hostOps1 (W1 m ρ c) (Proc.devRef .tc main_v1) = _
  after_results
  rw [W1_of_ne m ρ c main_arg1 (by decide)]
theorem V2_bias (c : Dev nD) : (V2 m ρ c main_v2 : Vec F S1x40 .f32) = shapeCast S1x40 (argB m c) shapeCasts_S40_S1x40 := by
  show StableHlo.after hostOps1 (W1 m ρ c) (Proc.devRef .tc main_v2) = _
  after_results
  rw [W1_of_ne m ρ c main_arg2 (by decide)]
  rfl
theorem W4_out (c : Dev nD) : (W4 m ρ c (Proc.devRef .tc main_v4) : Vec F S64x40 .f32) = shapeCast S64x40 (outArr m ρ c) shapeCasts_S64x1x40_S64x40 := by
  show StableHlo.after hostOps2 (W3 m ρ c) (Proc.devRef .tc main_v4) = _
  after_results
  have e : W3 m ρ c (Proc.devRef .tc main_v3) = (dat1 (V2 m ρ) c).arrAt 5 cfg1.N := W3_arr m ρ c 5
  rw [e]
  rfl

end Cert.KernelIdeal.Hand

end
-- ==== Proof.Spec.lean ====
/-
  The function both programs compute, index by index over the extended reals.

  Input: 64 clouds of 100000 points in three coordinates. Per cloud and coordinate take the least and the greatest
  value; the width between them (1 where it is not positive) divides 8 to give a scale. A point's coordinate goes to
  the cell floor((x - least) * scale), clipped to 0..7; the three cells of a point make one number below 512. Count,
  per cloud, the points of each number; divide the counts by 100000; multiply the 512 quotients with the weights'
  rows and add the bias.
-/
import Idealize.ShloMosaic.PureOps.Ideal
import Idealize.ShloMosaic.Lib.ValueIdx

noncomputable section

namespace Cert.Spec

open Idealize.ShloMosaic Idealize.ShloMosaic.ValueIdx

abbrev SX : Shape := ⟨3, ![64, 100000, 3]⟩
abbrev SW : Shape := ⟨2, ![40, 512]⟩
abbrev SB : Shape := ⟨1, ![40]⟩
abbrev SO : Shape := ⟨2, ![64, 40]⟩

/-- The float literals met on the way, as extended reals. -/
abbrev cPosInf : EReal := FloatOps.ofBits (F := Ideal) .f32 0x7F800000#32
abbrev cNegInf : EReal := FloatOps.ofBits (F := Ideal) .f32 0xFF800000#32
abbrev cZero : EReal := FloatOps.ofBits (F := Ideal) .f32 0x00000000#32
abbrev cOne : EReal := FloatOps.ofBits (F := Ideal) .f32 0x3F800000#32
abbrev cEight : EReal := FloatOps.ofBits (F := Ideal) .f32 0x41000000#32
abbrev cN : EReal := FloatOps.ofBits (F := Ideal) .f32 0x47C35000#32

/-- 8 over the width `hi - lo`, or over 1 where the width is not positive. -/
def scaleS (lo hi : EReal) : EReal :=
  FloatOps.hostDivf (F := Ideal) (φ := .f32) cEight
    (Scalar.select (FloatOps.cmpf (F := Ideal) (φ := .f32) .ogt (FloatOps.subf (F := Ideal) (φ := .f32) hi lo) cZero)
      (FloatOps.subf (F := Ideal) (φ := .f32) hi lo) cOne)
/-- The cell of a coordinate `v` between `lo` and `hi`: the floor of its scaled offset, as a 32-bit integer,
    clipped to 0..7. -/
def binS (v lo hi : EReal) : BitVec 32 :=
  IntOp.minsi 7#32 (IntOp.maxsi 0#32 (FloatOps.fptosi (F := Ideal) (φ := .f32) 32 (FloatOps.hostUnary (F := Ideal) (φ := .f32) .floor
    (FloatOps.mulf (F := Ideal) (φ := .f32) (FloatOps.subf (F := Ideal) (φ := .f32) v lo) (scaleS lo hi)))))
/-- The three cells of a point as one number: (c0 * 8 + c1) * 8 + c2. -/
def cellS (v lo hi : Fin 3 → EReal) : BitVec 32 :=
  IntOp.addi (IntOp.muli (IntOp.addi (IntOp.muli (binS (v 0) (lo 0) (hi 0)) 8#32) (binS (v 1) (lo 1) (hi 1))) 8#32) (binS (v 2) (lo 2) (hi 2))

variable (x : SX.Idx → EReal)

/-- The least value of coordinate `d` over cloud `b`'s points. -/
def lo (b : Fin 64) (d : Fin 3) : EReal :=
  (Finset.univ : Finset (Fin 100000)).fold min cPosInf (fun n => x (ix3 b n d))
/-- The greatest. -/
def hi (b : Fin 64) (d : Fin 3) : EReal :=
  (Finset.univ : Finset (Fin 100000)).fold max cNegInf (fun n => x (ix3 b n d))
/-- The number of point `n` of cloud `b`. -/
def cell (b : Fin 64) (n : Fin 100000) : BitVec 32 :=
  cellS (fun d => x (ix3 b n d)) (lo x b) (hi x b)
/-- How many points of cloud `b` have the number `j`. -/
def cnt (b : Fin 64) (j : Fin 512) : EReal :=
  ∑ n : Fin 100000, if cell x b n = BitVec.ofNat 32 j.val then (1 : EReal) else 0
/-- The result: the counts over 100000, times the weights' row, plus the bias. -/
def G (W : SW.Idx → EReal) (bias : SB.Idx → EReal) (i : SO.Idx) : EReal :=
  FloatOps.addf (F := Ideal) (φ := .f32)
    (∑ j : Fin 512, FloatOps.hostDivf (F := Ideal) (φ := .f32) (cnt x ⟨(i 0).val, (i 0).isLt⟩ j) cN * W (ix2 ⟨(i 1).val, (i 1).isLt⟩ j))
    (bias (ix1 ⟨(i 1).val, (i 1).isLt⟩))

end Cert.Spec

end
-- ==== Proof.SpecFacts.lean ====
/-
  Range facts about the cells of Spec.lean: a coordinate's cell lies in 0..7, so a point's number is below 512 and
  determines its three cells.
-/
import proofs.«106393_j65807488909790_1_alg».proof.Proof.Spec

noncomputable section

namespace Cert.Spec

open Idealize.ShloMosaic Idealize.ShloMosaic.ValueIdx

/-- Clipping any 32-bit integer to the signed range 0..7 leaves a value whose unsigned reading is below 8:
    a negative integer goes to 0, one above 7 goes to 7, and one in between is its own unsigned reading. -/
private theorem clip_toNat_lt (z : BitVec 32) : (IntOp.minsi 7#32 (IntOp.maxsi 0#32 z)).toNat < 8 := by
  unfold IntOp.minsi IntOp.maxsi
  by_cases h1 : z.slt 0#32 = true
  · rw [if_pos h1]
    decide
  · rw [if_neg h1]
    by_cases h2 : (7#32).slt z = true
    · rw [if_pos h2]; decide
    · rw [if_neg h2]
      rw [BitVec.slt, decide_eq_true_eq] at h1 h2
      have hz := BitVec.toInt_eq_toNat_cond z
      have h7 : (7#32 : BitVec 32).toInt = 7 := by decide
      have h0 : (0#32 : BitVec 32).toInt = 0 := by decide
      rw [h7] at h2; rw [h0] at h1
      have := z.isLt
      split at hz <;> omega

/-- A cell is one of 0..7. -/
theorem binS_lt (v lo hi : EReal) : (binS v lo hi).toNat < 8 := by
  unfold binS; exact clip_toNat_lt _

/-- The first two cells as one number, c0 * 8 + c1, as the kernel forms it: both cells are below 8, so the
    product and the sum stay below 2^32. -/
theorem pairS_toNat (v lo hi : Fin 3 → EReal) :
    (IntOp.addi (IntOp.muli (binS (v 0) (lo 0) (hi 0)) 8#32) (binS (v 1) (lo 1) (hi 1))).toNat
      = (binS (v 0) (lo 0) (hi 0)).toNat * 8 + (binS (v 1) (lo 1) (hi 1)).toNat := by
  have h0 := binS_lt (v 0) (lo 0) (hi 0); have h1 := binS_lt (v 1) (lo 1) (hi 1)
  unfold IntOp.addi IntOp.muli
  rw [BitVec.toNat_add, BitVec.toNat_mul]
  have h8 : (8#32 : BitVec 32).toNat = 8 := by decide
  rw [h8]
  omega

/-- A point's number, as a natural number, is (c0 * 8 + c1) * 8 + c2 of its three cells: nothing wraps. -/
theorem cellS_toNat (v lo hi : Fin 3 → EReal) :
    (cellS v lo hi).toNat = ((binS (v 0) (lo 0) (hi 0)).toNat * 8 + (binS (v 1) (lo 1) (hi 1)).toNat) * 8 + (binS (v 2) (lo 2) (hi 2)).toNat := by
  have h0 := binS_lt (v 0) (lo 0) (hi 0); have h1 := binS_lt (v 1) (lo 1) (hi 1); have h2 := binS_lt (v 2) (lo 2) (hi 2)
  have hp := pairS_toNat v lo hi
  unfold cellS
  generalize IntOp.addi (IntOp.muli (binS (v 0) (lo 0) (hi 0)) 8#32) (binS (v 1) (lo 1) (hi 1)) = p at hp ⊢
  unfold IntOp.addi IntOp.muli
  rw [BitVec.toNat_add, BitVec.toNat_mul, hp]
  have h8 : (8#32 : BitVec 32).toNat = 8 := by decide
  rw [h8]
  omega

theorem cellS_lt (v lo hi : Fin 3 → EReal) : (cellS v lo hi).toNat < 512 := by
  have h0 := binS_lt (v 0) (lo 0) (hi 0); have h1 := binS_lt (v 1) (lo 1) (hi 1); have h2 := binS_lt (v 2) (lo 2) (hi 2)
  rw [cellS_toNat]; omega

end Cert.Spec

end
-- ==== Proof.KAcc.lean ====
/-
  One tile's step on the table of counts, read at an entry over the extended reals: the entry as found plus the number
  of the tile's points whose number is that entry's. The kernel multiplies two one-hot matrices: a point's row of the
  first has its one at c0 * 8 + c1, its row of the second at c2, and the product's entry (p, q) counts the points
  with c0 * 8 + c1 = p and c2 = q, that is with number 8 p + q.
-/
import proofs.«106393_j65807488909790_1_alg».proof.Proof.Gen.KernelIdeal.Skeleton
import proofs.«106393_j65807488909790_1_alg».proof.Proof.Spec
import proofs.«106393_j65807488909790_1_alg».proof.Proof.SpecFacts
import Idealize.ShloMosaic.Lib.ValueIdx
import Idealize.ShloMosaic.Lib.ValueLayout
import Idealize.ShloMosaic.Lib.Pipeline.Value
import Idealize.ShloMosaic.PureOps.Ideal.Laws

noncomputable section

namespace Cert.KStep

open Cert.KernelIdeal Cert.KernelIdeal.Gen Idealize.ShloMosaic Idealize.ShloMosaic.ValueIdx Cert.Spec

/-- One tile's step on the table of counts: the body's stored value from the three loaded input blocks and the table
    as found. (Stated at any float instance.) -/
def accStep {F : FTy → Type} [FloatOps F] (x1 x2 : Vec F S1x1x3 .f32) (x0 : Vec F S1x25000x3 .f32) (s : Vec F S64x8 .f32) : Vec F S64x8 .f32 :=
  k1_pay12 (k1_pay5 x0) (k1_pay6 x0) (k1_pay7 x1) (k1_pay8 x1) (k1_pay9 x1 x2) (k1_pay10 x1 x2) 7#32 (k1_pay11 x1 x2 x0) s

/-- The float of a widened one-bit equality test is the indicator of the equality. -/
private theorem onehot_val (a b : BitVec 32) :
    FloatOps.sitofp (F := Ideal) .f32 ((IntOp.cmpi .eq a b).setWidth 32) = if a = b then (1 : EReal) else 0 := by
  show ((((IntOp.cmpi .eq a b).setWidth 32).toInt : ℝ) : EReal) = _
  by_cases h : a = b
  · have hc : IntOp.cmpi .eq a b = 1#1 := by simp [IntOp.cmpi, h]
    have h1 : ((1#1 : BitVec 1).setWidth 32).toInt = 1 := by decide
    rw [if_pos h, hc, h1]; simp
  · have hb : (a == b) = false := by simpa using h
    have hc : IntOp.cmpi .eq a b = 0#1 := by simp [IntOp.cmpi, hb]
    have h0 : ((0#1 : BitVec 1).setWidth 32).toInt = 0 := by decide
    rw [if_neg h, hc, h0]; simp

/-- A column of the tile: the slice at offset `o` of the last axis, that axis dropped, reads the tile at `(0, n, o)`. -/
private theorem col_read {α : Type} (o : Nat) (ho : o < 3) (v : S1x25000x3.Idx → α)
    (h : S1x25000x3.Slices ![0, 0, o] S1x25000x1) (h' : S1x25000x1.ShapeCasts S1x25000) (n : Fin 25000) :
    shapeCast S1x25000 (extractStridedSlice S1x25000x1 ![0, 0, o] v h) h' (ix2 (0 : Fin 1) n)
      = v (ix3 (0 : Fin 1) n (⟨o, ho⟩ : Fin 3)) := by
  refine (shapeCast_apply _ h' (ix2 (0 : Fin 1) n) (ix3 (0 : Fin 1) n (0 : Fin 1)) ?_).trans ?_
  · rw [Shape.rowMajor_val_three, Shape.rowMajor_val_two]
    show (0 * 25000 + n.val) * 1 + 0 = 0 * 25000 + n.val
    omega
  · exact extractStridedSlice_apply _ v h _ _ (fun ax => by
      match ax with
      | ⟨0, _⟩ => exact (Nat.zero_add _).symm
      | ⟨1, _⟩ => exact (Nat.zero_add _).symm
      | ⟨2, _⟩ => exact (Nat.add_zero _).symm)

/-- One entry of a block of three: the slice at offset `o`, that axis dropped, reads the block at `(0, 0, o)`. -/
private theorem ent_read {α : Type} (o : Nat) (ho : o < 3) (v : S1x1x3.Idx → α)
    (h : S1x1x3.Slices ![0, 0, o] S1x1x1) (h' : S1x1x1.ShapeCasts S1x1) :
    shapeCast S1x1 (extractStridedSlice S1x1x1 ![0, 0, o] v h) h' (ix2 (0 : Fin 1) (0 : Fin 1))
      = v (ix3 (0 : Fin 1) (0 : Fin 1) (⟨o, ho⟩ : Fin 3)) := by
  refine (shapeCast_apply _ h' (ix2 (0 : Fin 1) (0 : Fin 1)) (ix3 (0 : Fin 1) (0 : Fin 1) (0 : Fin 1)) ?_).trans ?_
  · rw [Shape.rowMajor_val_three, Shape.rowMajor_val_two]
    rfl
  · exact extractStridedSlice_apply _ v h _ _ (fun ax => by
      match ax with
      | ⟨0, _⟩ => exact (Nat.zero_add _).symm
      | ⟨1, _⟩ => exact (Nat.zero_add _).symm
      | ⟨2, _⟩ => exact (Nat.add_zero _).symm)

/-- A one-entry block spread along the tile's points reads its entry at every point. -/
private theorem spread_read {α : Type} (b : S1x1.Idx → α) (h : S1x1.Broadcasts S1x25000) (n : Fin 25000) :
    broadcastTo S1x25000 b h (ix2 (0 : Fin 1) n) = b (ix2 (0 : Fin 1) (0 : Fin 1)) := by
  refine broadcastTo_apply b h _ _ fun ax => ?_
  match ax with
  | ⟨0, _⟩ => rfl
  | ⟨1, _⟩ => rfl

/-- The block of scales at coordinate `d`: 8 over the width there, or over 1 where the width is not positive. -/
private theorem scale_read (x1 x2 : Vec Ideal S1x1x3 .f32) (i : S1x1x3.Idx) :
    k1_pay4 x1 x2 i = scaleS (x1 i) (x2 i) := by
  unfold k1_pay4 k1_pay3
  rw [shapeCast_self, shapeCast_self]
  rfl

/-- The cells of one coordinate along the tile's points, as the kernel forms them from the coordinate's column, its
    least value and its scale. -/
private def cellv (v : FVec Ideal S1x25000 .f32) (b sc : FVec Ideal S1x1 .f32) : IVec S1x25000 32 :=
  minsi (broadcast S1x25000 7#32) (maxsi (broadcast S1x25000 0#32) (fptosi 32 (floor (mulf (subf v
    (broadcastTo S1x25000 b broadcasts_S1x1_S1x25000)) (broadcastTo S1x25000 sc broadcasts_S1x1_S1x25000)))))

private theorem cellv_apply (v : FVec Ideal S1x25000 .f32) (b sc : FVec Ideal S1x1 .f32) (n : Fin 25000) (x lo hi : EReal)
    (hv : v (ix2 (0 : Fin 1) n) = x) (hb : b (ix2 (0 : Fin 1) (0 : Fin 1)) = lo)
    (hs : sc (ix2 (0 : Fin 1) (0 : Fin 1)) = scaleS lo hi) :
    cellv v b sc (ix2 (0 : Fin 1) n) = binS x lo hi := by
  show IntOp.minsi 7#32 (IntOp.maxsi 0#32 (FloatOps.fptosi 32 (FloatOps.floor (FloatOps.mulf (FloatOps.subf (v (ix2 (0 : Fin 1) n))
    (broadcastTo S1x25000 b broadcasts_S1x1_S1x25000 (ix2 (0 : Fin 1) n))) (broadcastTo S1x25000 sc broadcasts_S1x1_S1x25000 (ix2 (0 : Fin 1) n)))))) = _
  rw [spread_read, spread_read, hv, hb, hs]
  rfl

/-- The matrix with, in each point's row, a one at the point's number `c` and zeros elsewhere, `m` columns wide. -/
private def hot (m : ℕ) (c : IVec S1x25000 32) (h1 : S1x25000.ShapeCasts S1x25000x1)
    (h2 : S1x25000x1.Broadcasts ⟨3, ![1, 25000, m]⟩) (h3 : (⟨3, ![1, 1, m]⟩ : Shape).Iotas .tc 32 [2])
    (h4 : (⟨3, ![1, 1, m]⟩ : Shape).Broadcasts ⟨3, ![1, 25000, m]⟩) (h5 : 1 < 32)
    (h6 : (⟨3, ![1, 25000, m]⟩ : Shape).ShapeCasts ⟨2, ![25000, m]⟩) (h7 : FTy.bits .bf16 < FTy.bits .f32) :
    FVec Ideal ⟨2, ![25000, m]⟩ .bf16 :=
  truncf .bf16 (shapeCast ⟨2, ![25000, m]⟩ (sitofp (F := Ideal) .f32 (extui 32 (cmpi .eq
    (broadcastTo ⟨3, ![1, 25000, m]⟩ (shapeCast S1x25000x1 c h1) h2)
    (broadcastTo ⟨3, ![1, 25000, m]⟩ (iota .tc ⟨3, ![1, 1, m]⟩ 32 [2] h3) h4)) h5)) h6) h7

private theorem hot_apply (m : ℕ) (c : IVec S1x25000 32) (h1 : S1x25000.ShapeCasts S1x25000x1)
    (h2 : S1x25000x1.Broadcasts ⟨3, ![1, 25000, m]⟩) (h3 : (⟨3, ![1, 1, m]⟩ : Shape).Iotas .tc 32 [2])
    (h4 : (⟨3, ![1, 1, m]⟩ : Shape).Broadcasts ⟨3, ![1, 25000, m]⟩) (h5 : 1 < 32)
    (h6 : (⟨3, ![1, 25000, m]⟩ : Shape).ShapeCasts ⟨2, ![25000, m]⟩) (h7 : FTy.bits .bf16 < FTy.bits .f32)
    (n : Fin 25000) (p : Fin m) :
    hot m c h1 h2 h3 h4 h5 h6 h7 (ix2 n p) = if c (ix2 (0 : Fin 1) n) = BitVec.ofNat 32 p.val then (1 : EReal) else 0 := by
  have e1 : broadcastTo ⟨3, ![1, 25000, m]⟩ (shapeCast S1x25000x1 c h1) h2 (ix3 (0 : Fin 1) n p) = c (ix2 (0 : Fin 1) n) := by
    refine (broadcastTo_apply _ h2 _ (ix3 (0 : Fin 1) n (0 : Fin 1)) fun ax => ?_).trans ?_
    · match ax with
      | ⟨0, _⟩ => rfl
      | ⟨1, _⟩ => rfl
      | ⟨2, _⟩ => rfl
    · refine shapeCast_apply c h1 _ _ ?_
      rw [Shape.rowMajor_val_three, Shape.rowMajor_val_two]
      show 0 * 25000 + n.val = (0 * 25000 + n.val) * 1 + 0
      omega
  have e2 : broadcastTo ⟨3, ![1, 25000, m]⟩ (iota .tc ⟨3, ![1, 1, m]⟩ 32 [2] h3) h4 (ix3 (0 : Fin 1) n p) = BitVec.ofNat 32 p.val := by
    refine (broadcastTo_apply _ h4 _ (ix3 (0 : Fin 1) (0 : Fin 1) p) fun ax => ?_).trans ?_
    · match ax with
      | ⟨0, _⟩ => rfl
      | ⟨1, _⟩ => rfl
      | ⟨2, _⟩ =>
        show p.val = if m = 1 then 0 else p.val
        split
        · have := p.isLt; omega
        · rfl
    · exact iota_single_apply .tc ⟨3, ![1, 1, m]⟩ 32 2 h3 _
  unfold hot
  refine (truncf_apply _ h7 (ix2 n p)).trans ?_
  refine (shapeCast_1ab_ab_apply _ h6 n p).trans ?_
  show FloatOps.sitofp (F := Ideal) .f32 ((IntOp.cmpi .eq
    (broadcastTo ⟨3, ![1, 25000, m]⟩ (shapeCast S1x25000x1 c h1) h2 (ix3 (0 : Fin 1) n p))
    (broadcastTo ⟨3, ![1, 25000, m]⟩ (iota .tc ⟨3, ![1, 1, m]⟩ 32 [2] h3) h4 (ix3 (0 : Fin 1) n p))).setWidth 32) = _
  rw [onehot_val, e1, e2]

/-- A product of two indicators is the indicator of both. -/
private theorem ind_mul (P Q : Prop) [Decidable P] [Decidable Q] :
    (if P then (1 : EReal) else 0) * (if Q then (1 : EReal) else 0) = if P ∧ Q then 1 else 0 := by
  by_cases hP : P <;> by_cases hQ : Q <;> simp [hP, hQ]

/-- A point's number is `8 p + q` exactly when its first two cells make `p` and its third is `q`. -/
private theorem number_split (v lo hi : Fin 3 → EReal) (p : Fin 64) (q : Fin 8) :
    (IntOp.addi (IntOp.muli (binS (v 0) (lo 0) (hi 0)) 8#32) (binS (v 1) (lo 1) (hi 1)) = BitVec.ofNat 32 p.val
      ∧ binS (v 2) (lo 2) (hi 2) = BitVec.ofNat 32 q.val)
    ↔ cellS v lo hi = BitVec.ofNat 32 (p.val * 8 + q.val) := by
  have h0 := binS_lt (v 0) (lo 0) (hi 0); have h1 := binS_lt (v 1) (lo 1) (hi 1); have h2 := binS_lt (v 2) (lo 2) (hi 2)
  have hA := pairS_toNat v lo hi
  have hC := cellS_toNat v lo hi
  have hp := p.isLt; have hq := q.isLt
  rw [← BitVec.toNat_inj, ← BitVec.toNat_inj, ← BitVec.toNat_inj, BitVec.toNat_ofNat, BitVec.toNat_ofNat,
    BitVec.toNat_ofNat, hA, hC]
  omega

private theorem lhs_ax0 (i : S64x8.Idx) (k : dot_S25000x64_S25000x8_S64x8_0_0_1_1_n_n.contr.Idx) :
    (dot_S25000x64_S25000x8_S64x8_0_0_1_1_n_n.lhsIdx i k 0).val = (k ⟨0, by decide⟩).val :=
  dot_S25000x64_S25000x8_S64x8_0_0_1_1_n_n.lhsIdx_val_of_single rfl i k
private theorem lhs_ax1 (i : S64x8.Idx) (k : dot_S25000x64_S25000x8_S64x8_0_0_1_1_n_n.contr.Idx) :
    (dot_S25000x64_S25000x8_S64x8_0_0_1_1_n_n.lhsIdx i k 1).val = (i 0).val := by
  unfold DotDims.lhsIdx
  rw [dif_neg (show ¬(1 : Fin S25000x64.rank) ∈ dot_S25000x64_S25000x8_S64x8_0_0_1_1_n_n.lhsBatch by decide), dif_pos (show (1 : Fin S25000x64.rank) ∈ dot_S25000x64_S25000x8_S64x8_0_0_1_1_n_n.lhsNonContracting by decide)]
  rfl
private theorem rhs_ax0 (i : S64x8.Idx) (k : dot_S25000x64_S25000x8_S64x8_0_0_1_1_n_n.contr.Idx) :
    (dot_S25000x64_S25000x8_S64x8_0_0_1_1_n_n.rhsIdx i k 0).val = (k ⟨0, by decide⟩).val :=
  dot_S25000x64_S25000x8_S64x8_0_0_1_1_n_n.rhsIdx_val_of_single rfl i k
private theorem rhs_ax1 (i : S64x8.Idx) (k : dot_S25000x64_S25000x8_S64x8_0_0_1_1_n_n.contr.Idx) :
    (dot_S25000x64_S25000x8_S64x8_0_0_1_1_n_n.rhsIdx i k 1).val = (i 1).val := by
  unfold DotDims.rhsIdx
  rw [dif_neg (show ¬(1 : Fin S25000x8.rank) ∈ dot_S25000x64_S25000x8_S64x8_0_0_1_1_n_n.rhsBatch by decide), dif_pos (show (1 : Fin S25000x8.rank) ∈ dot_S25000x64_S25000x8_S64x8_0_0_1_1_n_n.rhsNonContracting by decide)]
  rfl

/-- The product of the two matrices, contracted over the points, into a zero table: entry `(p, q)` is the sum over the
    points of the first matrix at `(n, p)` times the second at `(n, q)`. -/
private theorem mm_apply (L : FVec Ideal S25000x64 .bf16) (R : FVec Ideal S25000x8 .bf16) (p : Fin 64) (q : Fin 8) :
    matmul dot_S25000x64_S25000x8_S64x8_0_0_1_1_n_n none L R (constant S64x8 .f32 0x00000000#32) (ix2 p q)
      = ∑ n : Fin 25000, L (ix2 n p) * R (ix2 n q) := by
  simp only [matmul]
  rw [Ideal.matmul_constant_zero_apply, ← Equiv.sum_comp (contrEquiv1 dot_S25000x64_S25000x8_S64x8_0_0_1_1_n_n 25000 rfl rfl).symm]
  refine Finset.sum_congr rfl fun n _ => ?_
  have hk := contrEquiv1_symm_val dot_S25000x64_S25000x8_S64x8_0_0_1_1_n_n 25000 rfl rfl n
  have el : dot_S25000x64_S25000x8_S64x8_0_0_1_1_n_n.lhsIdx (ix2 p q) ((contrEquiv1 dot_S25000x64_S25000x8_S64x8_0_0_1_1_n_n 25000 rfl rfl).symm n) = ix2 n p := funext fun a => Fin.ext (by
    match a with
    | ⟨0, _⟩ => exact (lhs_ax0 _ _).trans hk
    | ⟨1, _⟩ => exact lhs_ax1 _ _)
  have er : dot_S25000x64_S25000x8_S64x8_0_0_1_1_n_n.rhsIdx (ix2 p q) ((contrEquiv1 dot_S25000x64_S25000x8_S64x8_0_0_1_1_n_n 25000 rfl rfl).symm n) = ix2 n q := funext fun a => Fin.ext (by
    match a with
    | ⟨0, _⟩ => exact (rhs_ax0 _ _).trans hk
    | ⟨1, _⟩ => exact rhs_ax1 _ _)
  rw [el, er]

/-- The step as the table found plus the product of the two one-hot matrices. -/
private theorem pay12_eq (v18 v20 : FVec Ideal S1x25000 .f32) (v24 v26 v30 v32 : FVec Ideal S1x1 .f32) (v40 : IVec S1x25000 32)
    (s : Vec Ideal S64x8 .f32) :
    k1_pay12 v18 v20 v24 v26 v30 v32 7#32 v40 s
      = addf s (matmul dot_S25000x64_S25000x8_S64x8_0_0_1_1_n_n none
          (hot 64 (addi (muli (minsi (broadcast S1x25000 7#32) v40) (broadcast S1x25000 8#32)) (cellv v18 v24 v30))
            shapeCasts_S1x25000_S1x25000x1 broadcasts_S1x25000x1_S1x25000x64 iota_S1x1x64_d2_w32 broadcasts_S1x1x64_S1x25000x64
            natLt_1_32 shapeCasts_S1x25000x64_S25000x64 bitsLt_bf16_f32)
          (hot 8 (cellv v20 v26 v32)
            shapeCasts_S1x25000_S1x25000x1 broadcasts_S1x25000x1_S1x25000x8 iota_S1x1x8_d2_w32 broadcasts_S1x1x8_S1x25000x8
            natLt_1_32 shapeCasts_S1x25000x8_S25000x8 bitsLt_bf16_f32)
          (constant S64x8 .f32 0x00000000#32)) := by
  unfold k1_pay12
  exact shapeCast_self _ _

private theorem pay5_read (x0 : Vec Ideal S1x25000x3 .f32) (n : Fin 25000) :
    k1_pay5 x0 (ix2 (0 : Fin 1) n) = x0 (ix3 (0 : Fin 1) n (1 : Fin 3)) := by
  unfold k1_pay5
  exact col_read 1 (by decide) x0 _ _ n

private theorem pay6_read (x0 : Vec Ideal S1x25000x3 .f32) (n : Fin 25000) :
    k1_pay6 x0 (ix2 (0 : Fin 1) n) = x0 (ix3 (0 : Fin 1) n (2 : Fin 3)) := by
  unfold k1_pay6
  exact col_read 2 (by decide) x0 _ _ n

private theorem pay7_read (x1 : Vec Ideal S1x1x3 .f32) :
    k1_pay7 x1 (ix2 (0 : Fin 1) (0 : Fin 1)) = x1 (ix3 (0 : Fin 1) (0 : Fin 1) (1 : Fin 3)) := by
  unfold k1_pay7 k1_pay3
  rw [shapeCast_self]
  exact ent_read 1 (by decide) x1 _ _

private theorem pay8_read (x1 : Vec Ideal S1x1x3 .f32) :
    k1_pay8 x1 (ix2 (0 : Fin 1) (0 : Fin 1)) = x1 (ix3 (0 : Fin 1) (0 : Fin 1) (2 : Fin 3)) := by
  unfold k1_pay8 k1_pay3
  rw [shapeCast_self]
  exact ent_read 2 (by decide) x1 _ _

private theorem pay9_read (x1 x2 : Vec Ideal S1x1x3 .f32) :
    k1_pay9 x1 x2 (ix2 (0 : Fin 1) (0 : Fin 1))
      = scaleS (x1 (ix3 (0 : Fin 1) (0 : Fin 1) (1 : Fin 3))) (x2 (ix3 (0 : Fin 1) (0 : Fin 1) (1 : Fin 3))) := by
  unfold k1_pay9
  exact (ent_read 1 (by decide) (k1_pay4 x1 x2) _ _).trans (scale_read x1 x2 _)

private theorem pay10_read (x1 x2 : Vec Ideal S1x1x3 .f32) :
    k1_pay10 x1 x2 (ix2 (0 : Fin 1) (0 : Fin 1))
      = scaleS (x1 (ix3 (0 : Fin 1) (0 : Fin 1) (2 : Fin 3))) (x2 (ix3 (0 : Fin 1) (0 : Fin 1) (2 : Fin 3))) := by
  unfold k1_pay10
  exact (ent_read 2 (by decide) (k1_pay4 x1 x2) _ _).trans (scale_read x1 x2 _)

/-- The first coordinate's cell of point `n`: its lower clip is already taken, the upper one is taken here. -/
private theorem pay11_read (x1 x2 : Vec Ideal S1x1x3 .f32) (x0 : Vec Ideal S1x25000x3 .f32) (n : Fin 25000) :
    IntOp.minsi 7#32 (k1_pay11 x1 x2 x0 (ix2 (0 : Fin 1) n))
      = binS (x0 (ix3 (0 : Fin 1) n (0 : Fin 3))) (x1 (ix3 (0 : Fin 1) (0 : Fin 1) (0 : Fin 3)))
          (x2 (ix3 (0 : Fin 1) (0 : Fin 1) (0 : Fin 3))) := by
  refine Eq.trans ?_ (cellv_apply
    (shapeCast S1x25000 (extractStridedSlice S1x25000x1 ![0, 0, 0] x0 slices_S1x25000x3_o0_0_0_S1x25000x1) shapeCasts_S1x25000x1_S1x25000)
    (shapeCast S1x1 (extractStridedSlice S1x1x1 ![0, 0, 0] (k1_pay3 x1) slices_S1x1x3_o0_0_0_S1x1x1) shapeCasts_S1x1x1_S1x1)
    (shapeCast S1x1 (extractStridedSlice S1x1x1 ![0, 0, 0] (k1_pay4 x1 x2) slices_S1x1x3_o0_0_0_S1x1x1) shapeCasts_S1x1x1_S1x1)
    n _ _ _ (col_read 0 (by decide) x0 _ _ n) ?_ ?_)
  · rfl
  · unfold k1_pay3
    rw [shapeCast_self]
    exact ent_read 0 (by decide) x1 _ _
  · exact (ent_read 0 (by decide) (k1_pay4 x1 x2) _ _).trans (scale_read x1 x2 _)

/-- The reset table is zero everywhere. -/
theorem pay_zero (p : Fin 64) (q : Fin 8) : k1_pay2 (F := Ideal) (ix2 p q) = 0 := by
  unfold k1_pay2
  rw [shapeCast_self]
  exact Ideal.ofBits_zero_f32

/-- One tile's step at an entry of the table: the entry as found plus the number of the tile's points whose number
    is `8 p + q`. `x1` is the block of least values, `x2` of greatest values, `x0` the tile of points. -/
theorem accStep_apply (x1 x2 : Vec Ideal S1x1x3 .f32) (x0 : Vec Ideal S1x25000x3 .f32) (s : Vec Ideal S64x8 .f32) (p : Fin 64) (q : Fin 8) :
    accStep x1 x2 x0 s (ix2 p q) = s (ix2 p q) + ∑ n : Fin 25000,
      (if cellS (fun d => x0 (ix3 0 n d)) (fun d => x1 (ix3 0 0 d)) (fun d => x2 (ix3 0 0 d)) = BitVec.ofNat 32 (p.val * 8 + q.val) then (1 : EReal) else 0) := by
  unfold accStep
  rw [pay12_eq, addf_apply, mm_apply]
  refine congrArg (s (ix2 p q) + ·) (Finset.sum_congr rfl fun n _ => ?_)
  rw [hot_apply, hot_apply, ind_mul]
  have e0 := pay11_read x1 x2 x0 n
  have e1 := cellv_apply (k1_pay5 x0) (k1_pay7 x1) (k1_pay9 x1 x2) n _ _ _ (pay5_read x0 n) (pay7_read x1) (pay9_read x1 x2)
  have e2 := cellv_apply (k1_pay6 x0) (k1_pay8 x1) (k1_pay10 x1 x2) n _ _ _ (pay6_read x0 n) (pay8_read x1) (pay10_read x1 x2)
  have eA : (addi (muli (minsi (broadcast S1x25000 7#32) (k1_pay11 x1 x2 x0)) (broadcast S1x25000 8#32))
        (cellv (k1_pay5 x0) (k1_pay7 x1) (k1_pay9 x1 x2))) (ix2 (0 : Fin 1) n)
      = IntOp.addi (IntOp.muli (binS (x0 (ix3 (0 : Fin 1) n (0 : Fin 3))) (x1 (ix3 (0 : Fin 1) (0 : Fin 1) (0 : Fin 3)))
          (x2 (ix3 (0 : Fin 1) (0 : Fin 1) (0 : Fin 3)))) 8#32)
          (binS (x0 (ix3 (0 : Fin 1) n (1 : Fin 3))) (x1 (ix3 (0 : Fin 1) (0 : Fin 1) (1 : Fin 3)))
          (x2 (ix3 (0 : Fin 1) (0 : Fin 1) (1 : Fin 3)))) := by
    show IntOp.addi (IntOp.muli (IntOp.minsi 7#32 (k1_pay11 x1 x2 x0 (ix2 (0 : Fin 1) n))) 8#32)
      (cellv (k1_pay5 x0) (k1_pay7 x1) (k1_pay9 x1 x2) (ix2 (0 : Fin 1) n)) = _
    rw [e0, e1]
  rw [eA, e2]
  exact if_congr (number_split (fun d => x0 (ix3 0 n d)) (fun d => x1 (ix3 0 0 d)) (fun d => x2 (ix3 0 0 d)) p q) rfl rfl

end Cert.KStep

end
-- ==== Proof.KI.Pieces.lean ====
/-
  What each case of the kernel bodies leaves in a buffer, as one named value: the stores of a case, read back, are the
  body's stored value of the blocks it loaded — the table of counts after a tile is one step from the table as found
  (from the zero table at a row's first tile), the output's block at a row's last tile is the row of results of the
  table just stored.
-/
import proofs.«106393_j65807488909790_1_alg».proof.Proof.KI.Region0
import proofs.«106393_j65807488909790_1_alg».proof.Proof.KI.Data1
import proofs.«106393_j65807488909790_1_alg».proof.Proof.KAcc

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- Offsets all zero, in three and in two axes. -/
private theorem hz3 : (![0, 0, 0] : Fin 3 → Nat) = fun _ => 0 := funext fun a => by fin_cases a <;> rfl
private theorem hz2 : (![0, 0] : Fin 2 → Nat) = fun _ => 0 := funext fun a => by fin_cases a <;> rfl

theorem out0_1_eq (x0 : Vec F S1x100000x3 .f32) : out0_1 x0 = k0_pay1 x0 := by
  unfold out0_1
  rw [View.canon_unit_zero hz3, View.ld_unit_zero (S := S1x100000x3) hz3]
theorem out0_2_eq (x0 : Vec F S1x100000x3 .f32) : out0_2 x0 = k0_pay2 x0 := by
  unfold out0_2
  rw [View.canon_unit_zero hz3, View.ld_unit_zero (S := S1x100000x3) hz3]

theorem sout1_A_0_eq (c : Dev nD) (i : grid1.Coords) (arg2 : Memref sig .tc .vmem S1x25000x3 .f32) (harg2 : arg2.IsWhole) (arg3 : Memref sig .tc .vmem S1x1x3 .f32) (harg3 : arg3.IsWhole) (arg4 : Memref sig .tc .vmem S1x1x3 .f32) (harg4 : arg4.IsWhole) (arg5 : Memref sig .tc .vmem S512x40 .f32) (harg5 : arg5.IsWhole) (arg6 : Memref sig .tc .vmem S1x40 .f32) (harg6 : arg6.IsWhole) (arg7 : Memref sig .tc .vmem S1x1x40 .f32) (harg7 : arg7.IsWhole) (arg8 : Memref sig .tc .vmem S64x8 .f32) (harg8 : arg8.IsWhole) (hc0 : cond1_0 i) (hc1 : ¬cond1_1 i)
    (x0 : Vec F S1x25000x3 .f32) (x1 : Vec F S1x1x3 .f32) (x2 : Vec F S1x1x3 .f32) (x3 : Vec F S512x40 .f32) (x4 : Vec F S1x40 .f32) :
    sout1_A_0 c i arg2 harg2 arg3 harg3 arg4 harg4 arg5 harg5 arg6 harg6 arg7 harg7 arg8 harg8 hc0 hc1 x0 x1 x2 x3 x4 = Cert.KStep.accStep x1 x2 x0 (k1_pay2 (F := F)) := by
  unfold sout1_A_0
  rw [View.read_writes_eq_canon _ _ _ (scover1_A_0 c i arg2 harg2 arg3 harg3 arg4 harg4 arg5 harg5 arg6 harg6 arg7 harg7 arg8 harg8 hc0 hc1 x0 x1 x2 x3 x4)]
  unfold kernelRun1_A
  dsimp only
  sl_unfold_words
  rw [View.canon_cons_unit_zero (S := S64x8) hz2, View.readCov_unit_zero (S := S64x8) _ hz2]
  simp only [View.readAt_eq_ld, harg2.read_unread, harg3.read_unread, harg4.read_unread, View.ld_unit_zero (S := S1x25000x3) hz3, View.ld_unit_zero (S := S1x1x3) hz3]
  rfl
theorem sout1_B_0_eq (c : Dev nD) (i : grid1.Coords) (arg2 : Memref sig .tc .vmem S1x25000x3 .f32) (harg2 : arg2.IsWhole) (arg3 : Memref sig .tc .vmem S1x1x3 .f32) (harg3 : arg3.IsWhole) (arg4 : Memref sig .tc .vmem S1x1x3 .f32) (harg4 : arg4.IsWhole) (arg5 : Memref sig .tc .vmem S512x40 .f32) (harg5 : arg5.IsWhole) (arg6 : Memref sig .tc .vmem S1x40 .f32) (harg6 : arg6.IsWhole) (arg7 : Memref sig .tc .vmem S1x1x40 .f32) (harg7 : arg7.IsWhole) (arg8 : Memref sig .tc .vmem S64x8 .f32) (harg8 : arg8.IsWhole) (hc0 : ¬cond1_0 i) (hc1 : ¬cond1_1 i)
    (x0 : Vec F S1x25000x3 .f32) (x1 : Vec F S1x1x3 .f32) (x2 : Vec F S1x1x3 .f32) (x3 : Vec F S512x40 .f32) (x4 : Vec F S1x40 .f32) (xs0 : Vec F S64x8 .f32) :
    sout1_B_0 c i arg2 harg2 arg3 harg3 arg4 harg4 arg5 harg5 arg6 harg6 arg7 harg7 arg8 harg8 hc0 hc1 x0 x1 x2 x3 x4 xs0 = Cert.KStep.accStep x1 x2 x0 xs0 := by
  unfold sout1_B_0
  rw [View.read_writes_eq_canon _ _ _ (scover1_B_0 c i arg2 harg2 arg3 harg3 arg4 harg4 arg5 harg5 arg6 harg6 arg7 harg7 arg8 harg8 hc0 hc1 x0 x1 x2 x3 x4 xs0)]
  unfold kernelRun1_B
  dsimp only
  sl_unfold_words
  rw [View.canon_unit_zero hz2]
  simp only [View.readAt_eq_ld, harg2.read_unread, harg3.read_unread, harg4.read_unread, harg8.read_unread, View.ld_unit_zero (S := S1x25000x3) hz3, View.ld_unit_zero (S := S1x1x3) hz3, View.ld_unit_zero (S := S64x8) hz2]
  rfl
theorem sout1_C_0_eq (c : Dev nD) (i : grid1.Coords) (arg2 : Memref sig .tc .vmem S1x25000x3 .f32) (harg2 : arg2.IsWhole) (arg3 : Memref sig .tc .vmem S1x1x3 .f32) (harg3 : arg3.IsWhole) (arg4 : Memref sig .tc .vmem S1x1x3 .f32) (harg4 : arg4.IsWhole) (arg5 : Memref sig .tc .vmem S512x40 .f32) (harg5 : arg5.IsWhole) (arg6 : Memref sig .tc .vmem S1x40 .f32) (harg6 : arg6.IsWhole) (arg7 : Memref sig .tc .vmem S1x1x40 .f32) (harg7 : arg7.IsWhole) (arg8 : Memref sig .tc .vmem S64x8 .f32) (harg8 : arg8.IsWhole) (hc0 : ¬cond1_0 i) (hc1 : cond1_1 i)
    (x0 : Vec F S1x25000x3 .f32) (x1 : Vec F S1x1x3 .f32) (x2 : Vec F S1x1x3 .f32) (x3 : Vec F S512x40 .f32) (x4 : Vec F S1x40 .f32) (xs0 : Vec F S64x8 .f32) :
    sout1_C_0 c i arg2 harg2 arg3 harg3 arg4 harg4 arg5 harg5 arg6 harg6 arg7 harg7 arg8 harg8 hc0 hc1 x0 x1 x2 x3 x4 xs0 = Cert.KStep.accStep x1 x2 x0 xs0 := by
  unfold sout1_C_0
  rw [View.read_writes_eq_canon _ _ _ (scover1_C_0 c i arg2 harg2 arg3 harg3 arg4 harg4 arg5 harg5 arg6 harg6 arg7 harg7 arg8 harg8 hc0 hc1 x0 x1 x2 x3 x4 xs0)]
  unfold kernelRun1_C
  dsimp only
  sl_unfold_words
  rw [View.canon_unit_zero hz2]
  simp only [View.readAt_eq_ld, harg2.read_unread, harg3.read_unread, harg4.read_unread, harg8.read_unread, View.ld_unit_zero (S := S1x25000x3) hz3, View.ld_unit_zero (S := S1x1x3) hz3, View.ld_unit_zero (S := S64x8) hz2]
  rfl
theorem out1_C_5_eq (c : Dev nD) (i : grid1.Coords) (arg2 : Memref sig .tc .vmem S1x25000x3 .f32) (harg2 : arg2.IsWhole) (arg3 : Memref sig .tc .vmem S1x1x3 .f32) (harg3 : arg3.IsWhole) (arg4 : Memref sig .tc .vmem S1x1x3 .f32) (harg4 : arg4.IsWhole) (arg5 : Memref sig .tc .vmem S512x40 .f32) (harg5 : arg5.IsWhole) (arg6 : Memref sig .tc .vmem S1x40 .f32) (harg6 : arg6.IsWhole) (arg7 : Memref sig .tc .vmem S1x1x40 .f32) (harg7 : arg7.IsWhole) (arg8 : Memref sig .tc .vmem S64x8 .f32) (harg8 : arg8.IsWhole) (hc0 : ¬cond1_0 i) (hc1 : cond1_1 i)
    (x0 : Vec F S1x25000x3 .f32) (x1 : Vec F S1x1x3 .f32) (x2 : Vec F S1x1x3 .f32) (x3 : Vec F S512x40 .f32) (x4 : Vec F S1x40 .f32) (xs0 : Vec F S64x8 .f32) :
    out1_C_5 c i arg2 harg2 arg3 harg3 arg4 harg4 arg5 harg5 arg6 harg6 arg7 harg7 arg8 harg8 hc0 hc1 x0 x1 x2 x3 x4 xs0 = k1_pay1 (Cert.KStep.accStep x1 x2 x0 xs0) x3 x4 := by
  unfold out1_C_5
  rw [View.read_writes_eq_canon _ _ _ (cover1_C_5 c i arg2 harg2 arg3 harg3 arg4 harg4 arg5 harg5 arg6 harg6 arg7 harg7 arg8 harg8 hc0 hc1 x0 x1 x2 x3 x4 xs0)]
  unfold kernelRun1_C
  dsimp only
  sl_unfold_words
  rw [View.canon_unit_zero hz3]
  simp only [View.readAt_eq_ld, harg2.read_unread, harg3.read_unread, harg4.read_unread, harg5.read_unread, harg6.read_unread, harg8.read_unread, View.readCov_unit_zero (S := S64x8) _ hz2, View.ld_unit_zero (S := S1x25000x3) hz3, View.ld_unit_zero (S := S1x1x3) hz3, View.ld_unit_zero (S := S64x8) hz2, View.ld_unit_zero (S := S512x40) hz2, View.ld_unit_zero (S := S1x40) hz2]
  rfl

end Cert.KernelIdeal.Hand

end
-- ==== Proof.KI.Blocks.lean ====
/-
  Where a window's block at a grid point sits in its array: the first region's input block at point t is cloud t's
  points; the second region's at point t is tile (t mod 4) of cloud (t div 4), its two one-row blocks are row
  (t div 4) of the least and greatest values, and the weights' and the bias's blocks are their whole arrays.
-/
import proofs.«106393_j65807488909790_1_alg».proof.Proof.KI.Region0
import proofs.«106393_j65807488909790_1_alg».proof.Proof.KI.Region1
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- The first region's input window at point `t` sits at block `(t, 0, 0)`. -/
private theorem idx0_0 : ∀ t : Fin cfg0.N, win0_0.index t (0 : Fin 3) = t.val ∧ win0_0.index t (1 : Fin 3) = 0 ∧ win0_0.index t (2 : Fin 3) = 0 :=
  (by decide +kernel : ∀ t : Fin grid0.N, _)

/-- The second region's input window at point `t` sits at block `(t div 4, t mod 4, 0)`. -/
private theorem idx1_0 : ∀ t : Fin cfg1.N, win1_0.index t (0 : Fin 3) = t.val / 4 ∧ win1_0.index t (1 : Fin 3) = t.val % 4 ∧ win1_0.index t (2 : Fin 3) = 0 :=
  (by decide +kernel : ∀ t : Fin grid1.N, _)
/-- Its two one-row windows sit at block `(t div 4, 0, 0)`. -/
private theorem idx1_1 : ∀ t : Fin cfg1.N, win1_1.index t (0 : Fin 3) = t.val / 4 ∧ win1_1.index t (1 : Fin 3) = 0 ∧ win1_1.index t (2 : Fin 3) = 0 :=
  (by decide +kernel : ∀ t : Fin grid1.N, _)
private theorem idx1_2 : ∀ t : Fin cfg1.N, win1_2.index t (0 : Fin 3) = t.val / 4 ∧ win1_2.index t (1 : Fin 3) = 0 ∧ win1_2.index t (2 : Fin 3) = 0 :=
  (by decide +kernel : ∀ t : Fin grid1.N, _)
/-- The weights' and the bias's windows sit at block `(0, 0)` at every point. -/
private theorem idx1_3 : ∀ t : Fin cfg1.N, win1_3.index t (0 : Fin 2) = 0 ∧ win1_3.index t (1 : Fin 2) = 0 :=
  (by decide +kernel : ∀ t : Fin grid1.N, _)
private theorem idx1_4 : ∀ t : Fin cfg1.N, win1_4.index t (0 : Fin 2) = 0 ∧ win1_4.index t (1 : Fin 2) = 0 :=
  (by decide +kernel : ∀ t : Fin grid1.N, _)

section Blocks
variable (V : (c : Dev nD) → (b : Ref sig .tc) → Buf (Elt F) ((c : Thread nD τ).loc b))

theorem iblk0_0_apply (c : Dev nD) (t : Fin cfg0.N) (n : Fin 100000) (d : Fin 3) :
    (iblk0 V c 0 t : Vec F S1x100000x3 .f32) (ix3 0 n d)
      = (V c main_arg0 : Vec F S64x100000x3 .f32) (ix3 ⟨t.val, lt_of_lt_of_eq t.isLt N_0⟩ n d) := by
  obtain ⟨e0, e1, e2⟩ := idx0_0 t
  unfold iblk0
  rw [View.read_apply]
  show (V c main_arg0 : Vec F S64x100000x3 .f32) (((cfg0.win 0).blk t).view.emb (ix3 0 n d)) = _
  refine congrArg _ ?_
  funext a; apply Fin.ext
  match a with
  | ⟨0, _⟩ => show win0_0.index t (0 : Fin 3) * 1 + 1 * 0 = t.val; omega
  | ⟨1, _⟩ => show win0_0.index t (1 : Fin 3) * 100000 + 1 * n.val = n.val; omega
  | ⟨2, _⟩ => show win0_0.index t (2 : Fin 3) * 3 + 1 * d.val = d.val; omega

theorem iblk1_0_apply (c : Dev nD) (t : Fin cfg1.N) (n : Fin 25000) (d : Fin 3) :
    (iblk1 V c 0 t : Vec F S1x25000x3 .f32) (ix3 0 n d)
      = (V c main_arg0 : Vec F S64x100000x3 .f32) (ix3 ⟨t.val / 4, by have := lt_of_lt_of_eq t.isLt N_1; omega⟩ ⟨(t.val % 4) * 25000 + n.val, by have := n.isLt; omega⟩ d) := by
  obtain ⟨e0, e1, e2⟩ := idx1_0 t
  unfold iblk1
  rw [View.read_apply]
  show (V c main_arg0 : Vec F S64x100000x3 .f32) (((cfg1.win 0).blk t).view.emb (ix3 0 n d)) = _
  refine congrArg _ ?_
  funext a; apply Fin.ext
  match a with
  | ⟨0, _⟩ => show win1_0.index t (0 : Fin 3) * 1 + 1 * 0 = t.val / 4; omega
  | ⟨1, _⟩ => show win1_0.index t (1 : Fin 3) * 25000 + 1 * n.val = (t.val % 4) * 25000 + n.val; omega
  | ⟨2, _⟩ => show win1_0.index t (2 : Fin 3) * 3 + 1 * d.val = d.val; omega

theorem iblk1_1_apply (c : Dev nD) (t : Fin cfg1.N) (d : Fin 3) :
    (iblk1 V c 1 t : Vec F S1x1x3 .f32) (ix3 0 0 d)
      = (V c main_v0_0 : Vec F S64x1x3 .f32) (ix3 ⟨t.val / 4, by have := lt_of_lt_of_eq t.isLt N_1; omega⟩ 0 d) := by
  obtain ⟨e0, e1, e2⟩ := idx1_1 t
  unfold iblk1
  rw [View.read_apply]
  show (V c main_v0_0 : Vec F S64x1x3 .f32) (((cfg1.win 1).blk t).view.emb (ix3 0 0 d)) = _
  refine congrArg _ ?_
  funext a; apply Fin.ext
  match a with
  | ⟨0, _⟩ => show win1_1.index t (0 : Fin 3) * 1 + 1 * 0 = t.val / 4; omega
  | ⟨1, _⟩ => show win1_1.index t (1 : Fin 3) * 1 + 1 * 0 = 0; omega
  | ⟨2, _⟩ => show win1_1.index t (2 : Fin 3) * 3 + 1 * d.val = d.val; omega

theorem iblk1_2_apply (c : Dev nD) (t : Fin cfg1.N) (d : Fin 3) :
    (iblk1 V c 2 t : Vec F S1x1x3 .f32) (ix3 0 0 d)
      = (V c main_v0_1 : Vec F S64x1x3 .f32) (ix3 ⟨t.val / 4, by have := lt_of_lt_of_eq t.isLt N_1; omega⟩ 0 d) := by
  obtain ⟨e0, e1, e2⟩ := idx1_2 t
  unfold iblk1
  rw [View.read_apply]
  show (V c main_v0_1 : Vec F S64x1x3 .f32) (((cfg1.win 2).blk t).view.emb (ix3 0 0 d)) = _
  refine congrArg _ ?_
  funext a; apply Fin.ext
  match a with
  | ⟨0, _⟩ => show win1_2.index t (0 : Fin 3) * 1 + 1 * 0 = t.val / 4; omega
  | ⟨1, _⟩ => show win1_2.index t (1 : Fin 3) * 1 + 1 * 0 = 0; omega
  | ⟨2, _⟩ => show win1_2.index t (2 : Fin 3) * 3 + 1 * d.val = d.val; omega

theorem iblk1_3_eq (c : Dev nD) (t : Fin cfg1.N) :
    (iblk1 V c 3 t : Vec F S512x40 .f32) = (V c main_v1 : Vec F S512x40 .f32) := by
  obtain ⟨e0, e1⟩ := idx1_3 t
  funext y
  unfold iblk1
  rw [View.read_apply]
  show (V c main_v1 : Vec F S512x40 .f32) (((cfg1.win 3).blk t).view.emb y) = _
  refine congrArg _ ?_
  funext a; apply Fin.ext
  match a with
  | ⟨0, _⟩ => show win1_3.index t (0 : Fin 2) * 512 + 1 * (y 0).val = (y 0).val; omega
  | ⟨1, _⟩ => show win1_3.index t (1 : Fin 2) * 40 + 1 * (y 1).val = (y 1).val; omega

theorem iblk1_4_eq (c : Dev nD) (t : Fin cfg1.N) :
    (iblk1 V c 4 t : Vec F S1x40 .f32) = (V c main_v2 : Vec F S1x40 .f32) := by
  obtain ⟨e0, e1⟩ := idx1_4 t
  funext y
  unfold iblk1
  rw [View.read_apply]
  show (V c main_v2 : Vec F S1x40 .f32) (((cfg1.win 4).blk t).view.emb y) = _
  refine congrArg _ ?_
  funext a; apply Fin.ext
  match a with
  | ⟨0, _⟩ => show win1_4.index t (0 : Fin 2) * 1 + 1 * (y 0).val = (y 0).val; omega
  | ⟨1, _⟩ => show win1_4.index t (1 : Fin 2) * 40 + 1 * (y 1).val = (y 1).val; omega

end Blocks

end Cert.KernelIdeal.Hand

end
-- ==== Proof.KMinMax.lean ====
/-
  The first kernel's two stored values read at an index over the extended reals: a cloud's least and greatest value of
  each coordinate, as folds of min and max over the cloud's points.
-/
import proofs.«106393_j65807488909790_1_alg».proof.Proof.Gen.KernelIdeal.Skeleton
import proofs.«106393_j65807488909790_1_alg».proof.Proof.Spec
import Idealize.ShloMosaic.Lib.ValueIdx
import Idealize.ShloMosaic.Lib.Pipeline.Value
import Idealize.ShloMosaic.PureOps.Ideal.Laws
import Idealize.ShloMosaic.PureOps.Reduce
import Idealize.ShloMosaic.Lib.ValueLayout

noncomputable section

namespace Cert.KStep

open Cert.KernelIdeal Cert.KernelIdeal.Gen Idealize.ShloMosaic Idealize.ShloMosaic.ValueIdx Cert.Spec

/-- A float minimum reduction over one axis, read over the extended reals: the fold of `min` from the
    accumulator's value over that axis's coordinates. -/
private theorem multiReduction_minimumf_single {φ : FTy} {s t : Shape} {a : Fin s.rank} (src : FVec Ideal s φ)
    (acc : BitVec φ.bits) (h : s.Reduces [a] t) (hφ : FKind.Formats φ) (hacc : acc = FKind.minimumf.neutral φ hφ)
    (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- Over result index `(0, d)`, the source index with coordinate `k` on the dropped axis is `(0, k, d)`. -/
private theorem lift_eq (h : S1x100000x3.Reduces [1] S1x3) (d : Fin 3) (k : Fin 100000) :
    h.lift (ix2 0 d) k = ix3 0 k d := by
  funext c
  apply Fin.ext
  show h.liftVal (ix2 0 d) k.val c = (ix3 0 k d c).val
  match c with
  | ⟨0, _⟩ => rfl
  | ⟨1, _⟩ => rfl
  | ⟨2, _⟩ => rfl

/-- The least value of a coordinate over a cloud's block. -/
theorem pay_lo (v0 : Vec Ideal S1x100000x3 .f32) (d : Fin 3) :
    k0_pay1 (F := Ideal) v0 (ix3 0 0 d) = (Finset.univ : Finset (Fin 100000)).fold min cPosInf (fun n => v0 (ix3 0 n d)) := by
  unfold k0_pay1
  rw [shapeCast_ab_1ab_apply]
  refine (multiReduction_minimumf_single (φ := .f32) (a := 1) v0 _ reduces_S1x100000x3_S1x3 _ _ (ix2 0 d)).trans ?_
  show (Finset.univ : Finset (Fin 100000)).fold min cPosInf _ = _
  congr 1
  funext k
  exact congrArg v0 (lift_eq _ d k)

/-- The greatest. -/
theorem pay_hi (v0 : Vec Ideal S1x100000x3 .f32) (d : Fin 3) :
    k0_pay2 (F := Ideal) v0 (ix3 0 0 d) = (Finset.univ : Finset (Fin 100000)).fold max cNegInf (fun n => v0 (ix3 0 n d)) := by
  unfold k0_pay2
  rw [shapeCast_ab_1ab_apply]
  refine (Ideal.multiReduction_maximumf_single (φ := .f32) (a := 1) v0 _ reduces_S1x100000x3_S1x3 _ _ (ix2 0 d)).trans ?_
  show (Finset.univ : Finset (Fin 100000)).fold max cNegInf _ = _
  congr 1
  funext k
  exact congrArg v0 (lift_eq _ d k)

end Cert.KStep

end
-- ==== Proof.KI.Arr0.lean ====
/-
  After the first region the two one-row-per-cloud arrays hold each cloud's least and greatest coordinate values.
-/
import proofs.«106393_j65807488909790_1_alg».proof.Proof.KI.Entry
import proofs.«106393_j65807488909790_1_alg».proof.Proof.KI.Pieces
import proofs.«106393_j65807488909790_1_alg».proof.Proof.KI.Blocks
import proofs.«106393_j65807488909790_1_alg».proof.Proof.KMinMax
import proofs.«106393_j65807488909790_1_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ) (ρ : Dev nD → PrngReg)

/-- The first region's two output windows at point `t` sit at block `(t, 0, 0)`. -/
private theorem idx0_1 : ∀ t : Fin cfg0.N, win0_1.index t (0 : Fin 3) = t.val ∧ win0_1.index t (1 : Fin 3) = 0 ∧ win0_1.index t (2 : Fin 3) = 0 :=
  (by decide +kernel : ∀ t : Fin grid0.N, _)
private theorem idx0_2 : ∀ t : Fin cfg0.N, win0_2.index t (0 : Fin 3) = t.val ∧ win0_2.index t (1 : Fin 3) = 0 ∧ win0_2.index t (2 : Fin 3) = 0 :=
  (by decide +kernel : ∀ t : Fin grid0.N, _)

/-- Every cloud's least value of every coordinate, as one array of one row per cloud. -/
private def Gmin (c : Dev nD) : Vec Ideal S64x1x3 .f32 :=
  fun i => Cert.Spec.lo (argX m c) ⟨(i 0).val, (i 0).isLt⟩ ⟨(i 2).val, (i 2).isLt⟩
/-- Every cloud's greatest value of every coordinate, likewise. -/
private def Gmax (c : Dev nD) : Vec Ideal S64x1x3 .f32 :=
  fun i => Cert.Spec.hi (argX m c) ⟨(i 0).val, (i 0).isLt⟩ ⟨(i 2).val, (i 2).isLt⟩

private theorem Gmin_apply (c : Dev nD) (b : Fin 64) (d : Fin 3) : Gmin m c (ix3 b 0 d) = Cert.Spec.lo (argX m c) b d := rfl
private theorem Gmax_apply (c : Dev nD) (b : Fin 64) (d : Fin 3) : Gmax m c (ix3 b 0 d) = Cert.Spec.hi (argX m c) b d := rfl

/-- Row `t`'s block of an array `g` of one row per cloud, read at an index, is `g` at row `t` (window 1). -/
private theorem read_blk_min (g : Vec Ideal S64x1x3 .f32) (t : Fin cfg0.N) (y : ((cfg0.win 1).xblock (grid0.coords t)).Idx) (h2 : (y 2).val < 3) :
    ((cfg0.win 1).blk t).view.read (Elt Ideal) g y = g (ix3 ⟨t.val, lt_of_lt_of_eq t.isLt N_0⟩ 0 ⟨(y 2).val, h2⟩) := by
  obtain ⟨e0, e1, e2⟩ := idx0_1 t
  have h0 : (y 0).val < 1 := (y 0).isLt
  have h1 : (y 1).val < 1 := (y 1).isLt
  show g (((cfg0.win 1).blk t).view.emb y) = _
  refine congrArg g ?_
  funext a; apply Fin.ext
  match a with
  | ⟨0, _⟩ => show win0_1.index t (0 : Fin 3) * 1 + 1 * (y 0).val = t.val; omega
  | ⟨1, _⟩ => show win0_1.index t (1 : Fin 3) * 1 + 1 * (y 1).val = 0; omega
  | ⟨2, _⟩ => show win0_1.index t (2 : Fin 3) * 3 + 1 * (y 2).val = (y 2).val; omega

/-- What point `t` writes back into the array of least values is row `t` of that array. -/
private theorem flushed_min (c : Dev nD) (t : Fin cfg0.N) :
    (dat0 (V0 m ρ) c).flushed 1 t = ((cfg0.win 1).blk t).view.read (Elt Ideal) (Gmin m c) := by
  show (cfg0.win 1).cut (grid0.coords t) ((dat0 (V0 m ρ) c).after 1 t) = _
  rw [after0_1, out0_1_eq]
  funext y
  have h0 : (y 0).val < 1 := (y 0).isLt
  have h1 : (y 1).val < 1 := (y 1).isLt
  have h2 : (y 2).val < 3 := (y 2).isLt
  have hx : (cfg0.win 1).xinj (grid0.coords t) y = (ix3 0 0 ⟨(y 2).val, h2⟩ : S1x1x3.Idx) := by
    funext a; apply Fin.ext
    match a with
    | ⟨0, _⟩ => show (y 0).val = 0; omega
    | ⟨1, _⟩ => show (y 1).val = 0; omega
    | ⟨2, _⟩ => rfl
  refine Eq.trans ?_ (read_blk_min (Gmin m c) t y h2).symm
  refine Eq.trans ?_ (Gmin_apply m c ⟨t.val, lt_of_lt_of_eq t.isLt N_0⟩ ⟨(y 2).val, h2⟩).symm
  show k0_pay1 (iblk0 (V0 m ρ) c 0 t) ((cfg0.win 1).xinj (grid0.coords t) y) = _
  refine (congrArg (k0_pay1 (iblk0 (V0 m ρ) c 0 t)) hx).trans ?_
  refine (Cert.KStep.pay_lo (iblk0 (V0 m ρ) c 0 t) ⟨(y 2).val, h2⟩).trans ?_
  unfold Cert.Spec.lo
  refine congrArg (fun f => (Finset.univ : Finset (Fin 100000)).fold min Cert.Spec.cPosInf f) (funext fun n => ?_)
  exact (iblk0_0_apply (V0 m ρ) c t n ⟨(y 2).val, h2⟩).trans (congrFun (V0_arg0 m ρ c) _)

/-- An index of the array of least values is in point `t`'s block iff each coordinate is in the block's range. -/
private theorem mem_blk_min (t : Fin cfg0.N) (i : S64x1x3.Idx) :
    i ∈ ((cfg0.win 1).blk t).view.set ↔ ∀ a : Fin 3, win0_1.index t a * S1x1x3.size a ≤ (i a).val ∧ (i a).val < win0_1.index t a * S1x1x3.size a + S1x1x3.size a := by
  show i ∈ ((View.whole main_v0_0).slice (win0_1.rect t)).set ↔ _
  rw [View.set_slice_whole, Rect.mem_set_unit]
  exact Iff.rfl

theorem minArr_apply (c : Dev nD) (b : Fin 64) (d : Fin 3) :
    minArr m ρ c (ix3 b 0 d) = Cert.Spec.lo (argX m c) b d := by
  have hb : b.val < cfg0.N := lt_of_lt_of_eq b.isLt N_0.symm
  obtain ⟨e0', e1, e2⟩ := idx0_1 ⟨b.val, hb⟩
  have e0 : win0_1.index ⟨b.val, hb⟩ (0 : Fin 3) = b.val := e0'
  refine ((dat0 (V0 m ρ) c).arrAt_apply_of_mem 1 (Gmin m c) (fun t _ => flushed_min m ρ c t) cfg0.N ⟨b.val, hb⟩ (ix3 b 0 d) hb (flush0_1 _) ?_).trans ?_
  · rw [mem_blk_min]
    intro a
    match a with
    | ⟨0, _⟩ => show win0_1.index ⟨b.val, hb⟩ (0 : Fin 3) * 1 ≤ b.val ∧ b.val < win0_1.index ⟨b.val, hb⟩ (0 : Fin 3) * 1 + 1; omega
    | ⟨1, _⟩ => show win0_1.index ⟨b.val, hb⟩ (1 : Fin 3) * 1 ≤ 0 ∧ 0 < win0_1.index ⟨b.val, hb⟩ (1 : Fin 3) * 1 + 1; omega
    | ⟨2, _⟩ => show win0_1.index ⟨b.val, hb⟩ (2 : Fin 3) * 3 ≤ d.val ∧ d.val < win0_1.index ⟨b.val, hb⟩ (2 : Fin 3) * 3 + 3; have := d.isLt; omega
  · exact Gmin_apply m c b d

/-- Row `t`'s block of an array `g` of one row per cloud, read at an index, is `g` at row `t` (window 2). -/
private theorem read_blk_max (g : Vec Ideal S64x1x3 .f32) (t : Fin cfg0.N) (y : ((cfg0.win 2).xblock (grid0.coords t)).Idx) (h2 : (y 2).val < 3) :
    ((cfg0.win 2).blk t).view.read (Elt Ideal) g y = g (ix3 ⟨t.val, lt_of_lt_of_eq t.isLt N_0⟩ 0 ⟨(y 2).val, h2⟩) := by
  obtain ⟨e0, e1, e2⟩ := idx0_2 t
  have h0 : (y 0).val < 1 := (y 0).isLt
  have h1 : (y 1).val < 1 := (y 1).isLt
  show g (((cfg0.win 2).blk t).view.emb y) = _
  refine congrArg g ?_
  funext a; apply Fin.ext
  match a with
  | ⟨0, _⟩ => show win0_2.index t (0 : Fin 3) * 1 + 1 * (y 0).val = t.val; omega
  | ⟨1, _⟩ => show win0_2.index t (1 : Fin 3) * 1 + 1 * (y 1).val = 0; omega
  | ⟨2, _⟩ => show win0_2.index t (2 : Fin 3) * 3 + 1 * (y 2).val = (y 2).val; omega

/-- What point `t` writes back into the array of greatest values is row `t` of that array. -/
private theorem flushed_max (c : Dev nD) (t : Fin cfg0.N) :
    (dat0 (V0 m ρ) c).flushed 2 t = ((cfg0.win 2).blk t).view.read (Elt Ideal) (Gmax m c) := by
  show (cfg0.win 2).cut (grid0.coords t) ((dat0 (V0 m ρ) c).after 2 t) = _
  rw [after0_2, out0_2_eq]
  funext y
  have h0 : (y 0).val < 1 := (y 0).isLt
  have h1 : (y 1).val < 1 := (y 1).isLt
  have h2 : (y 2).val < 3 := (y 2).isLt
  have hx : (cfg0.win 2).xinj (grid0.coords t) y = (ix3 0 0 ⟨(y 2).val, h2⟩ : S1x1x3.Idx) := by
    funext a; apply Fin.ext
    match a with
    | ⟨0, _⟩ => show (y 0).val = 0; omega
    | ⟨1, _⟩ => show (y 1).val = 0; omega
    | ⟨2, _⟩ => rfl
  refine Eq.trans ?_ (read_blk_max (Gmax m c) t y h2).symm
  refine Eq.trans ?_ (Gmax_apply m c ⟨t.val, lt_of_lt_of_eq t.isLt N_0⟩ ⟨(y 2).val, h2⟩).symm
  show k0_pay2 (iblk0 (V0 m ρ) c 0 t) ((cfg0.win 2).xinj (grid0.coords t) y) = _
  refine (congrArg (k0_pay2 (iblk0 (V0 m ρ) c 0 t)) hx).trans ?_
  refine (Cert.KStep.pay_hi (iblk0 (V0 m ρ) c 0 t) ⟨(y 2).val, h2⟩).trans ?_
  unfold Cert.Spec.hi
  refine congrArg (fun f => (Finset.univ : Finset (Fin 100000)).fold max Cert.Spec.cNegInf f) (funext fun n => ?_)
  exact (iblk0_0_apply (V0 m ρ) c t n ⟨(y 2).val, h2⟩).trans (congrFun (V0_arg0 m ρ c) _)

/-- An index of the array of greatest values is in point `t`'s block iff each coordinate is in the block's range. -/
private theorem mem_blk_max (t : Fin cfg0.N) (i : S64x1x3.Idx) :
    i ∈ ((cfg0.win 2).blk t).view.set ↔ ∀ a : Fin 3, win0_2.index t a * S1x1x3.size a ≤ (i a).val ∧ (i a).val < win0_2.index t a * S1x1x3.size a + S1x1x3.size a := by
  show i ∈ ((View.whole main_v0_1).slice (win0_2.rect t)).set ↔ _
  rw [View.set_slice_whole, Rect.mem_set_unit]
  exact Iff.rfl

theorem maxArr_apply (c : Dev nD) (b : Fin 64) (d : Fin 3) :
    maxArr m ρ c (ix3 b 0 d) = Cert.Spec.hi (argX m c) b d := by
  have hb : b.val < cfg0.N := lt_of_lt_of_eq b.isLt N_0.symm
  obtain ⟨e0', e1, e2⟩ := idx0_2 ⟨b.val, hb⟩
  have e0 : win0_2.index ⟨b.val, hb⟩ (0 : Fin 3) = b.val := e0'
  refine ((dat0 (V0 m ρ) c).arrAt_apply_of_mem 2 (Gmax m c) (fun t _ => flushed_max m ρ c t) cfg0.N ⟨b.val, hb⟩ (ix3 b 0 d) hb (flush0_2 _) ?_).trans ?_
  · rw [mem_blk_max]
    intro a
    match a with
    | ⟨0, _⟩ => show win0_2.index ⟨b.val, hb⟩ (0 : Fin 3) * 1 ≤ b.val ∧ b.val < win0_2.index ⟨b.val, hb⟩ (0 : Fin 3) * 1 + 1; omega
    | ⟨1, _⟩ => show win0_2.index ⟨b.val, hb⟩ (1 : Fin 3) * 1 ≤ 0 ∧ 0 < win0_2.index ⟨b.val, hb⟩ (1 : Fin 3) * 1 + 1; omega
    | ⟨2, _⟩ => show win0_2.index ⟨b.val, hb⟩ (2 : Fin 3) * 3 ≤ d.val ∧ d.val < win0_2.index ⟨b.val, hb⟩ (2 : Fin 3) * 3 + 3; have := d.isLt; omega
  · exact Gmax_apply m c b d

end Cert.KernelIdeal.Hand

end
-- ==== Proof.KI.Table.lean ====
/-
  The table of counts after each grid point of the second region: after tile i of cloud b, entry (p, q) is the number
  of points in the cloud's tiles 0..i whose number is 8 p + q; after the cloud's last tile, the count over the whole
  cloud.
-/
import proofs.«106393_j65807488909790_1_alg».proof.Proof.KI.Arr0
import proofs.«106393_j65807488909790_1_alg».proof.Proof.KAcc
import proofs.«106393_j65807488909790_1_alg».proof.Proof.SpecFacts

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ) (ρ : Dev nD → PrngReg)

/-- The number of the points of tile k of cloud b whose number is 8 p + q. -/
private def tileCnt (c : Dev nD) (b : Fin 64) (k : Fin 4) (p : Fin 64) (q : Fin 8) : EReal :=
  ∑ n : Fin 25000, if Cert.Spec.cell (argX m c) b ⟨k.val * 25000 + n.val, by have := k.isLt; have := n.isLt; omega⟩ = BitVec.ofNat 32 (p.val * 8 + q.val) then (1 : EReal) else 0

/-- The number of point n' of the tile at grid point n, read off the point's three input blocks: the point is point
    25000 k + n' of cloud b, and the two one-row blocks are the cloud's least and greatest values. -/
private theorem cell_blk (c : Dev nD) (t : Fin cfg1.N) (b : Fin 64) (k : Fin 4) (hb : t.val / 4 = b.val) (hk : t.val % 4 = k.val)
    (n : Fin 25000) :
    Cert.Spec.cellS (fun d => (iblk1 (V2 m ρ) c 0 t : Vec Ideal S1x25000x3 .f32) (ix3 0 n d))
        (fun d => (iblk1 (V2 m ρ) c 1 t : Vec Ideal S1x1x3 .f32) (ix3 0 0 d))
        (fun d => (iblk1 (V2 m ρ) c 2 t : Vec Ideal S1x1x3 .f32) (ix3 0 0 d))
      = Cert.Spec.cell (argX m c) b ⟨k.val * 25000 + n.val, by have := k.isLt; have := n.isLt; omega⟩ := by
  obtain ⟨bv, hbv⟩ := b
  obtain ⟨kv, hkv⟩ := k
  dsimp only at hb hk
  subst hb hk
  unfold Cert.Spec.cell
  have e0 : (fun d => (iblk1 (V2 m ρ) c 0 t : Vec Ideal S1x25000x3 .f32) (ix3 0 n d))
      = fun d => argX m c (ix3 ⟨t.val / 4, by have := lt_of_lt_of_eq t.isLt N_1; omega⟩ ⟨(t.val % 4) * 25000 + n.val, by have := n.isLt; omega⟩ d) :=
    funext fun d => by rw [iblk1_0_apply, V2_arg0]
  have e1 : (fun d => (iblk1 (V2 m ρ) c 1 t : Vec Ideal S1x1x3 .f32) (ix3 0 0 d))
      = Cert.Spec.lo (argX m c) ⟨t.val / 4, by have := lt_of_lt_of_eq t.isLt N_1; omega⟩ :=
    funext fun d => by rw [iblk1_1_apply, V2_min, minArr_apply]
  have e2 : (fun d => (iblk1 (V2 m ρ) c 2 t : Vec Ideal S1x1x3 .f32) (ix3 0 0 d))
      = Cert.Spec.hi (argX m c) ⟨t.val / 4, by have := lt_of_lt_of_eq t.isLt N_1; omega⟩ :=
    funext fun d => by rw [iblk1_2_apply, V2_max, maxArr_apply]
  rw [e0, e1, e2]

/-- A row's first tile: the table is the tile's counts. -/
private theorem step_first (c : Dev nD) (n : ℕ) (hn : n < cfg1.N) (b : Fin 64) (k : Fin 4) (hb : n / 4 = b.val) (hk : n % 4 = k.val)
    (h0 : n % 4 = 0) (p : Fin 64) (q : Fin 8) :
    (outsAt1 (V2 m ρ) c n hn).2 (ix2 p q) = tileCnt m c b k p q := by
  have h1 : ¬n % 4 = 3 := by omega
  rw [show outsAt1 (V2 m ρ) c n hn = _ from outsAt1_A (V2 m ρ) c ⟨n, hn⟩ h0 h1]
  dsimp only
  rw [sout1_A_0_eq, Cert.KStep.accStep_apply, Cert.KStep.pay_zero, zero_add]
  unfold tileCnt
  exact Finset.sum_congr rfl fun n' _ =>
    congrArg (fun z => if z = BitVec.ofNat 32 (p.val * 8 + q.val) then (1 : EReal) else 0) (cell_blk m ρ c ⟨n, hn⟩ b k hb hk n')

/-- Any later tile of a row: the table as the point before left it, plus the tile's counts. -/
private theorem step_next (c : Dev nD) (n : ℕ) (hn : n < cfg1.N) (b : Fin 64) (k : Fin 4) (hb : n / 4 = b.val) (hk : n % 4 = k.val)
    (h0 : ¬n % 4 = 0) (p : Fin 64) (q : Fin 8) :
    (outsAt1 (V2 m ρ) c n hn).2 (ix2 p q)
      = (outsAt1 (V2 m ρ) c (n - 1) (Nat.lt_of_le_of_lt (Nat.sub_le _ _) hn)).2 (ix2 p q) + tileCnt m c b k p q := by
  by_cases h1 : n % 4 = 3
  · rw [show outsAt1 (V2 m ρ) c n hn = _ from outsAt1_C (V2 m ρ) c ⟨n, hn⟩ h0 h1]
    dsimp only
    rw [sout1_C_0_eq, Cert.KStep.accStep_apply]
    unfold tileCnt
    exact congrArg (_ + ·) (Finset.sum_congr rfl fun n' _ =>
      congrArg (fun z => if z = BitVec.ofNat 32 (p.val * 8 + q.val) then (1 : EReal) else 0) (cell_blk m ρ c ⟨n, hn⟩ b k hb hk n'))
  · rw [show outsAt1 (V2 m ρ) c n hn = _ from outsAt1_B (V2 m ρ) c ⟨n, hn⟩ h0 h1]
    dsimp only
    rw [sout1_B_0_eq, Cert.KStep.accStep_apply]
    unfold tileCnt
    exact congrArg (_ + ·) (Finset.sum_congr rfl fun n' _ =>
      congrArg (fun z => if z = BitVec.ofNat 32 (p.val * 8 + q.val) then (1 : EReal) else 0) (cell_blk m ρ c ⟨n, hn⟩ b k hb hk n'))

/-- The tiles up to the first. -/
private theorem sum_le_zero (f : Fin 4 → EReal) : (∑ k : Fin 4, if k.val ≤ 0 then f k else 0) = f 0 := by
  rw [Fin.sum_univ_four]
  simp

/-- The tiles up to one more. -/
private theorem sum_le_succ (f : Fin 4 → EReal) (j : ℕ) (hj : j + 1 < 4) :
    (∑ k : Fin 4, if k.val ≤ j + 1 then f k else 0) = (∑ k : Fin 4, if k.val ≤ j then f k else 0) + f ⟨j + 1, hj⟩ := by
  rw [Fin.sum_univ_four, Fin.sum_univ_four]
  have : j = 0 ∨ j = 1 ∨ j = 2 := by omega
  rcases this with rfl | rfl | rfl <;> simp

/-- After grid point n, which is tile n mod 4 of cloud b = n div 4, the table holds the counts over the cloud's tiles
    0 .. n mod 4. -/
private theorem table_nat (c : Dev nD) (p : Fin 64) (q : Fin 8) :
    ∀ (n : ℕ) (hn : n < cfg1.N) (b : Fin 64), n / 4 = b.val →
      (outsAt1 (V2 m ρ) c n hn).2 (ix2 p q) = ∑ k : Fin 4, if k.val ≤ n % 4 then tileCnt m c b k p q else 0 := by
  intro n
  induction n using Nat.strong_induction_on with
  | _ n ih =>
    intro hn b hb
    have hN : n < 256 := lt_of_lt_of_eq hn N_1
    by_cases h0 : n % 4 = 0
    · rw [step_first m ρ c n hn b 0 hb h0 h0 p q, h0, sum_le_zero]
    · have hj : n % 4 = (n - 1) % 4 + 1 := by omega
      rw [step_next m ρ c n hn b ⟨(n - 1) % 4 + 1, by omega⟩ hb hj h0 p q, ih (n - 1) (by omega) _ b (by omega), hj,
        sum_le_succ _ _ (by omega)]

theorem table_apply (c : Dev nD) (t : Fin cfg1.N) (p : Fin 64) (q : Fin 8) :
    (outsAt1 (V2 m ρ) c t.val t.isLt).2 (ix2 p q)
      = ∑ k : Fin 4, if k.val ≤ t.val % 4 then
          (∑ n : Fin 25000, if Cert.Spec.cell (argX m c) ⟨t.val / 4, by have := lt_of_lt_of_eq t.isLt N_1; omega⟩ ⟨k.val * 25000 + n.val, by have := k.isLt; have := n.isLt; omega⟩ = BitVec.ofNat 32 (p.val * 8 + q.val) then (1 : EReal) else 0)
        else 0 :=
  table_nat m ρ c p q t.val t.isLt ⟨t.val / 4, by have := lt_of_lt_of_eq t.isLt N_1; omega⟩ rfl

/-- The four tiles of 25000 points are the 100000 points of a cloud. -/
private theorem sum_tiles (f : Fin 100000 → EReal) :
    (∑ k : Fin 4, ∑ n : Fin 25000, f ⟨k.val * 25000 + n.val, by have := k.isLt; have := n.isLt; omega⟩) = ∑ n' : Fin 100000, f n' := by
  rw [← Fintype.sum_prod_type']
  exact Fintype.sum_equiv (finProdFinEquiv (m := 4) (n := 25000)) _ _ fun x =>
    congrArg f (Fin.ext (by show x.1.val * 25000 + x.2.val = x.2.val + 25000 * x.1.val; omega))

theorem table_last (c : Dev nD) (b : Fin 64) (p : Fin 64) (q : Fin 8) :
    (outsAt1 (V2 m ρ) c (4 * b.val + 3) (by have := b.isLt; have : cfg1.N = 256 := N_1; omega)).2 (ix2 p q)
      = Cert.Spec.cnt (argX m c) b ⟨p.val * 8 + q.val, by have := p.isLt; have := q.isLt; omega⟩ := by
  have h3 : (4 * b.val + 3) % 4 = 3 := by omega
  rw [table_nat m ρ c p q (4 * b.val + 3) _ b (by omega), h3]
  unfold Cert.Spec.cnt
  rw [← sum_tiles]
  exact Finset.sum_congr rfl fun k _ => if_pos (by have := k.isLt; omega)

end Cert.KernelIdeal.Hand

end
-- ==== Proof.KOut.lean ====
/-
  The last step of the second kernel read at an index over the extended reals: the table of counts, entry by entry
  over 100000, times the transposed weights, plus the bias.
-/
import proofs.«106393_j65807488909790_1_alg».proof.Proof.Gen.KernelIdeal.Skeleton
import proofs.«106393_j65807488909790_1_alg».proof.Proof.Spec
import Idealize.ShloMosaic.Lib.ValueIdx
import Idealize.ShloMosaic.Lib.Pipeline.Value
import Idealize.ShloMosaic.PureOps.Ideal.Laws

noncomputable section

namespace Cert.KStep

open Cert.KernelIdeal Cert.KernelIdeal.Gen Idealize.ShloMosaic Idealize.ShloMosaic.ValueIdx Cert.Spec

/-- On the product's left operand the row coordinate is the result's row. -/
private theorem lhs_out_0 (i : S1x40.Idx) (q : dot_S1x512_S512x40_S1x40_1_0_0_1_n_n.contr.Idx) :
    (dot_S1x512_S512x40_S1x40_1_0_0_1_n_n.lhsIdx i q 0).val = (i 0).val := by
  unfold DotDims.lhsIdx
  rw [dif_neg (show ¬(0 : Fin S1x512.rank) ∈ dot_S1x512_S512x40_S1x40_1_0_0_1_n_n.lhsBatch by decide), dif_pos (show (0 : Fin S1x512.rank) ∈ dot_S1x512_S512x40_S1x40_1_0_0_1_n_n.lhsNonContracting by decide)]
  rfl
/-- Its column coordinate is the summation index. -/
private theorem lhs_out_1 (i : S1x40.Idx) (q : dot_S1x512_S512x40_S1x40_1_0_0_1_n_n.contr.Idx) :
    (dot_S1x512_S512x40_S1x40_1_0_0_1_n_n.lhsIdx i q 1).val = (q ⟨0, by decide⟩).val :=
  dot_S1x512_S512x40_S1x40_1_0_0_1_n_n.lhsIdx_val_of_single rfl i q
/-- On the right operand the row coordinate is the summation index. -/
private theorem rhs_out_0 (i : S1x40.Idx) (q : dot_S1x512_S512x40_S1x40_1_0_0_1_n_n.contr.Idx) :
    (dot_S1x512_S512x40_S1x40_1_0_0_1_n_n.rhsIdx i q 0).val = (q ⟨0, by decide⟩).val :=
  dot_S1x512_S512x40_S1x40_1_0_0_1_n_n.rhsIdx_val_of_single rfl i q
/-- Its column coordinate is the result's column. -/
private theorem rhs_out_1 (i : S1x40.Idx) (q : dot_S1x512_S512x40_S1x40_1_0_0_1_n_n.contr.Idx) :
    (dot_S1x512_S512x40_S1x40_1_0_0_1_n_n.rhsIdx i q 1).val = (i 1).val := by
  unfold DotDims.rhsIdx
  rw [dif_neg (show ¬(1 : Fin S512x40.rank) ∈ dot_S1x512_S512x40_S1x40_1_0_0_1_n_n.rhsBatch by decide), dif_pos (show (1 : Fin S512x40.rank) ∈ dot_S1x512_S512x40_S1x40_1_0_0_1_n_n.rhsNonContracting by decide)]
  rfl

/-- The product of a one-row matrix `a` with `b`, into zero, read at column `k`: the sum over the 512 positions. -/
private theorem matmul_row (a : FVec Ideal S1x512 .f32) (b : FVec Ideal S512x40 .f32) (k : Fin 40) :
    matmul dot_S1x512_S512x40_S1x40_1_0_0_1_n_n none a b (constant (F := Ideal) S1x40 .f32 0x00000000#32) (ix2 0 k)
      = ∑ j : Fin 512, a (ix2 0 j) * b (ix2 j k) := by
  simp only [matmul]
  rw [Ideal.matmul_constant_zero_apply, ← Equiv.sum_comp (contrEquiv1 dot_S1x512_S512x40_S1x40_1_0_0_1_n_n 512 rfl rfl).symm]
  refine Finset.sum_congr rfl fun j _ => ?_
  have hj := contrEquiv1_symm_val dot_S1x512_S512x40_S1x40_1_0_0_1_n_n 512 rfl rfl j
  have el : dot_S1x512_S512x40_S1x40_1_0_0_1_n_n.lhsIdx (ix2 0 k) ((contrEquiv1 dot_S1x512_S512x40_S1x40_1_0_0_1_n_n 512 rfl rfl).symm j) = ix2 0 j := funext fun a => Fin.ext (by
    match a with
    | ⟨0, _⟩ => exact lhs_out_0 _ _
    | ⟨1, _⟩ => exact (lhs_out_1 _ _).trans hj)
  have er : dot_S1x512_S512x40_S1x40_1_0_0_1_n_n.rhsIdx (ix2 0 k) ((contrEquiv1 dot_S1x512_S512x40_S1x40_1_0_0_1_n_n 512 rfl rfl).symm j) = ix2 j k := funext fun a => Fin.ext (by
    match a with
    | ⟨0, _⟩ => exact (rhs_out_0 _ _).trans hj
    | ⟨1, _⟩ => exact rhs_out_1 _ _)
  rw [el, er]

/-- The row of results from the table of counts `s`, the transposed weights `wt` and the bias row: entry `k` is the sum
    over the 512 numbers `j = 8 p + q` of `s (p, q) / 100000 * wt (j, k)`, plus `bias k`. -/
theorem pay_out (s : Vec Ideal S64x8 .f32) (wt : Vec Ideal S512x40 .f32) (bias : Vec Ideal S1x40 .f32) (k : Fin 40) :
    k1_pay1 (F := Ideal) s wt bias (ix3 0 0 k)
      = FloatOps.addf (F := Ideal) (φ := .f32)
          (∑ j : Fin 512, FloatOps.hostDivf (F := Ideal) (φ := .f32) (s (ix2 ⟨j.val / 8, by omega⟩ ⟨j.val % 8, by omega⟩)) cN * wt (ix2 j k))
          (bias (ix2 0 k)) := by
  unfold k1_pay1
  rw [shapeCast_apply _ shapeCasts_S1x40_S1x1x40 (ix3 0 0 k) (ix2 0 k) (by
    rw [Shape.rowMajor_val_two, Shape.rowMajor_val_three]; rfl)]
  rw [addf_apply, matmul_row,
    shapeCast_apply bias shapeCasts_S1x40_S1x40 (ix2 0 k) (ix2 0 k) rfl]
  show _ + _ = _ + _
  refine congrArg (· + bias (ix2 0 k)) (Finset.sum_congr rfl fun j _ => ?_)
  rw [shapeCast_apply wt shapeCasts_S512x40_S512x40 (ix2 j k) (ix2 j k) rfl, divf_apply, broadcast_apply,
    shapeCast_apply s shapeCasts_S64x8_S1x512 (ix2 0 j) (ix2 ⟨j.val / 8, by omega⟩ ⟨j.val % 8, by omega⟩) (by
      rw [Shape.rowMajor_val_two, Shape.rowMajor_val_two]
      show j.val / 8 * 8 + j.val % 8 = 0 * 512 + j.val
      omega)]
  rfl

end Cert.KStep

end
-- ==== Proof.KI.Out.lean ====
/-
  The second region's output array after the run, and the program's result: row b is the row of results of cloud b's
  table of counts, which is the function of Spec.lean.
-/
import proofs.«106393_j65807488909790_1_alg».proof.Proof.KI.Table
import proofs.«106393_j65807488909790_1_alg».proof.Proof.KOut

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ) (ρ : Dev nD → PrngReg)

/-- The output's window at point `t` sits at block `(t div 4, 0, 0)`. -/
private theorem idx1_5 : ∀ t : Fin cfg1.N, win1_5.index t (0 : Fin 3) = t.val / 4 ∧ win1_5.index t (1 : Fin 3) = 0 ∧ win1_5.index t (2 : Fin 3) = 0 :=
  (by decide +kernel : ∀ t : Fin grid1.N, _)

/-- Every cloud's row of results, as one array of one row per cloud. -/
private def Gout (c : Dev nD) : Vec Ideal S64x1x40 .f32 :=
  fun i => Cert.Spec.G (argX m c) (argW m c) (argB m c) (ix2 ⟨(i 0).val, (i 0).isLt⟩ ⟨(i 2).val, (i 2).isLt⟩)

private theorem Gout_apply (c : Dev nD) (b : Fin 64) (k : Fin 40) :
    Gout m c (ix3 b 0 k) = Cert.Spec.G (argX m c) (argW m c) (argB m c) (ix2 b k) := rfl

/-- The table of counts after a position does not depend on how the position is written. -/
private theorem outsAt1_congr (V : (c : Dev nD) → (b : Ref sig .tc) → Buf (Elt Ideal) ((c : Thread nD τ).loc b)) (c : Dev nD)
    {n n' : ℕ} (e : n = n') (h : n < cfg1.N) (h' : n' < cfg1.N) : outsAt1 V c n h = outsAt1 V c n' h' := by
  subst e; rfl

/-- After a cloud's last tile the table of counts holds the cloud's counts. -/
private theorem table_at (c : Dev nD) (t : Fin cfg1.N) (h1 : t.val % 4 = 3) (p : Fin 64) (q : Fin 8) :
    (outsAt1 (V2 m ρ) c t.val t.isLt).2 (ix2 p q)
      = Cert.Spec.cnt (argX m c) ⟨t.val / 4, by have := lt_of_lt_of_eq t.isLt N_1; omega⟩ ⟨p.val * 8 + q.val, by have := p.isLt; have := q.isLt; omega⟩ := by
  have hN : t.val < 256 := lt_of_lt_of_eq t.isLt N_1
  have e : t.val = 4 * (t.val / 4) + 3 := by omega
  rw [outsAt1_congr (V2 m ρ) c e t.isLt (by have : cfg1.N = 256 := N_1; omega)]
  exact table_last m ρ c ⟨t.val / 4, by omega⟩ p q

/-- What a cloud's last tile writes back into the output array is the cloud's row of that array. -/
private theorem flushed_out (c : Dev nD) (t : Fin cfg1.N) (hf : (cfg1.win 5).flush t = true) :
    (dat1 (V2 m ρ) c).flushed 5 t = ((cfg1.win 5).blk t).view.read (Elt Ideal) (Gout m c) := by
  have h1 : t.val % 4 = 3 := (flush1_5 t).mp hf
  have h0 : ¬ t.val % 4 = 0 := by omega
  have hN : t.val < 256 := lt_of_lt_of_eq t.isLt N_1
  show (cfg1.win 5).cut (grid1.coords t) ((dat1 (V2 m ρ) c).after 5 t) = _
  rw [after1_5]
  have hp : (outsAt1 (V2 m ρ) c t.val t.isLt).1
      = k1_pay1 (outsAt1 (V2 m ρ) c t.val t.isLt).2 (iblk1 (V2 m ρ) c 3 t) (iblk1 (V2 m ρ) c 4 t) := by
    rw [outsAt1_C (V2 m ρ) c t h0 h1]
    dsimp only
    rw [out1_C_5_eq, sout1_C_0_eq]
  rw [hp]
  obtain ⟨e0, e1, e2⟩ := idx1_5 t
  funext y
  have hy0 : (y 0).val < 1 := (y 0).isLt
  have hy1 : (y 1).val < 1 := (y 1).isLt
  have hy2 : (y 2).val < 40 := (y 2).isLt
  have hx : (cfg1.win 5).xinj (grid1.coords t) y = (ix3 0 0 ⟨(y 2).val, hy2⟩ : S1x1x40.Idx) := by
    funext a; apply Fin.ext
    match a with
    | ⟨0, _⟩ => show (y 0).val = 0; omega
    | ⟨1, _⟩ => show (y 1).val = 0; omega
    | ⟨2, _⟩ => rfl
  have hemb : ((cfg1.win 5).blk t).view.emb y = (ix3 ⟨t.val / 4, by omega⟩ 0 ⟨(y 2).val, hy2⟩ : S64x1x40.Idx) := by
    funext a; apply Fin.ext
    match a with
    | ⟨0, _⟩ => show win1_5.index t (0 : Fin 3) * 1 + 1 * (y 0).val = t.val / 4; omega
    | ⟨1, _⟩ => show win1_5.index t (1 : Fin 3) * 1 + 1 * (y 1).val = 0; omega
    | ⟨2, _⟩ => show win1_5.index t (2 : Fin 3) * 40 + 1 * (y 2).val = (y 2).val; omega
  show k1_pay1 (outsAt1 (V2 m ρ) c t.val t.isLt).2 (iblk1 (V2 m ρ) c 3 t) (iblk1 (V2 m ρ) c 4 t) ((cfg1.win 5).xinj (grid1.coords t) y) = _
  rw [hx, Cert.KStep.pay_out, View.read_apply]
  show _ = Gout m c (((cfg1.win 5).blk t).view.emb y)
  rw [hemb, Gout_apply]
  have hw : ∀ j : Fin 512, (iblk1 (V2 m ρ) c 3 t : Vec Ideal S512x40 .f32) (ix2 j ⟨(y 2).val, hy2⟩) = argW m c (ix2 ⟨(y 2).val, hy2⟩ j) := fun j => by
    rw [iblk1_3_eq (V2 m ρ) c t, V2_wt m ρ c]
    exact transpose_apply [1, 0] (argW m c) transposes_S40x512_S512x40_1_0 (ix2 j ⟨(y 2).val, hy2⟩) (ix2 ⟨(y 2).val, hy2⟩ j) (fun b => by
      match b with
      | ⟨0, _⟩ => rfl
      | ⟨1, _⟩ => rfl)
  have hbias : (iblk1 (V2 m ρ) c 4 t : Vec Ideal S1x40 .f32) (ix2 0 ⟨(y 2).val, hy2⟩) = argB m c (ix1 ⟨(y 2).val, hy2⟩) := by
    rw [iblk1_4_eq (V2 m ρ) c t, V2_bias m ρ c]
    exact shapeCast_apply (argB m c) shapeCasts_S40_S1x40 (ix2 0 ⟨(y 2).val, hy2⟩) (ix1 ⟨(y 2).val, hy2⟩) (by
      rw [Shape.rowMajor_val_one, Shape.rowMajor_val_two]
      show (y 2).val = 0 * 40 + (y 2).val
      omega)
  rw [hbias]
  unfold Cert.Spec.G
  refine congrArg (fun z => FloatOps.addf (F := Ideal) (φ := .f32) z (argB m c (ix1 ⟨(y 2).val, hy2⟩))) (Finset.sum_congr rfl fun j _ => ?_)
  rw [hw j, table_at m ρ c t h1]
  have ej : (⟨j.val / 8 * 8 + j.val % 8, by have := j.isLt; omega⟩ : Fin 512) = j := Fin.ext (by show j.val / 8 * 8 + j.val % 8 = j.val; omega)
  rw [ej]

/-- An index of the output array is in point `t`'s block iff each coordinate is in the block's range. -/
private theorem mem_blk_out (t : Fin cfg1.N) (i : S64x1x40.Idx) :
    i ∈ ((cfg1.win 5).blk t).view.set ↔ ∀ a : Fin 3, win1_5.index t a * S1x1x40.size a ≤ (i a).val ∧ (i a).val < win1_5.index t a * S1x1x40.size a + S1x1x40.size a := by
  show i ∈ ((View.whole main_v3).slice (win1_5.rect t)).set ↔ _
  rw [View.set_slice_whole, Rect.mem_set_unit]
  exact Iff.rfl

theorem outArr_apply (c : Dev nD) (b : Fin 64) (k : Fin 40) :
    outArr m ρ c (ix3 b 0 k) = Cert.Spec.G (argX m c) (argW m c) (argB m c) (ix2 b k) := by
  have hN : cfg1.N = 256 := N_1
  have hb : 4 * b.val + 3 < cfg1.N := by have := b.isLt; omega
  obtain ⟨e0', e1, e2⟩ := idx1_5 ⟨4 * b.val + 3, hb⟩
  have e0 : win1_5.index ⟨4 * b.val + 3, hb⟩ (0 : Fin 3) = (4 * b.val + 3) / 4 := e0'
  have hfl : (cfg1.win 5).flush ⟨4 * b.val + 3, hb⟩ = true := (flush1_5 ⟨4 * b.val + 3, hb⟩).mpr (by show (4 * b.val + 3) % 4 = 3; omega)
  refine ((dat1 (V2 m ρ) c).arrAt_apply_of_mem 5 (Gout m c) (fun t hf => flushed_out m ρ c t hf) cfg1.N ⟨4 * b.val + 3, hb⟩ (ix3 b 0 k) hb hfl ?_).trans ?_
  · rw [mem_blk_out]
    intro a
    match a with
    | ⟨0, _⟩ => show win1_5.index ⟨4 * b.val + 3, hb⟩ (0 : Fin 3) * 1 ≤ b.val ∧ b.val < win1_5.index ⟨4 * b.val + 3, hb⟩ (0 : Fin 3) * 1 + 1; omega
    | ⟨1, _⟩ => show win1_5.index ⟨4 * b.val + 3, hb⟩ (1 : Fin 3) * 1 ≤ 0 ∧ 0 < win1_5.index ⟨4 * b.val + 3, hb⟩ (1 : Fin 3) * 1 + 1; omega
    | ⟨2, _⟩ => show win1_5.index ⟨4 * b.val + 3, hb⟩ (2 : Fin 3) * 40 ≤ k.val ∧ k.val < win1_5.index ⟨4 * b.val + 3, hb⟩ (2 : Fin 3) * 40 + 40; have := k.isLt; omega
  · exact Gout_apply m c b k

/-- The program's result buffer at the end of the run is the function of Spec.lean of the three arguments as launched. -/
theorem kernel_value (c : Dev nD) :
    (W4 m ρ c (Proc.devRef .tc main_v4) : Vec Ideal S64x40 .f32) = Cert.Spec.G (argX m c) (argW m c) (argB m c) := by
  rw [W4_out m ρ c]
  funext i
  obtain ⟨b, k, rfl⟩ : ∃ (b : Fin 64) (k : Fin 40), i = ix2 b k := ⟨i 0, i 1, eq_ix2 i⟩
  refine (shapeCast_apply (outArr m ρ c) shapeCasts_S64x1x40_S64x40 (ix2 b k) (ix3 b 0 k) ?_).trans (outArr_apply m ρ c b k)
  rw [Shape.rowMajor_val_three, Shape.rowMajor_val_two]
  show (b.val * 1 + 0) * 40 + k.val = b.val * 40 + k.val
  omega

end Cert.KernelIdeal.Hand

end
-- ==== Proof.RefCells.lean ====
/-
  The reference up to the scatter's indices: a cloud's least and greatest coordinate values are the folds of Spec.lean,
  and the index a point scatters to is its number plus 512 times its cloud.
-/
import proofs.«106393_j65807488909790_1_alg».proof.Proof.Gen.ReferenceIdeal.Run
import proofs.«106393_j65807488909790_1_alg».proof.Proof.Gen.ReferenceIdeal.Read
import proofs.«106393_j65807488909790_1_alg».proof.Proof.Spec
import Idealize.ShloMosaic.Lib.ValueIdx
import Idealize.ShloMosaic.Lib.Pipeline.Value
import Idealize.ShloMosaic.PureOps.Ideal.Laws
import Idealize.ShloMosaic.PureOps.Reduce

noncomputable section

namespace Cert.RefValue

open Cert.ReferenceIdeal Cert.ReferenceIdeal.Gen Cert.ReferenceIdeal.Read Idealize.ShloMosaic Idealize.ShloMosaic.ValueIdx Cert.Spec

/-- Axis 1 of the clouds' shape dropped leaves (cloud, coordinate). -/
private theorem reduces_d1 : S64x100000x3.Reduces [1] S64x3 := by decide

/-- The index (b, d) with point `k` put back on axis 1 is (b, k, d). -/
private theorem lift_ix3 (h : S64x100000x3.Reduces [1] S64x3) (b : Fin 64) (d : Fin 3)
    (k : Fin (S64x100000x3.size 1)) :
    h.lift (ix2 b d) k = ix3 b (⟨k.val, k.isLt⟩ : Fin 100000) d := by
  funext c; apply Fin.ext
  fin_cases c <;> rfl

/-- The reference's minimum over the points, at a cloud and coordinate. -/
theorem lo_eq (x : (⟨S64x100000x3, .f32⟩ : BufTy).Contents (Elt Ideal)) (b : Fin 64) (d : Fin 3) :
    val_main_v0 (F := Ideal) x (ix2 b d) = Spec.lo x b d := by
  unfold val_main_v0 Spec.lo
  refine (Host.reduce_eq_fold_single (s := S64x100000x3) (t := S64x3) (a := 1) (u := S_)
    (FloatOps.minimumf (F := Ideal) (φ := .f32)) x (val_main_cst (F := Ideal))
    reducesTo_S64x100000x3_S64x3_d1 reduces_d1 h_S_ (ix2 b d)).trans ?_
  have hf : (x ∘ reduces_d1.lift (ix2 b d)) = fun n : Fin 100000 => x (ix3 b n d) :=
    funext fun k => congrArg x (lift_ix3 reduces_d1 b d k)
  rw [hf]
  rfl

/-- The reference's maximum. -/
theorem hi_eq (x : (⟨S64x100000x3, .f32⟩ : BufTy).Contents (Elt Ideal)) (b : Fin 64) (d : Fin 3) :
    val_main_v2 (F := Ideal) x (ix2 b d) = Spec.hi x b d := by
  unfold val_main_v2 Spec.hi
  refine (Host.reduce_eq_fold_single (s := S64x100000x3) (t := S64x3) (a := 1) (u := S_)
    (FloatOps.maximumf (F := Ideal) (φ := .f32)) x (val_main_cst_0 (F := Ideal))
    reducesTo_S64x100000x3_S64x3_d1 reduces_d1 h_S_ (ix2 b d)).trans ?_
  have hf : (x ∘ reduces_d1.lift (ix2 b d)) = fun n : Fin 100000 => x (ix3 b n d) :=
    funext fun k => congrArg x (lift_ix3 reduces_d1 b d k)
  rw [hf]
  rfl

/-- The least value, kept on a unit axis, at (b, 0, d). -/
private theorem v1_eq (x : (⟨S64x100000x3, .f32⟩ : BufTy).Contents (Elt Ideal)) (b : Fin 64) (d : Fin 3) :
    val_main_v1 (F := Ideal) x (ix3 b (0 : Fin 1) d) = Spec.lo x b d := by
  rw [val_main_v1_apply]
  have e : idx_main_v1 (ix3 b (0 : Fin 1) d) = ix2 b d := by
    funext a; match a with | ⟨0, _⟩ => rfl | ⟨1, _⟩ => rfl
  rw [e, lo_eq]

/-- The greatest likewise. -/
private theorem v3_eq (x : (⟨S64x100000x3, .f32⟩ : BufTy).Contents (Elt Ideal)) (b : Fin 64) (d : Fin 3) :
    val_main_v3 (F := Ideal) x (ix3 b (0 : Fin 1) d) = Spec.hi x b d := by
  rw [val_main_v3_apply]
  have e : idx_main_v3 (ix3 b (0 : Fin 1) d) = ix2 b d := by
    funext a; match a with | ⟨0, _⟩ => rfl | ⟨1, _⟩ => rfl
  rw [e, hi_eq]

/-- The scale at (b, 0, d): 8 over the width, or over 1. -/
private theorem v9_eq (x : (⟨S64x100000x3, .f32⟩ : BufTy).Contents (Elt Ideal)) (b : Fin 64) (d : Fin 3) :
    val_main_v9 (F := Ideal) x (ix3 b (0 : Fin 1) d) = Spec.scaleS (Spec.lo x b d) (Spec.hi x b d) := by
  rw [val_main_v9_apply, val_main_v8_apply, val_main_cst_3_apply, val_main_v7_apply, val_main_v6_apply,
    val_main_v4_apply, v3_eq, v1_eq, val_main_v5_apply, val_main_cst_1_apply, val_main_call0_v1_apply,
    val_main_call0_v0_apply, val_main_cst_2_apply]
  rfl

/-- A point's index with its point coordinate set to the unit axis's 0. -/
private theorem idx10_eq (b : Fin 64) (n : Fin 100000) (d : Fin 3) :
    idx_main_v10 (ix3 b n d) = ix3 b (0 : Fin 1) d := by
  funext a; match a with | ⟨0, _⟩ => rfl | ⟨1, _⟩ => rfl | ⟨2, _⟩ => rfl

/-- The same for the scale's index. -/
private theorem idx12_eq (b : Fin 64) (n : Fin 100000) (d : Fin 3) :
    idx_main_v12 (ix3 b n d) = ix3 b (0 : Fin 1) d := by
  funext a; match a with | ⟨0, _⟩ => rfl | ⟨1, _⟩ => rfl | ⟨2, _⟩ => rfl

/-- The scaled offset of coordinate `d` of point `n` of cloud `b`. -/
private theorem v13_eq (x : (⟨S64x100000x3, .f32⟩ : BufTy).Contents (Elt Ideal)) (b : Fin 64) (n : Fin 100000) (d : Fin 3) :
    val_main_v13 (F := Ideal) x (ix3 b n d)
      = FloatOps.mulf (F := Ideal) (φ := .f32) (FloatOps.subf (F := Ideal) (φ := .f32) (x (ix3 b n d)) (Spec.lo x b d))
          (Spec.scaleS (Spec.lo x b d) (Spec.hi x b d)) := by
  rw [val_main_v13_apply, val_main_v11_apply, val_main_v10_apply, val_main_v12_apply, idx10_eq, idx12_eq, v1_eq, v9_eq]

/-- The clipped cell of coordinate `d` of point `n` of cloud `b`. -/
private theorem bin_eq (x : (⟨S64x100000x3, .f32⟩ : BufTy).Contents (Elt Ideal)) (b : Fin 64) (n : Fin 100000) (d : Fin 3) :
    val_main_v16 (F := Ideal) x (ix3 b n d) = Spec.binS (x (ix3 b n d)) (Spec.lo x b d) (Spec.hi x b d) := by
  rw [val_main_v16_apply, val_main_call1_v4_apply, val_main_call1_v3_apply, val_main_c_4_apply,
    val_main_call1_v2_apply, val_main_call1_v1_apply, val_main_call1_v0_apply, val_main_c_apply,
    val_main_v15_apply, val_main_v14_apply, v13_eq]
  rfl

/-- A point's index, flattened and cut again, then widened by coordinate 0, is (b, n, 0). -/
private theorem idx_c0 (b : Fin 64) (n : Fin 100000) :
    idx_main_v17 (idx_main_v18 (ix2 b n)) = ix3 b n (0 : Fin 3) := by
  funext a; apply Fin.ext
  have hb := b.isLt; have hn := n.isLt
  match a with
  | ⟨0, _⟩ => show (b.val * 100000 + n.val) / 100000 = b.val; omega
  | ⟨1, _⟩ => show (b.val * 100000 + n.val) / 1 % 100000 = n.val; omega
  | ⟨2, _⟩ => rfl

/-- By coordinate 1. -/
private theorem idx_c1 (b : Fin 64) (n : Fin 100000) :
    idx_main_v21 (idx_main_v22 (ix2 b n)) = ix3 b n (1 : Fin 3) := by
  funext a; apply Fin.ext
  have hb := b.isLt; have hn := n.isLt
  match a with
  | ⟨0, _⟩ => show (b.val * 100000 + n.val) / 100000 = b.val; omega
  | ⟨1, _⟩ => show (b.val * 100000 + n.val) / 1 % 100000 = n.val; omega
  | ⟨2, _⟩ => rfl

/-- By coordinate 2. -/
private theorem idx_c2 (b : Fin 64) (n : Fin 100000) :
    idx_main_v26 (idx_main_v27 (ix2 b n)) = ix3 b n (2 : Fin 3) := by
  funext a; apply Fin.ext
  have hb := b.isLt; have hn := n.isLt
  match a with
  | ⟨0, _⟩ => show (b.val * 100000 + n.val) / 100000 = b.val; omega
  | ⟨1, _⟩ => show (b.val * 100000 + n.val) / 1 % 100000 = n.val; omega
  | ⟨2, _⟩ => rfl

/-- The cloud's index under a point's index. -/
private theorem idx_cloud (b : Fin 64) (n : Fin 100000) :
    idx_main_v32 (idx_main_v33 (ix2 b n)) = ix1 b := by
  funext a; match a with | ⟨0, _⟩ => rfl

/-- The cell of coordinate 0 of point `n` of cloud `b`. -/
private theorem c0_eq (x : (⟨S64x100000x3, .f32⟩ : BufTy).Contents (Elt Ideal)) (b : Fin 64) (n : Fin 100000) :
    val_main_v18 (F := Ideal) x (ix2 b n)
      = Spec.binS (x (ix3 b n (0 : Fin 3))) (Spec.lo x b 0) (Spec.hi x b 0) := by
  rw [val_main_v18_apply, val_main_v17_apply, idx_c0, bin_eq]

/-- Of coordinate 1. -/
private theorem c1_eq (x : (⟨S64x100000x3, .f32⟩ : BufTy).Contents (Elt Ideal)) (b : Fin 64) (n : Fin 100000) :
    val_main_v22 (F := Ideal) x (ix2 b n)
      = Spec.binS (x (ix3 b n (1 : Fin 3))) (Spec.lo x b 1) (Spec.hi x b 1) := by
  rw [val_main_v22_apply, val_main_v21_apply, idx_c1, bin_eq]

/-- Of coordinate 2. -/
private theorem c2_eq (x : (⟨S64x100000x3, .f32⟩ : BufTy).Contents (Elt Ideal)) (b : Fin 64) (n : Fin 100000) :
    val_main_v27 (F := Ideal) x (ix2 b n)
      = Spec.binS (x (ix3 b n (2 : Fin 3))) (Spec.lo x b 2) (Spec.hi x b 2) := by
  rw [val_main_v27_apply, val_main_v26_apply, idx_c2, bin_eq]

/-- The cloud's offset: 512 b. -/
private theorem off_eq (b : Fin 64) (n : Fin 100000) :
    val_main_v33 (F := Ideal) (ix2 b n) = IntOp.muli (BitVec.ofNat 32 b.val) 512#32 := by
  rw [val_main_v33_apply, val_main_v32_apply, idx_cloud, val_main_v31_apply, val_main_v29_apply, val_main_v30_apply,
    val_main_c_7_apply]

/-- The index point `n` of cloud `b` scatters to: its number, plus 512 b. -/
theorem cell_eq (x : (⟨S64x100000x3, .f32⟩ : BufTy).Contents (Elt Ideal)) (b : Fin 64) (n : Fin 100000) :
    val_main_v34 (F := Ideal) x (ix2 b n) = IntOp.addi (Spec.cell x b n) (IntOp.muli (BitVec.ofNat 32 b.val) 512#32) := by
  rw [val_main_v34_apply, val_main_v28_apply, val_main_v25_apply, val_main_v23_apply, val_main_v20_apply,
    c0_eq, c1_eq, c2_eq, val_main_v19_apply, val_main_c_5_apply, val_main_v24_apply, val_main_c_6_apply, off_eq]
  rfl

end Cert.RefValue

end
-- ==== Proof.RefCount.lean ====
/-
  The reference's scatter of ones: entry 512 b + j of its result is the number of points of cloud b whose number is j.

  The scatter has one index per update and no window: update u lands at the entry its index names, read as a signed
  integer, when that lies in 0..32767. Update u = 100000 b' + n carries the index 512 b' + (the number of point n of
  cloud b'), which is below 32768; it names entry 512 b + j exactly when b' = b and the number is j. So the sum over
  the 6400000 updates of the ones that land at 512 b + j is the sum over cloud b's points of [number = j].
-/
import proofs.«106393_j65807488909790_1_alg».proof.Proof.Gen.ReferenceIdeal.Run
import proofs.«106393_j65807488909790_1_alg».proof.Proof.Gen.ReferenceIdeal.Read
import proofs.«106393_j65807488909790_1_alg».proof.Proof.Spec
import proofs.«106393_j65807488909790_1_alg».proof.Proof.SpecFacts
import proofs.«106393_j65807488909790_1_alg».proof.Proof.RefCells
import Idealize.ShloMosaic.Lib.ValueIdx
import Idealize.ShloMosaic.Lib.Pipeline.Value
import Idealize.ShloMosaic.PureOps.Ideal.Laws

noncomputable section

namespace Cert.RefValue

open Cert.ReferenceIdeal Cert.ReferenceIdeal.Gen Cert.ReferenceIdeal.Read Idealize.ShloMosaic Idealize.ShloMosaic.ValueIdx Cert.Spec

/-- The start of update `n`'s window: its index, read signed. -/
private theorem scatter_start (idx : IVec S6400000x1 32) (n : Fin 6400000) (a : Fin 1) :
    scatter_S32768_S6400000x1_S6400000_n_0_0_1.start (ix1 n) idx a = (idx (ix2 n (0 : Fin 1))).toInt := by
  obtain rfl : a = 0 := Subsingleton.elim _ _
  unfold ScatterDims.start
  rw [dif_pos (show (0 : Fin 1) ∈ scatter_S32768_S6400000x1_S6400000_n_0_0_1.scatterDimsToOperandDims from List.mem_singleton.mpr rfl)]
  congr 2
  funext b
  refine Fin.ext ?_
  match b with
  | ⟨0, _⟩ => rfl
  | ⟨1, _⟩ => rfl

/-- The scatter has no window axis: the window coordinate is 0. -/
private theorem scatter_window (n : Fin 6400000) (a : Fin 1) :
    scatter_S32768_S6400000x1_S6400000_n_0_0_1.window (ix1 n) a = 0 := by
  obtain rfl : a = 0 := Subsingleton.elim _ _
  unfold ScatterDims.window
  rw [dif_neg]
  decide

/-- Update `n` lands at entry `i` exactly when its index, read signed, is `i`. -/
private theorem scatter_resultIdx (idx : IVec S6400000x1 32) (n : Fin 6400000) (i : Fin 32768) :
    scatter_S32768_S6400000x1_S6400000_n_0_0_1.resultIdx? (ix1 n) idx = some (ix1 i) ↔
      (idx (ix2 n (0 : Fin 1))).toInt = (i.val : Int) := by
  have hs := fun a => scatter_start idx n a
  have hw := fun a => scatter_window n a
  have hi : i.val < 32768 := i.isLt
  unfold ScatterDims.resultIdx?
  split
  · rename_i hh
    have h0 := hh 0
    rw [hs, hw] at h0
    constructor
    · intro h
      have h1 := congrArg (fun f => (f 0).val) (Option.some.inj h)
      simp only [hs, hw] at h1
      change _ = i.val at h1
      omega
    · intro h
      congr 1; funext a
      obtain rfl : a = 0 := Subsingleton.elim _ _
      apply Fin.ext
      show (_ + _ : Int).toNat = i.val
      rw [hs, hw]; omega
  · rename_i hh
    constructor
    · intro h; cases h
    · intro h; exfalso; apply hh; intro a
      obtain rfl : a = 0 := Subsingleton.elim _ _
      rw [hs, hw]
      show (0 : Int) ≤ _ ∧ _ < ((32768 : Nat) : Int)
      omega

/-- The f32 literal one is the extended real one. -/
private theorem ofBits_one_f32 : Ideal.ofBits .f32 0x3F800000#32 = 1 := by
  simp [Ideal.ofBits, Ideal.ieee, -EReal.coe_mul]; norm_num

/-- A rank-1 index set is its coordinate's range. -/
private def idxEquiv1 : S6400000.Idx ≃ Fin 6400000 where
  toFun i := ⟨(i 0).val, (i 0).isLt⟩
  invFun := ix1
  left_inv i := (eq_ix1 i).symm
  right_inv _ := rfl

/-- Cloud and point to the row-major position among the 6400000 updates. -/
private def flatEquiv : Fin 64 × Fin 100000 ≃ Fin 6400000 where
  toFun p := ⟨p.1.val * 100000 + p.2.val, by have := p.1.isLt; have := p.2.isLt; omega⟩
  invFun k := (⟨k.val / 100000, by have := k.isLt; omega⟩, ⟨k.val % 100000, by omega⟩)
  left_inv p := by
    obtain ⟨⟨a, ha⟩, ⟨c, hc⟩⟩ := p
    refine Prod.ext (Fin.ext ?_) (Fin.ext ?_)
    · show (a * 100000 + c) / 100000 = a; omega
    · show (a * 100000 + c) % 100000 = c; omega
  right_inv k := by
    apply Fin.ext
    show k.val / 100000 * 100000 + k.val % 100000 = k.val
    omega

/-- The scatter's index table at the update of point `n` of cloud `b'`. -/
private theorem indices_at (x : (⟨S64x100000x3, .f32⟩ : BufTy).Contents (Elt Ideal)) (b' : Fin 64) (n : Fin 100000) :
    val_main_v38 (F := Ideal) x (ix2 (flatEquiv (b', n)) (0 : Fin 1)) = val_main_v34 (F := Ideal) x (ix2 b' n) := by
  rw [val_main_v38_apply, val_main_v36_apply]
  congr 1
  funext a
  have hb := b'.isLt; have hn := n.isLt
  match a with
  | ⟨0, _⟩ => exact Fin.ext (show (b'.val * 100000 + n.val) / 100000 = b'.val by omega)
  | ⟨1, _⟩ => exact Fin.ext (show (b'.val * 100000 + n.val) % 100000 = n.val by omega)

/-- Where a point lands: at entry `512 b + j` exactly when its cloud is `b` and its number `j`. -/
private theorem lands_iff (x : (⟨S64x100000x3, .f32⟩ : BufTy).Contents (Elt Ideal)) (b' : Fin 64) (n : Fin 100000)
    (b : Fin 64) (j : Fin 512) :
    (val_main_v34 (F := Ideal) x (ix2 b' n)).toInt = ((b.val * 512 + j.val : Nat) : Int) ↔
      (b' = b ∧ Spec.cell x b' n = BitVec.ofNat 32 j.val) := by
  rw [cell_eq]
  have hc : (Spec.cell x b' n).toNat < 512 := cellS_lt _ _ _
  generalize Spec.cell x b' n = c at hc ⊢
  have hb' := b'.isLt; have hb := b.isLt; have hj := j.isLt
  unfold IntOp.addi IntOp.muli
  rw [BitVec.toInt_eq_toNat_cond, BitVec.toNat_eq, BitVec.toNat_add, BitVec.toNat_mul, BitVec.toNat_ofNat, BitVec.toNat_ofNat,
    BitVec.toNat_ofNat]
  simp only [Nat.reducePow, Nat.reduceMod]
  constructor
  · intro h
    split at h
    · refine ⟨Fin.ext ?_, ?_⟩ <;> omega
    · omega
  · rintro ⟨rfl, h⟩
    split <;> omega

/-- The accumulating scatter read at an entry: the operand there plus the sum of the updates that land there. -/
private theorem scatterAdd_at (v : FVec Ideal S32768 .f32) (idx : IVec S6400000x1 32) (upd : FVec Ideal S6400000 .f32) (i : S32768.Idx) :
    Host.scatterAdd (F := Ideal) scatter_S32768_S6400000x1_S6400000_n_0_0_1 v idx upd i
      = v i + ∑ u ∈ Finset.univ.filter (fun u => scatter_S32768_S6400000x1_S6400000_n_0_0_1.resultIdx? u idx = some i), upd u := rfl

/-- A sum over the 6400000 updates, as the sum over clouds of the sum over points. -/
private theorem sum_updates {M : Type*} [AddCommMonoid M] (f : S6400000.Idx → M) :
    ∑ u, f u = ∑ b' : Fin 64, ∑ n : Fin 100000, f (ix1 (flatEquiv (b', n))) := by
  rw [← Equiv.sum_comp idxEquiv1.symm f, ← Equiv.sum_comp flatEquiv, Fintype.sum_prod_type]
  rfl

/-- The scatter-add of 6400000 ones into 32768 zeros at the points' indices, read at entry `512 b + j`: the count of
    Spec.lean. (A point of cloud `b'` lands at `512 b' + its number`, its number below 512: it lands at `512 b + j`
    exactly when `b' = b` and its number is `j`.) -/
theorem count_eq (x : (⟨S64x100000x3, .f32⟩ : BufTy).Contents (Elt Ideal)) (b : Fin 64) (j : Fin 512) :
    val_main_v39 (F := Ideal) x (ix1 ⟨b.val * 512 + j.val, by omega⟩) = Spec.cnt x b j := by
  unfold val_main_v39
  rw [scatterAdd_at, val_main_v37_apply, val_main_cst_9_apply, Ideal.ofBits_def, Ideal.ofBits_zero_f32, zero_add, Finset.sum_filter,
    sum_updates, Finset.sum_eq_single b]
  · unfold Spec.cnt
    refine Finset.sum_congr rfl fun n _ => ?_
    refine if_congr ?_ ?_ rfl
    · rw [scatter_resultIdx, indices_at, lands_iff]
      exact ⟨fun h => h.2, fun h => ⟨rfl, h⟩⟩
    · rw [val_main_v35_apply, val_main_cst_8_apply, Ideal.ofBits_def, ofBits_one_f32]
  · intro b' _ hne
    refine Finset.sum_eq_zero fun n _ => ?_
    refine if_neg ?_
    rw [scatter_resultIdx, indices_at, lands_iff]
    exact fun h => hne h.1
  · intro h; exact absurd (Finset.mem_univ b) h

end Cert.RefValue

end
-- ==== Proof.RefValue.lean ====
/-
  The reference's result, read one operation at a time, is the function of Spec.lean.
-/
import proofs.«106393_j65807488909790_1_alg».proof.Proof.Gen.ReferenceIdeal.Run
import proofs.«106393_j65807488909790_1_alg».proof.Proof.Gen.ReferenceIdeal.Read
import proofs.«106393_j65807488909790_1_alg».proof.Proof.Spec
import proofs.«106393_j65807488909790_1_alg».proof.Proof.RefCells
import proofs.«106393_j65807488909790_1_alg».proof.Proof.RefCount
import Idealize.ShloMosaic.Lib.ValueIdx
import Idealize.ShloMosaic.Lib.Pipeline.Value
import Idealize.ShloMosaic.PureOps.Ideal.Laws

noncomputable section

namespace Cert.RefValue

open Cert.ReferenceIdeal Cert.ReferenceIdeal.Gen Cert.ReferenceIdeal.Read Idealize.ShloMosaic Idealize.ShloMosaic.ValueIdx Cert.Spec

/-- The flat position of entry `(a, k)` of the 64 by 512 table: `512 a + k`. -/
private theorem flat_idx (i : S64x40.Idx) (k : Fin 512) :
    idx_main_v40 (lidx_main_v44 i k)
      = ix1 ⟨(⟨(i 0).val, (i 0).isLt⟩ : Fin 64).val * 512 + k.val, by have h0 : (i 0).val < 64 := idx2_lt0 i; have h1 := k.isLt; show (i 0).val * 512 + k.val < 32768; omega⟩ := by
  funext a
  match a with
  | ⟨0, _⟩ => rfl

/-- The weights' entry the transposed table reads at `(k, c)`: row `c`, column `k`. -/
private theorem w_idx (i : S64x40.Idx) (k : Fin 512) :
    idx_main_v43 (ridx_main_v44 i k) = ix2 (⟨(i 1).val, (i 1).isLt⟩ : Fin 40) k := by
  funext a
  match a with
  | ⟨0, _⟩ => rfl
  | ⟨1, _⟩ => rfl

/-- The bias entry broadcast to `(a, c)`: entry `c`. -/
private theorem b_idx (i : S64x40.Idx) :
    idx_main_v45 (idx_main_v46 i) = ix1 (⟨(i 1).val, (i 1).isLt⟩ : Fin 40) := by
  funext a
  match a with
  | ⟨0, _⟩ => rfl

/-- The reference's last stage, as a function of its three arguments, is `Spec.G`. -/
theorem ref_eq (x : (⟨S64x100000x3, .f32⟩ : BufTy).Contents (Elt Ideal)) (W : (⟨S40x512, .f32⟩ : BufTy).Contents (Elt Ideal))
    (b : (⟨S40, .f32⟩ : BufTy).Contents (Elt Ideal)) :
    val_main_v47 (F := Ideal) x W b = Cert.Spec.G x W b := by
  funext i
  unfold Cert.Spec.G
  rw [val_main_v47_apply, val_main_v44_apply, val_main_v46_apply, val_main_v45_apply, b_idx]
  have hs : (∑ k : Fin 512, val_main_v42 (F := Ideal) x (lidx_main_v44 i k) * val_main_v43 (F := Ideal) W (ridx_main_v44 i k))
      = ∑ j : Fin 512, FloatOps.hostDivf (F := Ideal) (φ := .f32) (cnt x ⟨(i 0).val, (i 0).isLt⟩ j) cN * W (ix2 ⟨(i 1).val, (i 1).isLt⟩ j) := by
    refine Finset.sum_congr rfl fun k _ => ?_
    rw [val_main_v42_apply, val_main_v40_apply, val_main_v41_apply, val_main_cst_10_apply, val_main_v43_apply,
      flat_idx, w_idx, count_eq x ⟨(i 0).val, (i 0).isLt⟩ k]
  rw [hs]

end Cert.RefValue

end
-- ==== Proof.lean ====
/-
  The proof of the certificate's claim.

  Both programs take 64 clouds of 100000 points, a 40 x 512 matrix of weights and a bias of 40. The kernel runs two
  regions: the first takes each cloud's least and greatest value per coordinate; the second walks each cloud in four
  tiles, keeps a 64 x 8 table of counts (reset at a cloud's first tile, each tile's one-hot rows multiplied and added
  to it), and at the cloud's last tile divides the table by 100000, multiplies it with the transposed weights and adds
  the bias. The reference computes every point's cell number, scatters a one to it, divides, multiplies and adds.

  Over the extended reals both results are the one function of Spec.lean: the kernel's product of the two one-hot rows
  of a point is one exactly where the point's number is 8 p + q, so the table's entry is the count the scatter makes,
  and a sum over the four tiles of a cloud is the sum over the cloud. No law used needs the inputs finite: sums are
  only regrouped.

  The three frames: the kernel's two (word-level and idealized) are the run of its four segments — region, host
  stretch, region, host stretch — whose last contents leave the argument arrays as launched; the reference's is its
  run with the result dropped. The idealization rewrote nothing, so the fourth conjunct is trivial.
-/
import proofs.«106393_j65807488909790_1_alg».proof.Defs
import proofs.«106393_j65807488909790_1_alg».proof.Proof.Gen.Kernel
import proofs.«106393_j65807488909790_1_alg».proof.Proof.Gen.KernelIdeal
import proofs.«106393_j65807488909790_1_alg».proof.Proof.Gen.ReferenceIdeal
import proofs.«106393_j65807488909790_1_alg».proof.Proof.Gen.Pre_finite_inputs
import proofs.«106393_j65807488909790_1_alg».proof.Proof.Gen.ReferenceIdeal.Run
import proofs.«106393_j65807488909790_1_alg».proof.Proof.Gen.ReferenceIdeal.Read
import proofs.«106393_j65807488909790_1_alg».proof.Proof.K.Run
import proofs.«106393_j65807488909790_1_alg».proof.Proof.KI.Out
import proofs.«106393_j65807488909790_1_alg».proof.Proof.RefValue

noncomputable section

namespace Cert.Proof

open Idealize.ShloMosaic Idealize.ShloMosaic.TcCoe Idealize.SL.Sem

theorem frame_k : @Cert.frame_Kernel Cert.Kernel.Gen.facts Cert.Pre_finite_inputs.Gen.facts :=
  fun m ρ _ => Cert.Kernel.Hand.frame (F := Bits) m ρ

theorem frame_ki : @Cert.frame_KernelIdeal Cert.KernelIdeal.Gen.facts Cert.Pre_finite_inputs.Gen.facts :=
  fun m ρ _ => Cert.KernelIdeal.Hand.frame (F := Ideal) m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- The two idealized programs, from memories agreeing on the arguments, end with the same result: the function of
    Spec.lean of the arguments. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.Spec.G (Cert.KernelIdeal.Hand.argX m c) (Cert.KernelIdeal.Hand.argW m c) (Cert.KernelIdeal.Hand.argB m c), ?_, ?_⟩
  · refine (θ_run Cert.KernelIdeal.defs _ _).mono (fun r h c => ⟨?_, ?_, ?_, ?_⟩) (Cert.KernelIdeal.Hand.run_main (F := Ideal) m ρ)
    · exact (h c _ (Cert.KernelIdeal.Hand.mem_uc Cert.KernelIdeal.main_v4 (by decide))).trans (Cert.KernelIdeal.Hand.kernel_value m ρ c)
    · exact (h c _ (Cert.KernelIdeal.Hand.mem_uc Cert.KernelIdeal.main_arg0 (by decide))).trans (Cert.KernelIdeal.Hand.W4_main_arg0 m ρ c)
    · exact (h c _ (Cert.KernelIdeal.Hand.mem_uc Cert.KernelIdeal.main_arg1 (by decide))).trans (Cert.KernelIdeal.Hand.W4_main_arg1 m ρ c)
    · exact (h c _ (Cert.KernelIdeal.Hand.mem_uc Cert.KernelIdeal.main_arg2 (by decide))).trans (Cert.KernelIdeal.Hand.W4_main_arg2 m ρ c)
  · refine (θ_run Cert.ReferenceIdeal.defs _ _).mono (fun _ h c => ⟨?_, (h c).2⟩) (Cert.ReferenceIdeal.Value.run (F := Ideal) m' ρ')
    rw [(h c).1, Cert.ReferenceIdeal.Read.val_main_v47_eq, Cert.RefValue.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
